-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x20x20 : Shape := ⟨4, ![32, 512, 20, 20]⟩
abbrev S512x256 : Shape := ⟨2, ![512, 256]⟩
abbrev S256 : Shape := ⟨1, ![256]⟩
abbrev S1024x512 : Shape := ⟨2, ![1024, 512]⟩
abbrev S512 : Shape := ⟨1, ![512]⟩
abbrev S_ : Shape := ⟨0, ![]⟩

class Facts : Prop where
  bcast_S_S32x512x20x20 : S_.BroadcastsInDim S32x512x20x20 (![] : Fin 0 → Fin S32x512x20x20.rank)
  reducesTo_S32x512x20x20_S_d0_1_2_3 : S32x512x20x20.ReducesTo [0, 1, 2, 3] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S1024x512 .f32) (main_arg5 : FVec F S512 .f32) (main_arg6 : FVec F S512 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S32x512x20x20 .f32) (main_arg1 : FVec F S512x256 .f32) (main_arg2 : FVec F S256 .f32) (main_arg3 : FVec F S256 .f32) (main_arg4 : FVec F S1024x512 .f32) (main_arg5 : FVec F S512 .f32) (main_arg6 : FVec F S512 .f32) : IVec S_ 1 :=
  let main_v0 : FVec F S32x512x20x20 .f32 := Host.absf main_arg0
  let main_cst : FVec F S_ .f32 := constant S_ .f32 0x7F800000#32
  let main_v1 : FVec F S32x512x20x20 .f32 := broadcastInDim S32x512x20x20 ![] bcast_S_S32x512x20x20 main_cst
  let main_v2 : IVec S32x512x20x20 1 := cmpf .olt main_v0 main_v1
  let main_c : IVec S_ 1 := constantI S_ 1 1#1
  let main_v3 : IVec S_ 1 := (fun x v => Host.reduce IntOp.andi x v reducesTo_S32x512x20x20_S_d0_1_2_3 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S32x512x20x20 : Shape := ⟨4, ![32, 512, 20, 20]⟩
abbrev S512x256 : Shape := ⟨2, ![512, 256]⟩
abbrev S256 : Shape := ⟨1, ![256]⟩
abbrev S1024x512 : Shape := ⟨2, ![1024, 512]⟩
abbrev S512 : Shape := ⟨1, ![512]⟩
abbrev S32x512x400 : Shape := ⟨3, ![32, 512, 400]⟩
abbrev S4x256x512 : Shape := ⟨3, ![4, 256, 512]⟩
abbrev S1x256 : Shape := ⟨2, ![1, 256]⟩
abbrev S512x1 : Shape := ⟨2, ![512, 1]⟩
abbrev S1x512x400 : Shape := ⟨3, ![1, 512, 400]⟩
abbrev S512x400 : Shape := ⟨2, ![512, 400]⟩
abbrev S400x256 : Shape := ⟨2, ![400, 256]⟩
abbrev S20x20x256 : Shape := ⟨3, ![20, 20, 256]⟩
abbrev S6x20x256 : Shape := ⟨3, ![6, 20, 256]⟩
abbrev S32x20x256 : Shape := ⟨3, ![32, 20, 256]⟩
abbrev S32x6x256 : Shape := ⟨3, ![32, 6, 256]⟩
abbrev S32x32x256 : Shape := ⟨3, ![32, 32, 256]⟩
abbrev S31x32x256 : Shape := ⟨3, ![31, 32, 256]⟩
abbrev S29x32x256 : Shape := ⟨3, ![29, 32, 256]⟩
abbrev S28x32x256 : Shape := ⟨3, ![28, 32, 256]⟩
abbrev S28x31x256 : Shape := ⟨3, ![28, 31, 256]⟩
abbrev S28x29x256 : Shape := ⟨3, ![28, 29, 256]⟩
abbrev S28x28x256 : Shape := ⟨3, ![28, 28, 256]⟩
abbrev S27x28x256 : Shape := ⟨3, ![27, 28, 256]⟩
abbrev S25x28x256 : Shape := ⟨3, ![25, 28, 256]⟩
abbrev S24x28x256 : Shape := ⟨3, ![24, 28, 256]⟩
abbrev S24x27x256 : Shape := ⟨3, ![24, 27, 256]⟩
abbrev S24x25x256 : Shape := ⟨3, ![24, 25, 256]⟩
abbrev S24x24x256 : Shape := ⟨3, ![24, 24, 256]⟩
abbrev S23x24x256 : Shape := ⟨3, ![23, 24, 256]⟩
abbrev S21x24x256 : Shape := ⟨3, ![21, 24, 256]⟩
abbrev S20x24x256 : Shape := ⟨3, ![20, 24, 256]⟩
abbrev S20x23x256 : Shape := ⟨3, ![20, 23, 256]⟩
abbrev S20x21x256 : Shape := ⟨3, ![20, 21, 256]⟩
abbrev S1x256x512 : Shape := ⟨3, ![1, 256, 512]⟩
abbrev S256x512 : Shape := ⟨2, ![256, 512]⟩

abbrev nBuf : Space → Nat
  | .hbm => 17
  | .vmem => 10
  | .smem => 0
  | _ => 0

abbrev bufTy : (tb : Table) → Fin (tcTables nBuf tb) → BufTy
  | .hbm, ⟨0, _⟩ => ⟨S32x512x20x20, .f32⟩
  | .hbm, ⟨1, _⟩ => ⟨S512x256, .f32⟩
  | .hbm, ⟨2, _⟩ => ⟨S256, .f32⟩
  | .hbm, ⟨3, _⟩ => ⟨S256, .f32⟩
  | .hbm, ⟨4, _⟩ => ⟨S1024x512, .f32⟩
  | .hbm, ⟨5, _⟩ => ⟨S512, .f32⟩
  | .hbm, ⟨6, _⟩ => ⟨S512, .f32⟩
  | .hbm, ⟨7, _⟩ => ⟨S32x512x400, .f32⟩
  | .hbm, ⟨8, _⟩ => ⟨S512x256, .bf16⟩
  | .hbm, ⟨9, _⟩ => ⟨S4x256x512, .f32⟩
  | .hbm, ⟨10, _⟩ => ⟨S4x256x512, .bf16⟩
  | .hbm, ⟨11, _⟩ => ⟨S1x256, .f32⟩
  | .hbm, ⟨12, _⟩ => ⟨S1x256, .f32⟩
  | .hbm, ⟨13, _⟩ => ⟨S512x1, .f32⟩
  | .hbm, ⟨14, _⟩ => ⟨S512x1, .f32⟩
  | .hbm, ⟨15, _⟩ => ⟨S32x512x400, .f32⟩
  | .hbm, ⟨16, _⟩ => ⟨S32x512x20x20, .f32⟩
  | .local _ .vmem, ⟨0, _⟩ => ⟨S1x512x400, .f32⟩
  | .local _ .vmem, ⟨1, _⟩ => ⟨S1x512x400, .f32⟩
  | .local _ .vmem, ⟨2, _⟩ => ⟨S512x256, .bf16⟩
  | .local _ .vmem, ⟨3, _⟩ => ⟨S4x256x512, .bf16⟩
  | .local _ .vmem, ⟨4, _⟩ => ⟨S1x256, .f32⟩
  | .local _ .vmem, ⟨5, _⟩ => ⟨S1x256, .f32⟩
  | .local _ .vmem, ⟨6, _⟩ => ⟨S512x1, .f32⟩
  | .local _ .vmem, ⟨7, _⟩ => ⟨S512x1, .f32⟩
  | .local _ .vmem, ⟨8, _⟩ => ⟨S1x512x400, .f32⟩
  | .local _ .vmem, ⟨9, _⟩ => ⟨S1x512x400, .f32⟩
  | _, _ => ⟨S32x512x20x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x400 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32x512x20x20_S32x512x400 : S32x512x20x20.ShapeCasts S32x512x400
  bitsLt_bf16_f32 : FTy.bits .bf16 < FTy.bits .f32
  shapeCasts_S1024x512_S4x256x512 : S1024x512.ShapeCasts S4x256x512
  shapeCasts_S256_S1x256 : S256.ShapeCasts S1x256
  shapeCasts_S512_S512x1 : S512.ShapeCasts S512x1
  shapeCasts_S32x512x400_S32x512x20x20 : S32x512x400.ShapeCasts S32x512x20x20
  inb_S1x512x400_S1x512x400_0_0_0 : ∀ a, (![0, 0, 0] : Fin 3 → Nat) a + S1x512x400.size a ≤ S1x512x400.size a
  h_S1x512x400 : 0 < S1x512x400.numel
  shapeCasts_S1x512x400_S512x400 : S1x512x400.ShapeCasts S512x400
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  shapeCasts_S400x256_S20x20x256 : S400x256.ShapeCasts S20x20x256
  concatenates_S6x20x256_S20x20x256_S6x20x256_S32x20x256_d0 : Shape.Concatenates [S6x20x256, S20x20x256, S6x20x256] S32x20x256 0
  concatenates_S32x6x256_S32x20x256_S32x6x256_S32x32x256_d1 : Shape.Concatenates [S32x6x256, S32x20x256, S32x6x256] S32x32x256 1
  slices_S32x32x256_o0_0_0_S31x32x256 : S32x32x256.Slices ![0, 0, 0] S31x32x256
  slices_S32x32x256_o1_0_0_S31x32x256 : S32x32x256.Slices ![1, 0, 0] S31x32x256
  slices_S31x32x256_o0_0_0_S29x32x256 : S31x32x256.Slices ![0, 0, 0] S29x32x256
  slices_S31x32x256_o2_0_0_S29x32x256 : S31x32x256.Slices ![2, 0, 0] S29x32x256
  slices_S29x32x256_o0_0_0_S28x32x256 : S29x32x256.Slices ![0, 0, 0] S28x32x256
  slices_S32x32x256_o4_0_0_S28x32x256 : S32x32x256.Slices ![4, 0, 0] S28x32x256
  slices_S28x32x256_o0_0_0_S28x31x256 : S28x32x256.Slices ![0, 0, 0] S28x31x256
  slices_S28x32x256_o0_1_0_S28x31x256 : S28x32x256.Slices ![0, 1, 0] S28x31x256
  slices_S28x31x256_o0_0_0_S28x29x256 : S28x31x256.Slices ![0, 0, 0] S28x29x256
  slices_S28x31x256_o0_2_0_S28x29x256 : S28x31x256.Slices ![0, 2, 0] S28x29x256
  slices_S28x29x256_o0_0_0_S28x28x256 : S28x29x256.Slices ![0, 0, 0] S28x28x256
  slices_S28x32x256_o0_4_0_S28x28x256 : S28x32x256.Slices ![0, 4, 0] S28x28x256
  slices_S28x28x256_o0_0_0_S27x28x256 : S28x28x256.Slices ![0, 0, 0] S27x28x256
  slices_S28x28x256_o1_0_0_S27x28x256 : S28x28x256.Slices ![1, 0, 0] S27x28x256
  slices_S27x28x256_o0_0_0_S25x28x256 : S27x28x256.Slices ![0, 0, 0] S25x28x256
  slices_S27x28x256_o2_0_0_S25x28x256 : S27x28x256.Slices ![2, 0, 0] S25x28x256
  slices_S25x28x256_o0_0_0_S24x28x256 : S25x28x256.Slices ![0, 0, 0] S24x28x256
  slices_S28x28x256_o4_0_0_S24x28x256 : S28x28x256.Slices ![4, 0, 0] S24x28x256
  slices_S24x28x256_o0_0_0_S24x27x256 : S24x28x256.Slices ![0, 0, 0] S24x27x256
  slices_S24x28x256_o0_1_0_S24x27x256 : S24x28x256.Slices ![0, 1, 0] S24x27x256
  slices_S24x27x256_o0_0_0_S24x25x256 : S24x27x256.Slices ![0, 0, 0] S24x25x256
  slices_S24x27x256_o0_2_0_S24x25x256 : S24x27x256.Slices ![0, 2, 0] S24x25x256
  slices_S24x25x256_o0_0_0_S24x24x256 : S24x25x256.Slices ![0, 0, 0] S24x24x256
  slices_S24x28x256_o0_4_0_S24x24x256 : S24x28x256.Slices ![0, 4, 0] S24x24x256
  slices_S24x24x256_o0_0_0_S23x24x256 : S24x24x256.Slices ![0, 0, 0] S23x24x256
  slices_S24x24x256_o1_0_0_S23x24x256 : S24x24x256.Slices ![1, 0, 0] S23x24x256
  slices_S23x24x256_o0_0_0_S21x24x256 : S23x24x256.Slices ![0, 0, 0] S21x24x256
  slices_S23x24x256_o2_0_0_S21x24x256 : S23x24x256.Slices ![2, 0, 0] S21x24x256
  slices_S21x24x256_o0_0_0_S20x24x256 : S21x24x256.Slices ![0, 0, 0] S20x24x256
  slices_S24x24x256_o4_0_0_S20x24x256 : S24x24x256.Slices ![4, 0, 0] S20x24x256
  slices_S20x24x256_o0_0_0_S20x23x256 : S20x24x256.Slices ![0, 0, 0] S20x23x256
  slices_S20x24x256_o0_1_0_S20x23x256 : S20x24x256.Slices ![0, 1, 0] S20x23x256
  slices_S20x23x256_o0_0_0_S20x21x256 : S20x23x256.Slices ![0, 0, 0] S20x21x256
  slices_S20x23x256_o0_2_0_S20x21x256 : S20x23x256.Slices ![0, 2, 0] S20x21x256
  slices_S20x21x256_o0_0_0_S20x20x256 : S20x21x256.Slices ![0, 0, 0] S20x20x256
  slices_S20x24x256_o0_4_0_S20x20x256 : S20x24x256.Slices ![0, 4, 0] S20x20x256
  slices_S28x28x256_o4_4_0_S20x20x256 : S28x28x256.Slices ![4, 4, 0] S20x20x256
  shapeCasts_S20x20x256_S400x256 : S20x20x256.ShapeCasts S400x256
  slices_S24x24x256_o2_2_0_S20x20x256 : S24x24x256.Slices ![2, 2, 0] S20x20x256
  inb_S4x256x512_S1x256x512_0_0_0 : ∀ a, (![0, 0, 0] : Fin 3 → Nat) a + S1x256x512.size a ≤ S4x256x512.size a
  h_S1x256x512 : 0 < S1x256x512.numel
  shapeCasts_S1x256x512_S256x512 : S1x256x512.ShapeCasts S256x512
  inb_S4x256x512_S1x256x512_1_0_0 : ∀ a, (![1, 0, 0] : Fin 3 → Nat) a + S1x256x512.size a ≤ S4x256x512.size a
  inb_S4x256x512_S1x256x512_2_0_0 : ∀ a, (![2, 0, 0] : Fin 3 → Nat) a + S1x256x512.size a ≤ S4x256x512.size a
  inb_S4x256x512_S1x256x512_3_0_0 : ∀ a, (![3, 0, 0] : Fin 3 → Nat) a + S1x256x512.size a ≤ S4x256x512.size a
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x400 : S512x1.Broadcasts S512x400
  shapeCasts_S512x400_S1x512x400 : S512x400.ShapeCasts S1x512x400
  dot_S512x400_S512x256_S400x256_0_0_1_1_n_n_wf : DotDims.WF S512x400 S512x256 S400x256 [0] [0] [1] [1] [] []
  dot_S256x512_S400x256_S512x400_0_1_1_0_n_n_wf : DotDims.WF S256x512 S400x256 S512x400 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x400.size a ≤ S32x512x400.size a
  hwx0_0 : ∀ i : grid0.Coords, EltTy.bits .f32 = 32 ∨ (Rect.block (s := S32x512x400) S1x512x400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256x512.size a ≤ S4x256x512.size a
  hwx0_2 : ∀ i : grid0.Coords, EltTy.bits .bf16 = 32 ∨ (Rect.block (s := S4x256x512) S4x256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x400.size a ≤ S32x512x400.size a
  hwx0_7 : ∀ i : grid0.Coords, EltTy.bits .f32 = 32 ∨ (Rect.block (s := S32x512x400) S1x512x400.size (cc0_transform_7 i) (hinb0_7 i)).WholeWords (EltTy.packing .f32)

variable [Facts₀]

def dot_S512x400_S512x256_S400x256_0_0_1_1_n_n : DotDims S512x400 S512x256 S400x256 where
  lhsContracting := [0]
  rhsContracting := [0]
  lhsNonContracting := [1]
  rhsNonContracting := [1]
  lhsBatch := []
  rhsBatch := []
  wf := dot_S512x400_S512x256_S400x256_0_0_1_1_n_n_wf
def dot_S256x512_S400x256_S512x400_0_1_1_0_n_n : DotDims S256x512 S400x256 S512x400 where
  lhsContracting := [0]
  rhsContracting := [1]
  lhsNonContracting := [1]
  rhsNonContracting := [0]
  lhsBatch := []
  rhsBatch := []
  wf := dot_S256x512_S400x256_S512x400_0_1_1_0_n_n_wf

abbrev win0_0 : Pipeline.Window sig grid0 :=
  Pipeline.Window.ofSpec (Memref.whole main_call0_v0) S1x512x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S4x256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v7) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v8) S1x512x400.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x512x20x20 : Shape := ⟨4, ![32, 512, 20, 20]⟩
abbrev S512x256 : Shape := ⟨2, ![512, 256]⟩
abbrev S256 : Shape := ⟨1, ![256]⟩
abbrev S1024x512 : Shape := ⟨2, ![1024, 512]⟩
abbrev S512 : Shape := ⟨1, ![512]⟩
abbrev S32x20x20x512 : Shape := ⟨4, ![32, 20, 20, 512]⟩
abbrev S12800x512 : Shape := ⟨2, ![12800, 512]⟩
abbrev S1x256 : Shape := ⟨2, ![1, 256]⟩
abbrev S12800x256 : Shape := ⟨2, ![12800, 256]⟩
abbrev S32x20x20x256 : Shape := ⟨4, ![32, 20, 20, 256]⟩
abbrev S4x256x512 : Shape := ⟨3, ![4, 256, 512]⟩
abbrev S1x512 : Shape := ⟨2, ![1, 512]⟩
abbrev S512x512 : Shape := ⟨2, ![512, 512]⟩
abbrev S1x20x20x128 : Shape := ⟨4, ![1, 20, 20, 128]⟩
abbrev S20x20x128 : Shape := ⟨3, ![20, 20, 128]⟩
abbrev S6x20x128 : Shape := ⟨3, ![6, 20, 128]⟩
abbrev S32x20x128 : Shape := ⟨3, ![32, 20, 128]⟩
abbrev S32x6x128 : Shape := ⟨3, ![32, 6, 128]⟩
abbrev S32x32x128 : Shape := ⟨3, ![32, 32, 128]⟩
abbrev S28x32x128 : Shape := ⟨3, ![28, 32, 128]⟩
abbrev S28x28x128 : Shape := ⟨3, ![28, 28, 128]⟩
abbrev S24x28x128 : Shape := ⟨3, ![24, 28, 128]⟩
abbrev S24x24x128 : Shape := ⟨3, ![24, 24, 128]⟩
abbrev S20x24x128 : Shape := ⟨3, ![20, 24, 128]⟩
abbrev S1x256x512 : Shape := ⟨3, ![1, 256, 512]⟩
abbrev S256x512 : Shape := ⟨2, ![256, 512]⟩

abbrev nBuf : Space → Nat
  | .hbm => 26
  | .vmem => 28
  | .smem => 0
  | _ => 0

abbrev bufTy : (tb : Table) → Fin (tcTables nBuf tb) → BufTy
  | .hbm, ⟨0, _⟩ => ⟨S32x512x20x20, .f32⟩
  | .hbm, ⟨1, _⟩ => ⟨S512x256, .f32⟩
  | .hbm, ⟨2, _⟩ => ⟨S256, .f32⟩
  | .hbm, ⟨3, _⟩ => ⟨S256, .f32⟩
  | .hbm, ⟨4, _⟩ => ⟨S1024x512, .f32⟩
  | .hbm, ⟨5, _⟩ => ⟨S512, .f32⟩
  | .hbm, ⟨6, _⟩ => ⟨S512, .f32⟩
  | .hbm, ⟨7, _⟩ => ⟨S32x20x20x512, .f32⟩
  | .hbm, ⟨8, _⟩ => ⟨S12800x512, .f32⟩
  | .hbm, ⟨9, _⟩ => ⟨S1x256, .f32⟩
  | .hbm, ⟨10, _⟩ => ⟨S1x256, .f32⟩
  | .hbm, ⟨11, _⟩ => ⟨S12800x256, .f32⟩
  | .hbm, ⟨12, _⟩ => ⟨S32x20x20x256, .f32⟩
  | .hbm, ⟨13, _⟩ => ⟨S32x20x20x256, .f32⟩
  | .hbm, ⟨14, _⟩ => ⟨S32x20x20x256, .f32⟩
  | .hbm, ⟨15, _⟩ => ⟨S32x20x20x256, .f32⟩
  | .hbm, ⟨16, _⟩ => ⟨S12800x256, .f32⟩
  | .hbm, ⟨17, _⟩ => ⟨S12800x256, .f32⟩
  | .hbm, ⟨18, _⟩ => ⟨S12800x256, .f32⟩
  | .hbm, ⟨19, _⟩ => ⟨S12800x256, .f32⟩
  | .hbm, ⟨20, _⟩ => ⟨S4x256x512, .f32⟩
  | .hbm, ⟨21, _⟩ => ⟨S1x512, .f32⟩
  | .hbm, ⟨22, _⟩ => ⟨S1x512, .f32⟩
  | .hbm, ⟨23, _⟩ => ⟨S12800x512, .f32⟩
  | .hbm, ⟨24, _⟩ => ⟨S32x20x20x512, .f32⟩
  | .hbm, ⟨25, _⟩ => ⟨S32x512x20x20, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S1x256, .f32⟩
  | .local _ .vmem, ⟨4, _⟩ => ⟨S1x256, .f32⟩
  | .local _ .vmem, ⟨5, _⟩ => ⟨S512x256, .f32⟩
  | .local _ .vmem, ⟨6, _⟩ => ⟨S512x256, .f32⟩
  | .local _ .vmem, ⟨7, _⟩ => ⟨S1x20x20x128, .f32⟩
  | .local _ .vmem, ⟨8, _⟩ => ⟨S1x20x20x128, .f32⟩
  | .local _ .vmem, ⟨9, _⟩ => ⟨S1x20x20x128, .f32⟩
  | .local _ .vmem, ⟨10, _⟩ => ⟨S1x20x20x128, .f32⟩
  | .local _ .vmem, ⟨11, _⟩ => ⟨S1x20x20x128, .f32⟩
  | .local _ .vmem, ⟨12, _⟩ => ⟨S1x20x20x128, .f32⟩
  | .local _ .vmem, ⟨13, _⟩ => ⟨S1x20x20x128, .f32⟩
  | .local _ .vmem, ⟨14, _⟩ => ⟨S1x20x20x128, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S4x256x512, .f32⟩
  | .local _ .vmem, ⟨24, _⟩ => ⟨S1x512, .f32⟩
  | .local _ .vmem, ⟨25, _⟩ => ⟨S1x512, .f32⟩
  | .local _ .vmem, ⟨26, _⟩ => ⟨S512x512, .f32⟩
  | .local _ .vmem, ⟨27, _⟩ => ⟨S512x512, .f32⟩
  | _, _ => ⟨S32x512x20x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6_0 : Ref sig .tc := ⟨.hbm, 13, rfl⟩
abbrev main_call0_v6_1 : Ref sig .tc := ⟨.hbm, 14, rfl⟩
abbrev main_call0_v6_2 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_v0 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![32, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage1_0 : Fin 2 → Memref sig .tc .vmem S1x20x20x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x20x20x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x20x20x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x20x20x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S4x256x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  transposes_S32x512x20x20_S32x20x20x512_0_2_3_1 : S32x512x20x20.Transposes [0, 2, 3, 1] S32x20x20x512
  shapeCasts_S32x20x20x512_S12800x512 : S32x20x20x512.ShapeCasts S12800x512
  shapeCasts_S256_S1x256 : S256.ShapeCasts S1x256
  shapeCasts_S12800x256_S32x20x20x256 : S12800x256.ShapeCasts S32x20x20x256
  shapeCasts_S32x20x20x256_S12800x256 : S32x20x20x256.ShapeCasts S12800x256
  shapeCasts_S1024x512_S4x256x512 : S1024x512.ShapeCasts S4x256x512
  shapeCasts_S512_S1x512 : S512.ShapeCasts S1x512
  shapeCasts_S12800x512_S32x20x20x512 : S12800x512.ShapeCasts S32x20x20x512
  transposes_S32x20x20x512_S32x512x20x20_0_3_1_2 : S32x20x20x512.Transposes [0, 3, 1, 2] S32x512x20x20
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1x20x20x128_S1x20x20x128_0_0_0_0 : ∀ a, (![0, 0, 0, 0] : Fin 4 → Nat) a + S1x20x20x128.size a ≤ S1x20x20x128.size a
  h_S1x20x20x128 : 0 < S1x20x20x128.numel
  shapeCasts_S1x20x20x128_S20x20x128 : S1x20x20x128.ShapeCasts S20x20x128
  concatenates_S6x20x128_S20x20x128_S6x20x128_S32x20x128_d0 : Shape.Concatenates [S6x20x128, S20x20x128, S6x20x128] S32x20x128 0
  concatenates_S32x6x128_S32x20x128_S32x6x128_S32x32x128_d1 : Shape.Concatenates [S32x6x128, S32x20x128, S32x6x128] S32x32x128 1
  slices_S32x32x128_o0_0_0_S28x32x128 : S32x32x128.Slices ![0, 0, 0] S28x32x128
  slices_S32x32x128_o1_0_0_S28x32x128 : S32x32x128.Slices ![1, 0, 0] S28x32x128
  slices_S32x32x128_o2_0_0_S28x32x128 : S32x32x128.Slices ![2, 0, 0] S28x32x128
  slices_S32x32x128_o3_0_0_S28x32x128 : S32x32x128.Slices ![3, 0, 0] S28x32x128
  slices_S32x32x128_o4_0_0_S28x32x128 : S32x32x128.Slices ![4, 0, 0] S28x32x128
  slices_S28x32x128_o0_0_0_S28x28x128 : S28x32x128.Slices ![0, 0, 0] S28x28x128
  slices_S28x32x128_o0_1_0_S28x28x128 : S28x32x128.Slices ![0, 1, 0] S28x28x128
  slices_S28x32x128_o0_2_0_S28x28x128 : S28x32x128.Slices ![0, 2, 0] S28x28x128
  slices_S28x32x128_o0_3_0_S28x28x128 : S28x32x128.Slices ![0, 3, 0] S28x28x128
  slices_S28x32x128_o0_4_0_S28x28x128 : S28x32x128.Slices ![0, 4, 0] S28x28x128
  slices_S28x28x128_o0_0_0_S24x28x128 : S28x28x128.Slices ![0, 0, 0] S24x28x128
  slices_S28x28x128_o1_0_0_S24x28x128 : S28x28x128.Slices ![1, 0, 0] S24x28x128
  slices_S28x28x128_o2_0_0_S24x28x128 : S28x28x128.Slices ![2, 0, 0] S24x28x128
  slices_S28x28x128_o3_0_0_S24x28x128 : S28x28x128.Slices ![3, 0, 0] S24x28x128
  slices_S28x28x128_o4_0_0_S24x28x128 : S28x28x128.Slices ![4, 0, 0] S24x28x128
  slices_S24x28x128_o0_0_0_S24x24x128 : S24x28x128.Slices ![0, 0, 0] S24x24x128
  slices_S24x28x128_o0_1_0_S24x24x128 : S24x28x128.Slices ![0, 1, 0] S24x24x128
  slices_S24x28x128_o0_2_0_S24x24x128 : S24x28x128.Slices ![0, 2, 0] S24x24x128
  slices_S24x28x128_o0_3_0_S24x24x128 : S24x28x128.Slices ![0, 3, 0] S24x24x128
  slices_S24x28x128_o0_4_0_S24x24x128 : S24x28x128.Slices ![0, 4, 0] S24x24x128
  slices_S24x24x128_o0_0_0_S20x24x128 : S24x24x128.Slices ![0, 0, 0] S20x24x128
  slices_S24x24x128_o1_0_0_S20x24x128 : S24x24x128.Slices ![1, 0, 0] S20x24x128
  slices_S24x24x128_o2_0_0_S20x24x128 : S24x24x128.Slices ![2, 0, 0] S20x24x128
  slices_S24x24x128_o3_0_0_S20x24x128 : S24x24x128.Slices ![3, 0, 0] S20x24x128
  slices_S24x24x128_o4_0_0_S20x24x128 : S24x24x128.Slices ![4, 0, 0] S20x24x128
  slices_S20x24x128_o0_0_0_S20x20x128 : S20x24x128.Slices ![0, 0, 0] S20x20x128
  slices_S20x24x128_o0_1_0_S20x20x128 : S20x24x128.Slices ![0, 1, 0] S20x20x128
  slices_S20x24x128_o0_2_0_S20x20x128 : S20x24x128.Slices ![0, 2, 0] S20x20x128
  slices_S20x24x128_o0_3_0_S20x20x128 : S20x24x128.Slices ![0, 3, 0] S20x20x128
  slices_S20x24x128_o0_4_0_S20x20x128 : S20x24x128.Slices ![0, 4, 0] S20x20x128
  slices_S28x28x128_o4_4_0_S20x20x128 : S28x28x128.Slices ![4, 4, 0] S20x20x128
  shapeCasts_S20x20x128_S1x20x20x128 : S20x20x128.ShapeCasts S1x20x20x128
  slices_S24x24x128_o2_2_0_S20x20x128 : S24x24x128.Slices ![2, 2, 0] S20x20x128
  shapeCasts_S512x256_S512x256 : S512x256.ShapeCasts S512x256
  inb_S4x256x512_S1x256x512_0_0_0 : ∀ a, (![0, 0, 0] : Fin 3 → Nat) a + S1x256x512.size a ≤ S4x256x512.size a
  h_S1x256x512 : 0 < S1x256x512.numel
  shapeCasts_S1x256x512_S256x512 : S1x256x512.ShapeCasts S256x512
  inb_S4x256x512_S1x256x512_1_0_0 : ∀ a, (![1, 0, 0] : Fin 3 → Nat) a + S1x256x512.size a ≤ S4x256x512.size a
  inb_S4x256x512_S1x256x512_2_0_0 : ∀ a, (![2, 0, 0] : Fin 3 → Nat) a + S1x256x512.size a ≤ S4x256x512.size a
  inb_S4x256x512_S1x256x512_3_0_0 : ∀ a, (![3, 0, 0] : Fin 3 → Nat) a + S1x256x512.size a ≤ S4x256x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x256_S512x256_1_0_0_1_n_n_wf : DotDims.WF S512x512 S512x256 S512x256 [1] [0] [0] [1] [] []
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S12800x512.size a
  hwx0_0 : ∀ i : grid0.Coords, EltTy.bits .f32 = 32 ∨ (Rect.block (s := S12800x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S12800x256.size a
  hwx0_4 : ∀ i : grid0.Coords, EltTy.bits .f32 = 32 ∨ (Rect.block (s := S12800x256) S512x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x20x20x128.size a ≤ S32x20x20x256.size a
  hwx1_0 : ∀ i : grid1.Coords, EltTy.bits .f32 = 32 ∨ (Rect.block (s := S32x20x20x256) S1x20x20x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x20x20x128.size a ≤ S32x20x20x256.size a
  hwx1_1 : ∀ i : grid1.Coords, EltTy.bits .f32 = 32 ∨ (Rect.block (s := S32x20x20x256) S1x20x20x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x20x20x128.size a ≤ S32x20x20x256.size a
  hwx1_2 : ∀ i : grid1.Coords, EltTy.bits .f32 = 32 ∨ (Rect.block (s := S32x20x20x256) S1x20x20x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x20x20x128.size a ≤ S32x20x20x256.size a
  hwx1_3 : ∀ i : grid1.Coords, EltTy.bits .f32 = 32 ∨ (Rect.block (s := S32x20x20x256) S1x20x20x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S12800x256.size a
  hwx2_0 : ∀ i : grid2.Coords, EltTy.bits .f32 = 32 ∨ (Rect.block (s := S12800x256) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S12800x256.size a
  hwx2_1 : ∀ i : grid2.Coords, EltTy.bits .f32 = 32 ∨ (Rect.block (s := S12800x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S12800x256.size a
  hwx2_2 : ∀ i : grid2.Coords, EltTy.bits .f32 = 32 ∨ (Rect.block (s := S12800x256) S512x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S12800x256.size a
  hwx2_3 : ∀ i : grid2.Coords, EltTy.bits .f32 = 32 ∨ (Rect.block (s := S12800x256) S512x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4x256x512.size a ≤ S4x256x512.size a
  hwx2_4 : ∀ i : grid2.Coords, EltTy.bits .f32 = 32 ∨ (Rect.block (s := S4x256x512) S4x256x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x512.size a ≤ S12800x512.size a
  hwx2_7 : ∀ i : grid2.Coords, EltTy.bits .f32 = 32 ∨ (Rect.block (s := S12800x512) S512x512.size (cc2_transform_7 i) (hinb2_7 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_call0_v1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v5) S1x20x20x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v6_0) S1x20x20x128.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v6_1) S1x20x20x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v6_2) S1x20x20x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v7) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v8) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v9) S512x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v10) S512x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_call0_v11) S4x256x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v12) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v13) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v14) S512x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== Proof.LibRep3.lean ====
/-
  Rank-three vectors read through functions of three natural coordinates, and the window maxima of a sliding pool.

  A vector `v` of shape `[d 0, d 1, d 2]` REPRESENTS `g : ℕ → ℕ → ℕ → α` (`Rep3 v g`) when `v` at every index is `g` at
  the index's three coordinates; `g` is free outside the shape. The layout operations a sliding-window pool is built
  from act on the represented function alone: a unit-stride slice at offsets `off` shifts the arguments by `off` (written `i + off 0`, so that a zero offset and sums of
  literal offsets reduce by computation)
  (`Rep3.slice`), an elementwise maximum is the pointwise maximum (`Rep3.max`), and a vector laid between two constant
  borders along the first or the second axis is the function shifted past the border, the constant on either side
  (`Rep3.padAx0`, `Rep3.padAx1`). So a chain of such operations is followed by composing functions on naturals, where
  offsets add by plain arithmetic and no bound has to be carried.

  The window of five: `max5 f i` is the maximum of `f i … f (i+4)` taken left to right, `max5t` the same five values
  taken as (pair, pair of pairs, last) — equal by associativity of `max` (`max5t_eq`). `pool5 g` is the 5 × 5 window
  maximum over the first two coordinates, rows first; `padRows` / `padCols` put a border of width six of `⊥` round a
  20 × 20 plane.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

variable {α : Type}

/-- `v` at every index is `g` at the index's coordinates. -/
def Rep3 {d : Fin 3 → ℕ} (v : (⟨3, d⟩ : Shape).Idx → α) (g : ℕ → ℕ → ℕ → α) : Prop :=
  ∀ j : (⟨3, d⟩ : Shape).Idx, v j = g (j 0).val (j 1).val (j 2).val

namespace Rep3

variable {d e : Fin 3 → ℕ}

/-- The represented function may be replaced by one that agrees with it everywhere. -/
theorem congr {v : (⟨3, d⟩ : Shape).Idx → α} {g g' : ℕ → ℕ → ℕ → α} (h : Rep3 v g) (hg : ∀ i j c, g i j c = g' i j c) :
    Rep3 v g' := fun j => (h j).trans (hg _ _ _)

/-- It need agree only inside the shape. -/
theorem congr_in {v : (⟨3, d⟩ : Shape).Idx → α} {g g' : ℕ → ℕ → ℕ → α} (h : Rep3 v g)
    (hg : ∀ i j c, i < d 0 → j < d 1 → c < d 2 → g i j c = g' i j c) : Rep3 v g' :=
  fun j => (h j).trans (hg _ _ _ (j 0).isLt (j 1).isLt (j 2).isLt)

/-- A unit-stride slice shifts the coordinates by its offsets. -/
theorem slice {v : (⟨3, d⟩ : Shape).Idx → α} {g : ℕ → ℕ → ℕ → α} (h : Rep3 v g) (off : Fin 3 → ℕ)
    (hs : (⟨3, d⟩ : Shape).Slices off ⟨3, e⟩) :
    Rep3 (extractStridedSlice ⟨3, e⟩ off v hs) (fun i j c => g (i + off 0) (j + off 1) (c + off 2)) := by
  intro j
  unfold extractStridedSlice
  refine (h _).trans ?_
  show g (off 0 + _) (off 1 + _) (off 2 + _) = _
  rw [Nat.add_comm (off 0), Nat.add_comm (off 1), Nat.add_comm (off 2)]
  rfl

/-- An elementwise maximum of extended reals is the pointwise maximum. -/
theorem max {φ : FTy} {a b : FVec Ideal ⟨3, d⟩ φ} {ga gb : ℕ → ℕ → ℕ → EReal} (ha : Rep3 a ga) (hb : Rep3 b gb) :
    Rep3 (maximumf a b) (fun i j c => Max.max (ga i j c) (gb i j c)) := by
  intro j
  show Max.max (a j) (b j) = _
  rw [ha j, hb j]

/-- An index of a rank-three shape from three in-range naturals. -/
def mk3 (d : Fin 3 → ℕ) (a b c : ℕ) (ha : a < d 0) (hb : b < d 1) (hc : c < d 2) : (⟨3, d⟩ : Shape).Idx :=
  fun x => match x with
    | ⟨0, _⟩ => ⟨a, ha⟩
    | ⟨1, _⟩ => ⟨b, hb⟩
    | ⟨2, _⟩ => ⟨c, hc⟩

/-- A vector between two constant borders along the FIRST axis: the function shifted past the border, the constant
    before and after. (`e01` … `es`: the three pieces have the result's extents off the axis and fill it along it.) -/
theorem padAx0 {d0 d1 dt : Fin 3 → ℕ} {v : (⟨3, d1⟩ : Shape).Idx → α} {g : ℕ → ℕ → ℕ → α} (h : Rep3 v g) (b : α)
    (hc : Shape.Concatenates [⟨3, d0⟩, ⟨3, d1⟩, ⟨3, d0⟩] ⟨3, dt⟩ 0)
    (e01 : d0 1 = dt 1) (e02 : d0 2 = dt 2) (e11 : d1 1 = dt 1) (e12 : d1 2 = dt 2) (es : d0 0 + d1 0 + d0 0 = dt 0) :
    Rep3 (concatenate ⟨3, dt⟩ 0 [⟨⟨3, d0⟩, broadcast ⟨3, d0⟩ b⟩, ⟨⟨3, d1⟩, v⟩, ⟨⟨3, d0⟩, broadcast ⟨3, d0⟩ b⟩] hc)
      (fun i j c => if i < d0 0 then b else if i < d0 0 + d1 0 then g (i - d0 0) j c else b) := by
  intro j
  have hj0 : (j 0).val < dt 0 := (j 0).isLt
  have hj1 : (j 1).val < dt 1 := (j 1).isLt
  have hj2 : (j 2).val < dt 2 := (j 2).isLt
  beta_reduce
  by_cases h1 : (j 0).val < d0 0
  · rw [if_pos h1]
    refine concatenate_apply_piece (t := ⟨3, dt⟩) (0 : Fin 3) [⟨⟨3, d0⟩, broadcast ⟨3, d0⟩ b⟩, ⟨⟨3, d1⟩, v⟩, ⟨⟨3, d0⟩, broadcast ⟨3, d0⟩ b⟩] hc j 0 (by simp) ⟨3, d0⟩ (broadcast ⟨3, d0⟩ b) rfl rfl 0 rfl
      (mk3 d0 (j 0).val (j 1).val (j 2).val h1 (by omega) (by omega)) (fun x hx => ?_) (by simp [mk3])
    match x with
    | ⟨0, _⟩ => exact absurd rfl hx
    | ⟨1, _⟩ => rfl
    | ⟨2, _⟩ => rfl
  · rw [if_neg h1]
    by_cases h2 : (j 0).val < d0 0 + d1 0
    · rw [if_pos h2]
      refine (concatenate_apply_piece (t := ⟨3, dt⟩) (0 : Fin 3) [⟨⟨3, d0⟩, broadcast ⟨3, d0⟩ b⟩, ⟨⟨3, d1⟩, v⟩, ⟨⟨3, d0⟩, broadcast ⟨3, d0⟩ b⟩] hc j 1 (by simp) ⟨3, d1⟩ v rfl rfl (d0 0) (by simp)
        (mk3 d1 ((j 0).val - d0 0) (j 1).val (j 2).val (by omega) (by omega) (by omega)) (fun x hx => ?_) (by simp [mk3]; omega)).trans ?_
      · match x with
        | ⟨0, _⟩ => exact absurd rfl hx
        | ⟨1, _⟩ => rfl
        | ⟨2, _⟩ => rfl
      · exact h _
    · rw [if_neg h2]
      refine concatenate_apply_piece (t := ⟨3, dt⟩) (0 : Fin 3) [⟨⟨3, d0⟩, broadcast ⟨3, d0⟩ b⟩, ⟨⟨3, d1⟩, v⟩, ⟨⟨3, d0⟩, broadcast ⟨3, d0⟩ b⟩] hc j 2 (by simp) ⟨3, d0⟩ (broadcast ⟨3, d0⟩ b) rfl rfl (d0 0 + d1 0) (by simp)
        (mk3 d0 ((j 0).val - (d0 0 + d1 0)) (j 1).val (j 2).val (by omega) (by omega) (by omega)) (fun x hx => ?_) (by simp [mk3]; omega)
      match x with
      | ⟨0, _⟩ => exact absurd rfl hx
      | ⟨1, _⟩ => rfl
      | ⟨2, _⟩ => rfl

/-- The same along the SECOND axis. -/
theorem padAx1 {d0 d1 dt : Fin 3 → ℕ} {v : (⟨3, d1⟩ : Shape).Idx → α} {g : ℕ → ℕ → ℕ → α} (h : Rep3 v g) (b : α)
    (hc : Shape.Concatenates [⟨3, d0⟩, ⟨3, d1⟩, ⟨3, d0⟩] ⟨3, dt⟩ 1)
    (e00 : d0 0 = dt 0) (e02 : d0 2 = dt 2) (e10 : d1 0 = dt 0) (e12 : d1 2 = dt 2) (es : d0 1 + d1 1 + d0 1 = dt 1) :
    Rep3 (concatenate ⟨3, dt⟩ 1 [⟨⟨3, d0⟩, broadcast ⟨3, d0⟩ b⟩, ⟨⟨3, d1⟩, v⟩, ⟨⟨3, d0⟩, broadcast ⟨3, d0⟩ b⟩] hc)
      (fun i j c => if j < d0 1 then b else if j < d0 1 + d1 1 then g i (j - d0 1) c else b) := by
  intro j
  have hj0 : (j 0).val < dt 0 := (j 0).isLt
  have hj1 : (j 1).val < dt 1 := (j 1).isLt
  have hj2 : (j 2).val < dt 2 := (j 2).isLt
  beta_reduce
  by_cases h1 : (j 1).val < d0 1
  · rw [if_pos h1]
    refine concatenate_apply_piece (t := ⟨3, dt⟩) (1 : Fin 3) [⟨⟨3, d0⟩, broadcast ⟨3, d0⟩ b⟩, ⟨⟨3, d1⟩, v⟩, ⟨⟨3, d0⟩, broadcast ⟨3, d0⟩ b⟩] hc j 0 (by simp) ⟨3, d0⟩ (broadcast ⟨3, d0⟩ b) rfl rfl 0 rfl
      (mk3 d0 (j 0).val (j 1).val (j 2).val (by omega) h1 (by omega)) (fun x hx => ?_) (by simp [mk3])
    match x with
    | ⟨0, _⟩ => rfl
    | ⟨1, _⟩ => exact absurd rfl hx
    | ⟨2, _⟩ => rfl
  · rw [if_neg h1]
    by_cases h2 : (j 1).val < d0 1 + d1 1
    · rw [if_pos h2]
      refine (concatenate_apply_piece (t := ⟨3, dt⟩) (1 : Fin 3) [⟨⟨3, d0⟩, broadcast ⟨3, d0⟩ b⟩, ⟨⟨3, d1⟩, v⟩, ⟨⟨3, d0⟩, broadcast ⟨3, d0⟩ b⟩] hc j 1 (by simp) ⟨3, d1⟩ v rfl rfl (d0 1) (by simp)
        (mk3 d1 (j 0).val ((j 1).val - d0 1) (j 2).val (by omega) (by omega) (by omega)) (fun x hx => ?_) (by simp [mk3]; omega)).trans ?_
      · match x with
        | ⟨0, _⟩ => rfl
        | ⟨1, _⟩ => exact absurd rfl hx
        | ⟨2, _⟩ => rfl
      · exact h _
    · rw [if_neg h2]
      refine concatenate_apply_piece (t := ⟨3, dt⟩) (1 : Fin 3) [⟨⟨3, d0⟩, broadcast ⟨3, d0⟩ b⟩, ⟨⟨3, d1⟩, v⟩, ⟨⟨3, d0⟩, broadcast ⟨3, d0⟩ b⟩] hc j 2 (by simp) ⟨3, d0⟩ (broadcast ⟨3, d0⟩ b) rfl rfl (d0 1 + d1 1) (by simp)
        (mk3 d0 (j 0).val ((j 1).val - (d0 1 + d1 1)) (j 2).val (by omega) (by omega) (by omega)) (fun x hx => ?_) (by simp [mk3]; omega)
      match x with
      | ⟨0, _⟩ => rfl
      | ⟨1, _⟩ => exact absurd rfl hx
      | ⟨2, _⟩ => rfl

end Rep3

/-! ## The window of five -/

/-- The maximum of `f i, …, f (i + 4)`, taken left to right. -/
def max5 (f : ℕ → EReal) (i : ℕ) : EReal := max (max (max (max (f i) (f (i + 1))) (f (i + 2))) (f (i + 3))) (f (i + 4))

/-- The same five values taken as two pairs, the pair of pairs, then the last. -/
def max5t (f : ℕ → EReal) (i : ℕ) : EReal := max (max (max (f i) (f (i + 1))) (max (f (i + 2)) (f (i + 3)))) (f (i + 4))

theorem max5t_eq (f : ℕ → EReal) (i : ℕ) : max5t f i = max5 f i := by
  unfold max5t max5
  rw [← max_assoc (max (f i) (f (i + 1)))]

/-- The 5 × 5 window maximum over the first two coordinates, rows first, then columns. -/
def pool5 (g : ℕ → ℕ → ℕ → EReal) : ℕ → ℕ → ℕ → EReal := fun i j c => max5 (fun j' => max5 (fun i' => g i' j' c) i) j

/-- A border of six rows of `⊥` above and below a plane of twenty rows. -/
def padRows (g : ℕ → ℕ → ℕ → EReal) : ℕ → ℕ → ℕ → EReal := fun i j c => if i < 6 then ⊥ else if i < 6 + 20 then g (i - 6) j c else ⊥

/-- A border of six columns of `⊥` left and right of a plane of twenty columns. -/
def padCols (g : ℕ → ℕ → ℕ → EReal) : ℕ → ℕ → ℕ → EReal := fun i j c => if j < 6 then ⊥ else if j < 6 + 20 then g i (j - 6) c else ⊥

/-- The plane with its border of width six on all four sides. -/
def ext6 (g : ℕ → ℕ → ℕ → EReal) : ℕ → ℕ → ℕ → EReal := padCols (padRows g)

/-- All of these act on the first two coordinates only: a shift of the third passes through. -/
theorem pool5_shift (g : ℕ → ℕ → ℕ → EReal) (o : ℕ) : pool5 (fun i j c => g i j (c + o)) = fun i j c => pool5 g i j (c + o) := rfl
theorem ext6_shift (g : ℕ → ℕ → ℕ → EReal) (o : ℕ) : ext6 (fun i j c => g i j (c + o)) = fun i j c => ext6 g i j (c + o) := rfl

/-! ## The window maxima as vector operations -/

namespace Rep3

/-- The window of five along the FIRST axis taken as pairs: neighbours, then neighbours two apart, then the fifth. -/
theorem win5t_ax0 {φ : FTy} {dA dB dC dD : Fin 3 → ℕ} {x : FVec Ideal ⟨3, dA⟩ φ} {g : ℕ → ℕ → ℕ → EReal} (hx : Rep3 x g)
    (a0 : (⟨3, dA⟩ : Shape).Slices ![0, 0, 0] ⟨3, dB⟩) (a1 : (⟨3, dA⟩ : Shape).Slices ![1, 0, 0] ⟨3, dB⟩)
    (b0 : (⟨3, dB⟩ : Shape).Slices ![0, 0, 0] ⟨3, dC⟩) (b2 : (⟨3, dB⟩ : Shape).Slices ![2, 0, 0] ⟨3, dC⟩)
    (c0 : (⟨3, dC⟩ : Shape).Slices ![0, 0, 0] ⟨3, dD⟩) (a4 : (⟨3, dA⟩ : Shape).Slices ![4, 0, 0] ⟨3, dD⟩) :
    Rep3 (maximumf (extractStridedSlice ⟨3, dD⟩ ![0, 0, 0] (maximumf (extractStridedSlice ⟨3, dC⟩ ![0, 0, 0] (maximumf (extractStridedSlice ⟨3, dB⟩ ![0, 0, 0] x a0) (extractStridedSlice ⟨3, dB⟩ ![1, 0, 0] x a1)) b0) (extractStridedSlice ⟨3, dC⟩ ![2, 0, 0] (maximumf (extractStridedSlice ⟨3, dB⟩ ![0, 0, 0] x a0) (extractStridedSlice ⟨3, dB⟩ ![1, 0, 0] x a1)) b2)) c0) (extractStridedSlice ⟨3, dD⟩ ![4, 0, 0] x a4))
      (fun i j c => max5 (fun i' => g i' j c) i) := by
  have m1 := (hx.slice _ a0).max (hx.slice _ a1)
  have m2 := (m1.slice _ b0).max (m1.slice _ b2)
  have m3 := (m2.slice _ c0).max (hx.slice _ a4)
  exact m3.congr fun i j c => max5t_eq (fun i' => g i' j c) i

/-- The window of five along the SECOND axis taken as pairs: neighbours, then neighbours two apart, then the fifth. -/
theorem win5t_ax1 {φ : FTy} {dA dB dC dD : Fin 3 → ℕ} {x : FVec Ideal ⟨3, dA⟩ φ} {g : ℕ → ℕ → ℕ → EReal} (hx : Rep3 x g)
    (a0 : (⟨3, dA⟩ : Shape).Slices ![0, 0, 0] ⟨3, dB⟩) (a1 : (⟨3, dA⟩ : Shape).Slices ![0, 1, 0] ⟨3, dB⟩)
    (b0 : (⟨3, dB⟩ : Shape).Slices ![0, 0, 0] ⟨3, dC⟩) (b2 : (⟨3, dB⟩ : Shape).Slices ![0, 2, 0] ⟨3, dC⟩)
    (c0 : (⟨3, dC⟩ : Shape).Slices ![0, 0, 0] ⟨3, dD⟩) (a4 : (⟨3, dA⟩ : Shape).Slices ![0, 4, 0] ⟨3, dD⟩) :
    Rep3 (maximumf (extractStridedSlice ⟨3, dD⟩ ![0, 0, 0] (maximumf (extractStridedSlice ⟨3, dC⟩ ![0, 0, 0] (maximumf (extractStridedSlice ⟨3, dB⟩ ![0, 0, 0] x a0) (extractStridedSlice ⟨3, dB⟩ ![0, 1, 0] x a1)) b0) (extractStridedSlice ⟨3, dC⟩ ![0, 2, 0] (maximumf (extractStridedSlice ⟨3, dB⟩ ![0, 0, 0] x a0) (extractStridedSlice ⟨3, dB⟩ ![0, 1, 0] x a1)) b2)) c0) (extractStridedSlice ⟨3, dD⟩ ![0, 4, 0] x a4))
      (fun i j c => max5 (fun j' => g i j' c) j) := by
  have m1 := (hx.slice _ a0).max (hx.slice _ a1)
  have m2 := (m1.slice _ b0).max (m1.slice _ b2)
  have m3 := (m2.slice _ c0).max (hx.slice _ a4)
  exact m3.congr fun i j c => max5t_eq (fun j' => g i j' c) j

/-- The window of five along the FIRST axis taken left to right. -/
theorem win5s_ax0 {φ : FTy} {dA dD : Fin 3 → ℕ} {x : FVec Ideal ⟨3, dA⟩ φ} {g : ℕ → ℕ → ℕ → EReal} (hx : Rep3 x g)
    (a0 : (⟨3, dA⟩ : Shape).Slices ![0, 0, 0] ⟨3, dD⟩) (a1 : (⟨3, dA⟩ : Shape).Slices ![1, 0, 0] ⟨3, dD⟩)
    (a2 : (⟨3, dA⟩ : Shape).Slices ![2, 0, 0] ⟨3, dD⟩) (a3 : (⟨3, dA⟩ : Shape).Slices ![3, 0, 0] ⟨3, dD⟩)
    (a4 : (⟨3, dA⟩ : Shape).Slices ![4, 0, 0] ⟨3, dD⟩) :
    Rep3 (maximumf (maximumf (maximumf (maximumf (extractStridedSlice ⟨3, dD⟩ ![0, 0, 0] x a0) (extractStridedSlice ⟨3, dD⟩ ![1, 0, 0] x a1)) (extractStridedSlice ⟨3, dD⟩ ![2, 0, 0] x a2)) (extractStridedSlice ⟨3, dD⟩ ![3, 0, 0] x a3)) (extractStridedSlice ⟨3, dD⟩ ![4, 0, 0] x a4))
      (fun i j c => max5 (fun i' => g i' j c) i) :=
  (((((hx.slice _ a0).max (hx.slice _ a1)).max (hx.slice _ a2)).max (hx.slice _ a3)).max (hx.slice _ a4)).congr fun _ _ _ => rfl

/-- The window of five along the SECOND axis taken left to right. -/
theorem win5s_ax1 {φ : FTy} {dA dD : Fin 3 → ℕ} {x : FVec Ideal ⟨3, dA⟩ φ} {g : ℕ → ℕ → ℕ → EReal} (hx : Rep3 x g)
    (a0 : (⟨3, dA⟩ : Shape).Slices ![0, 0, 0] ⟨3, dD⟩) (a1 : (⟨3, dA⟩ : Shape).Slices ![0, 1, 0] ⟨3, dD⟩)
    (a2 : (⟨3, dA⟩ : Shape).Slices ![0, 2, 0] ⟨3, dD⟩) (a3 : (⟨3, dA⟩ : Shape).Slices ![0, 3, 0] ⟨3, dD⟩)
    (a4 : (⟨3, dA⟩ : Shape).Slices ![0, 4, 0] ⟨3, dD⟩) :
    Rep3 (maximumf (maximumf (maximumf (maximumf (extractStridedSlice ⟨3, dD⟩ ![0, 0, 0] x a0) (extractStridedSlice ⟨3, dD⟩ ![0, 1, 0] x a1)) (extractStridedSlice ⟨3, dD⟩ ![0, 2, 0] x a2)) (extractStridedSlice ⟨3, dD⟩ ![0, 3, 0] x a3)) (extractStridedSlice ⟨3, dD⟩ ![0, 4, 0] x a4))
      (fun i j c => max5 (fun j' => g i j' c) j) :=
  (((((hx.slice _ a0).max (hx.slice _ a1)).max (hx.slice _ a2)).max (hx.slice _ a3)).max (hx.slice _ a4)).congr fun _ _ _ => rfl

end Rep3

/-- The patterns of negative infinity denote `⊥`. -/
theorem negInf_bf16 : (Scalar.ofBits .bf16 0xFF80#16 : Ideal .bf16) = ⊥ := by
  show Ideal.ofBits .bf16 0xFF80#16 = ⊥
  simp [Ideal.ofBits, Ideal.ieee]

theorem negInf_f32 : (Scalar.ofBits .f32 0xFF800000#32 : Ideal .f32) = ⊥ := by
  show Ideal.ofBits .f32 0xFF800000#32 = ⊥
  simp [Ideal.ofBits, Ideal.ieee]

end Cert.Lib

end
-- ==== Proof.Spec.lean ====
/-
  The spatial-pyramid-pooling block as one function of its seven arrays, element by element, on the extended reals.

  For image `n`, pixel `(h, w)` and hidden channel `k` the first stage is
  `y n h w k = silu ((∑ q, x[n, q, h, w] · w1[q, k]) · s1[k] + b1[k])` with `silu a = a · logistic a`. The plane
  `(h, w) ↦ y n h w k` is surrounded by a border of `⊥` of width six and pooled by a 5 × 5 window maximum once, twice
  and three times; read at the offsets `4`, `2` and `0` these are the 5 × 5, 9 × 9 and 13 × 13 maxima round the pixel.
  The result at output channel `c` is
  `silu ((∑ₖ y·w2[k, c] + ∑ₖ p5·w2[256 + k, c] + ∑ₖ p9·w2[512 + k, c] + ∑ₖ p13·w2[768 + k, c]) · s2[c] + b2[c])`,
  the four sums added left to right.
-/
import proofs.«151823_g2000609335854391_pallasbulk_1276_4_alg».proof.Proof.LibRep3

noncomputable section

namespace Cert.Spp

open Idealize.ShloMosaic Idealize.ShloMosaic.ValueIdx Cert.Lib

/-- `a · logistic a`. -/
def silu (a : EReal) : EReal := a * Ideal.logistic a

/-- The first 1 × 1 convolution with its folded normalisation and activation. -/
def conv1 (x : (⟨4, ![32, 512, 20, 20]⟩ : Shape).Idx → EReal) (w1 : (⟨2, ![512, 256]⟩ : Shape).Idx → EReal)
    (s1 b1 : (⟨1, ![256]⟩ : Shape).Idx → EReal) (n : Fin 32) (h w : Fin 20) (k : Fin 256) : EReal :=
  silu ((∑ q : Fin 512, x (ix4 n q h w) * w1 (ix2 q k)) * s1 (ix1 k) + b1 (ix1 k))

/-- A 20 × 20 × 256 plane as a function of three naturals (zero outside; the pooled values never read it there). -/
def plane (y : Fin 20 → Fin 20 → Fin 256 → EReal) : ℕ → ℕ → ℕ → EReal := fun i j c =>
  if h : i < 20 ∧ j < 20 ∧ c < 256 then y ⟨i, h.1⟩ ⟨j, h.2.1⟩ ⟨c, h.2.2⟩ else 0

theorem plane_apply (y : Fin 20 → Fin 20 → Fin 256 → EReal) (h w : Fin 20) (k : Fin 256) : plane y h.val w.val k.val = y h w k := by
  unfold plane
  rw [dif_pos ⟨h.isLt, w.isLt, k.isLt⟩]

/-- The second 1 × 1 convolution over the four stacked feature maps, with its folded normalisation and activation. -/
def conv2 (w2 : (⟨2, ![1024, 512]⟩ : Shape).Idx → EReal) (s2 b2 : (⟨1, ![512]⟩ : Shape).Idx → EReal)
    (y p5 p9 p13 : Fin 256 → EReal) (c : Fin 512) : EReal :=
  silu (((((∑ k : Fin 256, y k * w2 (ix2 ⟨k.val, by omega⟩ c)) + ∑ k : Fin 256, p5 k * w2 (ix2 ⟨256 + k.val, by omega⟩ c))
      + ∑ k : Fin 256, p9 k * w2 (ix2 ⟨512 + k.val, by omega⟩ c)) + ∑ k : Fin 256, p13 k * w2 (ix2 ⟨768 + k.val, by omega⟩ c))
    * s2 (ix1 c) + b2 (ix1 c))

/-- The block's result at image `n`, output channel `c`, pixel `(h, w)`. -/
def sppAt (x : (⟨4, ![32, 512, 20, 20]⟩ : Shape).Idx → EReal) (w1 : (⟨2, ![512, 256]⟩ : Shape).Idx → EReal)
    (s1 b1 : (⟨1, ![256]⟩ : Shape).Idx → EReal) (w2 : (⟨2, ![1024, 512]⟩ : Shape).Idx → EReal)
    (s2 b2 : (⟨1, ![512]⟩ : Shape).Idx → EReal) (n : Fin 32) (c : Fin 512) (h w : Fin 20) : EReal :=
  conv2 w2 s2 b2 (fun k => plane (conv1 x w1 s1 b1 n) h.val w.val k.val)
    (fun k => pool5 (ext6 (plane (conv1 x w1 s1 b1 n))) (h.val + 4) (w.val + 4) k.val)
    (fun k => pool5 (pool5 (ext6 (plane (conv1 x w1 s1 b1 n)))) (h.val + 2) (w.val + 2) k.val)
    (fun k => pool5 (pool5 (pool5 (ext6 (plane (conv1 x w1 s1 b1 n))))) h.val w.val k.val) c

/-- The block's result array. -/
def spp (x : (⟨4, ![32, 512, 20, 20]⟩ : Shape).Idx → EReal) (w1 : (⟨2, ![512, 256]⟩ : Shape).Idx → EReal)
    (s1 b1 : (⟨1, ![256]⟩ : Shape).Idx → EReal) (w2 : (⟨2, ![1024, 512]⟩ : Shape).Idx → EReal)
    (s2 b2 : (⟨1, ![512]⟩ : Shape).Idx → EReal) : (⟨4, ![32, 512, 20, 20]⟩ : Shape).Idx → EReal :=
  fun i => sppAt x w1 s1 b1 w2 s2 b2 (i 0) (i 1) (i 2) (i 3)

/-! ## The three-kernel pipeline's stages, as functions of the arrays each reads

The reference runs the block as three kernels over arrays in pixel-major layout: `ref0` is the first convolution on a
12800 × 512 matrix of pixels, `ref1_5` / `ref1_9` / `ref1_13` the three pooled maps of a [32, 20, 20, 256] array, `ref2` the
second convolution on four 12800 × 256 matrices; `refTerm` strings them together with the reshapes and transposes
that the host program puts between them. -/

def ref0At (xm : (⟨2, ![12800, 512]⟩ : Shape).Idx → EReal) (w : (⟨2, ![512, 256]⟩ : Shape).Idx → EReal)
    (s b : (⟨2, ![1, 256]⟩ : Shape).Idx → EReal) (r : Fin 12800) (k : Fin 256) : EReal :=
  silu ((∑ q : Fin 512, xm (ix2 r q) * w (ix2 q k)) * s (ix2 0 k) + b (ix2 0 k))

def ref0 (xm : (⟨2, ![12800, 512]⟩ : Shape).Idx → EReal) (w : (⟨2, ![512, 256]⟩ : Shape).Idx → EReal)
    (s b : (⟨2, ![1, 256]⟩ : Shape).Idx → EReal) : (⟨2, ![12800, 256]⟩ : Shape).Idx → EReal :=
  fun i => ref0At xm w s b (i 0) (i 1)

/-- Image `n` of a [32, 20, 20, 256] array as a function of three naturals. -/
def plane4 (y : (⟨4, ![32, 20, 20, 256]⟩ : Shape).Idx → EReal) (n : Fin 32) : ℕ → ℕ → ℕ → EReal :=
  plane fun h w k => y (ix4 n h w k)

def ref1_5 (y : (⟨4, ![32, 20, 20, 256]⟩ : Shape).Idx → EReal) : (⟨4, ![32, 20, 20, 256]⟩ : Shape).Idx → EReal :=
  fun i => pool5 (ext6 (plane4 y (i 0))) ((i 1).val + 4) ((i 2).val + 4) (i 3).val

def ref1_9 (y : (⟨4, ![32, 20, 20, 256]⟩ : Shape).Idx → EReal) : (⟨4, ![32, 20, 20, 256]⟩ : Shape).Idx → EReal :=
  fun i => pool5 (pool5 (ext6 (plane4 y (i 0)))) ((i 1).val + 2) ((i 2).val + 2) (i 3).val

def ref1_13 (y : (⟨4, ![32, 20, 20, 256]⟩ : Shape).Idx → EReal) : (⟨4, ![32, 20, 20, 256]⟩ : Shape).Idx → EReal :=
  fun i => pool5 (pool5 (pool5 (ext6 (plane4 y (i 0))))) (i 1).val (i 2).val (i 3).val

def ref2At (a0 a1 a2 a3 : (⟨2, ![12800, 256]⟩ : Shape).Idx → EReal) (w4 : (⟨3, ![4, 256, 512]⟩ : Shape).Idx → EReal)
    (s b : (⟨2, ![1, 512]⟩ : Shape).Idx → EReal) (r : Fin 12800) (c : Fin 512) : EReal :=
  silu (((((∑ k : Fin 256, a0 (ix2 r k) * w4 (ix3 0 k c)) + ∑ k : Fin 256, a1 (ix2 r k) * w4 (ix3 1 k c))
      + ∑ k : Fin 256, a2 (ix2 r k) * w4 (ix3 2 k c)) + ∑ k : Fin 256, a3 (ix2 r k) * w4 (ix3 3 k c))
    * s (ix2 0 c) + b (ix2 0 c))

def ref2 (a0 a1 a2 a3 : (⟨2, ![12800, 256]⟩ : Shape).Idx → EReal) (w4 : (⟨3, ![4, 256, 512]⟩ : Shape).Idx → EReal)
    (s b : (⟨2, ![1, 512]⟩ : Shape).Idx → EReal) : (⟨2, ![12800, 512]⟩ : Shape).Idx → EReal :=
  fun i => ref2At a0 a1 a2 a3 w4 s b (i 0) (i 1)

/-- The first stage's output as the [32, 20, 20, 256] array the pooling kernel reads. -/
def refY (x : (⟨4, ![32, 512, 20, 20]⟩ : Shape).Idx → EReal) (w1 : (⟨2, ![512, 256]⟩ : Shape).Idx → EReal)
    (s1 b1 : (⟨1, ![256]⟩ : Shape).Idx → EReal) : (⟨4, ![32, 20, 20, 256]⟩ : Shape).Idx → EReal :=
  shapeCast ⟨4, ![32, 20, 20, 256]⟩
    (ref0 (shapeCast ⟨2, ![12800, 512]⟩ (transpose ⟨4, ![32, 20, 20, 512]⟩ [0, 2, 3, 1] x (by decide)) (by decide)) w1
      (shapeCast ⟨2, ![1, 256]⟩ s1 (by decide)) (shapeCast ⟨2, ![1, 256]⟩ b1 (by decide))) (by decide)

/-- The whole reference program's result as a term of its seven arguments. -/
def refTerm (x : (⟨4, ![32, 512, 20, 20]⟩ : Shape).Idx → EReal) (w1 : (⟨2, ![512, 256]⟩ : Shape).Idx → EReal)
    (s1 b1 : (⟨1, ![256]⟩ : Shape).Idx → EReal) (w2 : (⟨2, ![1024, 512]⟩ : Shape).Idx → EReal)
    (s2 b2 : (⟨1, ![512]⟩ : Shape).Idx → EReal) : (⟨4, ![32, 512, 20, 20]⟩ : Shape).Idx → EReal :=
  transpose ⟨4, ![32, 512, 20, 20]⟩ [0, 3, 1, 2]
    (shapeCast ⟨4, ![32, 20, 20, 512]⟩
      (ref2 (shapeCast ⟨2, ![12800, 256]⟩ (refY x w1 s1 b1) (by decide))
        (shapeCast ⟨2, ![12800, 256]⟩ (ref1_5 (refY x w1 s1 b1)) (by decide))
        (shapeCast ⟨2, ![12800, 256]⟩ (ref1_9 (refY x w1 s1 b1)) (by decide))
        (shapeCast ⟨2, ![12800, 256]⟩ (ref1_13 (refY x w1 s1 b1)) (by decide))
        (shapeCast ⟨3, ![4, 256, 512]⟩ w2 (by decide)) (shapeCast ⟨2, ![1, 512]⟩ s2 (by decide))
        (shapeCast ⟨2, ![1, 512]⟩ b2 (by decide))) (by decide)) (by decide)

end Cert.Spp

end
-- ==== Proof.KernelPool.lean ====
/-
  The fused kernel's three chained 5 × 5 window maxima, read through functions of natural coordinates.

  The kernel lays its first-stage activations out as a 20 × 20 × 256 block, surrounds it with six rows and columns of
  negative infinity, and takes a window-of-five maximum along the rows and then along the columns, three times over;
  each window of five is taken as pairs (neighbours, neighbours two apart, the fifth), which by associativity of `max`
  is the left-to-right maximum. If the 20 × 20 × 256 block holds `gY` at its coordinates, the 28 × 28, 24 × 24 and
  20 × 20 results hold `pool5 (ext6 gY)`, `pool5 (pool5 (ext6 gY))` and `pool5 (pool5 (pool5 (ext6 gY)))`, and the three
  400 × 256 matrices the second convolution multiplies are these read at row `p` = pixel `(p / 20, p % 20)` with the
  offsets 4, 2 and 0.
-/
import proofs.«151823_g2000609335854391_pallasbulk_1276_4_alg».proof.Proof.Gen.KernelIdeal.Skeleton
import proofs.«151823_g2000609335854391_pallasbulk_1276_4_alg».proof.Proof.LibRep3

noncomputable section

namespace Cert.KernelIdeal.Pool

open Idealize.ShloMosaic Idealize.ShloMosaic.ValueIdx Cert.Lib Cert.KernelIdeal Cert.KernelIdeal.Gen

variable (x0 : Vec Ideal S1x512x400 .f32) (x1 : Vec Ideal S512x256 .bf16) (x3 x4 : Vec Ideal S1x256 .f32)
variable {gY : ℕ → ℕ → ℕ → EReal}

/-- The 28 × 28 block after the first pool. -/
theorem pay3_rep (hY : Rep3 (shapeCast S20x20x256 (k0_pay2 x0 x1 x3 x4) shapeCasts_S400x256_S20x20x256) gY) :
    Rep3 (k0_pay3 x0 x1 x3 x4) (pool5 (ext6 gY)) := by
  have h19 := Rep3.padAx0 hY (Scalar.ofBits .bf16 0xFF80#16 : Ideal .bf16) concatenates_S6x20x256_S20x20x256_S6x20x256_S32x20x256_d0 rfl rfl rfl rfl rfl
  have h21 := Rep3.padAx1 h19 (Scalar.ofBits .bf16 0xFF80#16 : Ideal .bf16) concatenates_S32x6x256_S32x20x256_S32x6x256_S32x32x256_d1 rfl rfl rfl rfl rfl
  have h21' : Rep3 _ (ext6 gY) := h21.congr fun i j c => by
    show (if j < 6 then _ else if j < 6 + 20 then (if i < 6 then _ else if i < 6 + 20 then _ else _) else _) = _
    rw [negInf_bf16]; rfl
  have h30 := Rep3.win5t_ax0 h21' slices_S32x32x256_o0_0_0_S31x32x256 slices_S32x32x256_o1_0_0_S31x32x256
    slices_S31x32x256_o0_0_0_S29x32x256 slices_S31x32x256_o2_0_0_S29x32x256 slices_S29x32x256_o0_0_0_S28x32x256
    slices_S32x32x256_o4_0_0_S28x32x256
  have h39 := Rep3.win5t_ax1 h30 slices_S28x32x256_o0_0_0_S28x31x256 slices_S28x32x256_o0_1_0_S28x31x256
    slices_S28x31x256_o0_0_0_S28x29x256 slices_S28x31x256_o0_2_0_S28x29x256 slices_S28x29x256_o0_0_0_S28x28x256
    slices_S28x32x256_o0_4_0_S28x28x256
  exact h39

/-- The 24 × 24 block after the second pool. -/
theorem pay5_rep {v39 : FVec Ideal S28x28x256 .bf16} {g : ℕ → ℕ → ℕ → EReal} (h39 : Rep3 v39 g)
    (v46 : FVec Ideal S24x28x256 .bf16)
    (e46 : v46 = extractStridedSlice S24x28x256 ![0, 0, 0]
      (maximumf (extractStridedSlice S25x28x256 ![0, 0, 0] (maximumf (extractStridedSlice S27x28x256 ![0, 0, 0] v39 slices_S28x28x256_o0_0_0_S27x28x256) (extractStridedSlice S27x28x256 ![1, 0, 0] v39 slices_S28x28x256_o1_0_0_S27x28x256)) slices_S27x28x256_o0_0_0_S25x28x256)
        (extractStridedSlice S25x28x256 ![2, 0, 0] (maximumf (extractStridedSlice S27x28x256 ![0, 0, 0] v39 slices_S28x28x256_o0_0_0_S27x28x256) (extractStridedSlice S27x28x256 ![1, 0, 0] v39 slices_S28x28x256_o1_0_0_S27x28x256)) slices_S27x28x256_o2_0_0_S25x28x256))
      slices_S25x28x256_o0_0_0_S24x28x256) :
    Rep3 (k0_pay5 v39 v46) (pool5 g) := by
  subst e46
  have h48 := Rep3.win5t_ax0 h39 slices_S28x28x256_o0_0_0_S27x28x256 slices_S28x28x256_o1_0_0_S27x28x256
    slices_S27x28x256_o0_0_0_S25x28x256 slices_S27x28x256_o2_0_0_S25x28x256 slices_S25x28x256_o0_0_0_S24x28x256
    slices_S28x28x256_o4_0_0_S24x28x256
  have h57 := Rep3.win5t_ax1 h48 slices_S24x28x256_o0_0_0_S24x27x256 slices_S24x28x256_o0_1_0_S24x27x256
    slices_S24x27x256_o0_0_0_S24x25x256 slices_S24x27x256_o0_2_0_S24x25x256 slices_S24x25x256_o0_0_0_S24x24x256
    slices_S24x28x256_o0_4_0_S24x24x256
  exact h57

/-- `k0_pay4` is the part of the second pool's first window the kernel's body hands on. -/
theorem pay4_eq : k0_pay4 x0 x1 x3 x4 = extractStridedSlice S24x28x256 ![0, 0, 0]
      (maximumf (extractStridedSlice S25x28x256 ![0, 0, 0] (maximumf (extractStridedSlice S27x28x256 ![0, 0, 0] (k0_pay3 x0 x1 x3 x4) slices_S28x28x256_o0_0_0_S27x28x256) (extractStridedSlice S27x28x256 ![1, 0, 0] (k0_pay3 x0 x1 x3 x4) slices_S28x28x256_o1_0_0_S27x28x256)) slices_S27x28x256_o0_0_0_S25x28x256)
        (extractStridedSlice S25x28x256 ![2, 0, 0] (maximumf (extractStridedSlice S27x28x256 ![0, 0, 0] (k0_pay3 x0 x1 x3 x4) slices_S28x28x256_o0_0_0_S27x28x256) (extractStridedSlice S27x28x256 ![1, 0, 0] (k0_pay3 x0 x1 x3 x4) slices_S28x28x256_o1_0_0_S27x28x256)) slices_S27x28x256_o2_0_0_S25x28x256))
      slices_S25x28x256_o0_0_0_S24x28x256 := rfl

/-- A 20 × 20 × 256 block flattened to 400 × 256: row `p` is pixel `(p / 20, p % 20)`. -/
theorem flat_apply {φ : FTy} {v : FVec Ideal S20x20x256 φ} {g : ℕ → ℕ → ℕ → EReal} (hv : Rep3 v g) (p : Fin 400) (k : Fin 256) :
    shapeCast S400x256 v shapeCasts_S20x20x256_S400x256 (ix2 p k) = g (p.val / 20) (p.val % 20) k.val := by
  refine (shapeCast_apply v _ (ix2 p k) (ix3 ⟨p.val / 20, by omega⟩ ⟨p.val % 20, by omega⟩ k) ?_).trans (hv _)
  rw [Shape.rowMajor_val_three, Shape.rowMajor_val_two]
  show (p.val / 20 * 20 + p.val % 20) * 256 + k.val = p.val * 256 + k.val
  omega

/-- The third pool's 20 × 20 block, flattened: row `p` holds the pooled plane at pixel `(p / 20, p % 20)`. -/
theorem pay6_apply {v39 : FVec Ideal S28x28x256 .bf16} {v46 : FVec Ideal S24x28x256 .bf16} {g : ℕ → ℕ → ℕ → EReal}
    (h57 : Rep3 (k0_pay5 v39 v46) g) (p : Fin 400) (k : Fin 256) :
    k0_pay6 v39 v46 (ix2 p k) = pool5 g (p.val / 20) (p.val % 20) k.val := by
  have h66 := Rep3.win5t_ax0 h57 slices_S24x24x256_o0_0_0_S23x24x256 slices_S24x24x256_o1_0_0_S23x24x256
    slices_S23x24x256_o0_0_0_S21x24x256 slices_S23x24x256_o2_0_0_S21x24x256 slices_S21x24x256_o0_0_0_S20x24x256
    slices_S24x24x256_o4_0_0_S20x24x256
  have h75 := Rep3.win5t_ax1 h66 slices_S20x24x256_o0_0_0_S20x23x256 slices_S20x24x256_o0_1_0_S20x23x256
    slices_S20x23x256_o0_0_0_S20x21x256 slices_S20x23x256_o0_2_0_S20x21x256 slices_S20x21x256_o0_0_0_S20x20x256
    slices_S20x24x256_o0_4_0_S20x20x256
  exact flat_apply h75 p k

/-- The first pool's block read at the offset of the 5 × 5 window round a pixel, flattened. -/
theorem p5_apply {v39 : FVec Ideal S28x28x256 .bf16} {g : ℕ → ℕ → ℕ → EReal} (h39 : Rep3 v39 g) (p : Fin 400) (k : Fin 256) :
    shapeCast S400x256 (extractStridedSlice S20x20x256 ![4, 4, 0] v39 slices_S28x28x256_o4_4_0_S20x20x256) shapeCasts_S20x20x256_S400x256 (ix2 p k)
      = g (p.val / 20 + 4) (p.val % 20 + 4) k.val :=
  flat_apply (h39.slice _ slices_S28x28x256_o4_4_0_S20x20x256) p k

/-- The second pool's block read at the offset of the 9 × 9 window round a pixel, flattened. -/
theorem p9_apply {v57 : FVec Ideal S24x24x256 .bf16} {g : ℕ → ℕ → ℕ → EReal} (h57 : Rep3 v57 g) (p : Fin 400) (k : Fin 256) :
    shapeCast S400x256 (extractStridedSlice S20x20x256 ![2, 2, 0] v57 slices_S24x24x256_o2_2_0_S20x20x256) shapeCasts_S20x20x256_S400x256 (ix2 p k)
      = g (p.val / 20 + 2) (p.val % 20 + 2) k.val :=
  flat_apply (h57.slice _ slices_S24x24x256_o2_2_0_S20x20x256) p k

end Cert.KernelIdeal.Pool

end
-- ==== Proof.KernelMat.lean ====
/-
  The fused kernel's two matrix products and activations, read at an index.

  At the ideal values a matrix product into the zero accumulator is the plain sum, over the one contracted axis, of the
  operands' products. The first product contracts the channel axis of the `512 × 400` image block with that of the
  `512 × 256` weights: entry `(p, k)` is `∑ q, x[q, p] · w[q, k]`. The second kind contracts axis 0 of a `256 × 512` weight
  slab with axis 1 of a `400 × 256` feature matrix: entry `(c, p)` is `∑ k, w[k, c] · f[p, k]`. Round them sit a per-channel
  scale and shift (a row spread over the pixels in the first stage, a column in the second) and `a ↦ a · logistic a`; the
  format changes are the identity on extended reals and the unit-axis casts only rename the index.
-/
import proofs.«151823_g2000609335854391_pallasbulk_1276_4_alg».proof.Proof.Gen.KernelIdeal.Skeleton
import proofs.«151823_g2000609335854391_pallasbulk_1276_4_alg».proof.Proof.Spec
import Idealize.ShloMosaic.PureOps.Ideal.Laws
import Idealize.ShloMosaic.Lib.Pipeline.Value
import Idealize.ShloMosaic.Lib.ValueLayout

noncomputable section

namespace Cert.KernelIdeal.Mat

open Idealize.ShloMosaic Idealize.ShloMosaic.ValueIdx Cert.Lib Cert.Spp Cert.KernelIdeal Cert.KernelIdeal.Gen

/-! ## The first product's operand indices

The first product contracts axis 0 of the `512 × 400` image block with axis 0 of the `512 × 256` weights; the result's
row is the block's free axis (a pixel), its column the weights' free axis (a hidden channel). -/

/-- Left operand, axis 0: the contraction position. -/
theorem lhs_a_0 (i : S400x256.Idx) (q : dot_S512x400_S512x256_S400x256_0_0_1_1_n_n.contr.Idx) :
    (dot_S512x400_S512x256_S400x256_0_0_1_1_n_n.lhsIdx i q 0).val = (q ⟨0, by decide⟩).val :=
  dot_S512x400_S512x256_S400x256_0_0_1_1_n_n.lhsIdx_val_of_single rfl i q

/-- Left operand, axis 1: the result's row. -/
theorem lhs_a_1 (i : S400x256.Idx) (q : dot_S512x400_S512x256_S400x256_0_0_1_1_n_n.contr.Idx) :
    (dot_S512x400_S512x256_S400x256_0_0_1_1_n_n.lhsIdx i q 1).val = (i 0).val := by
  unfold DotDims.lhsIdx
  rw [dif_neg (show ¬(1 : Fin S512x400.rank) ∈ dot_S512x400_S512x256_S400x256_0_0_1_1_n_n.lhsBatch by decide), dif_pos (show (1 : Fin S512x400.rank) ∈ dot_S512x400_S512x256_S400x256_0_0_1_1_n_n.lhsNonContracting by decide)]
  rfl

/-- Right operand, axis 0: the contraction position. -/
theorem rhs_a_0 (i : S400x256.Idx) (q : dot_S512x400_S512x256_S400x256_0_0_1_1_n_n.contr.Idx) :
    (dot_S512x400_S512x256_S400x256_0_0_1_1_n_n.rhsIdx i q 0).val = (q ⟨0, by decide⟩).val :=
  dot_S512x400_S512x256_S400x256_0_0_1_1_n_n.rhsIdx_val_of_single rfl i q

/-- Right operand, axis 1: the result's column. -/
theorem rhs_a_1 (i : S400x256.Idx) (q : dot_S512x400_S512x256_S400x256_0_0_1_1_n_n.contr.Idx) :
    (dot_S512x400_S512x256_S400x256_0_0_1_1_n_n.rhsIdx i q 1).val = (i 1).val := by
  unfold DotDims.rhsIdx
  rw [dif_neg (show ¬(1 : Fin S512x256.rank) ∈ dot_S512x400_S512x256_S400x256_0_0_1_1_n_n.rhsBatch by decide), dif_pos (show (1 : Fin S512x256.rank) ∈ dot_S512x400_S512x256_S400x256_0_0_1_1_n_n.rhsNonContracting by decide)]
  rfl

/-- The first product into the zero accumulator, at row `p`, column `k`: `∑ q, a[q, p] · b[q, k]`. -/
theorem mm_a {φ₁ φ₂ : FTy} (a : FVec Ideal S512x400 φ₁) (b : FVec Ideal S512x256 φ₂) (p : Fin 400) (k : Fin 256) :
    matmul dot_S512x400_S512x256_S400x256_0_0_1_1_n_n none a b (constant (F := Ideal) S400x256 .f32 0x00000000#32) (ix2 p k)
      = ∑ q : Fin 512, a (ix2 q p) * b (ix2 q k) := by
  refine (Ideal.matmul_constant_zero_apply dot_S512x400_S512x256_S400x256_0_0_1_1_n_n none a b (ix2 p k)).trans ?_
  rw [← Equiv.sum_comp (ValueIdx.contrEquiv1 dot_S512x400_S512x256_S400x256_0_0_1_1_n_n 512 rfl rfl).symm]
  refine Finset.sum_congr rfl fun q _ => ?_
  have hk := ValueIdx.contrEquiv1_symm_val dot_S512x400_S512x256_S400x256_0_0_1_1_n_n 512 rfl rfl q
  have el : dot_S512x400_S512x256_S400x256_0_0_1_1_n_n.lhsIdx (ix2 p k) ((ValueIdx.contrEquiv1 dot_S512x400_S512x256_S400x256_0_0_1_1_n_n 512 rfl rfl).symm q) = ix2 q p := funext fun ax => Fin.ext (by
    match ax with
    | ⟨0, _⟩ => exact (lhs_a_0 _ _).trans hk
    | ⟨1, _⟩ => exact lhs_a_1 _ _)
  have er : dot_S512x400_S512x256_S400x256_0_0_1_1_n_n.rhsIdx (ix2 p k) ((ValueIdx.contrEquiv1 dot_S512x400_S512x256_S400x256_0_0_1_1_n_n 512 rfl rfl).symm q) = ix2 q k := funext fun ax => Fin.ext (by
    match ax with
    | ⟨0, _⟩ => exact (rhs_a_0 _ _).trans hk
    | ⟨1, _⟩ => exact rhs_a_1 _ _)
  rw [el, er]

/-! ## The second product's operand indices

The second product contracts axis 0 of a `256 × 512` weight slab with axis 1 of a `400 × 256` feature matrix; the result's
row is the slab's free axis (an output channel), its column the feature matrix's free axis (a pixel). -/

/-- Left operand, axis 0: the contraction position. -/
theorem lhs_b_0 (i : S512x400.Idx) (q : dot_S256x512_S400x256_S512x400_0_1_1_0_n_n.contr.Idx) :
    (dot_S256x512_S400x256_S512x400_0_1_1_0_n_n.lhsIdx i q 0).val = (q ⟨0, by decide⟩).val :=
  dot_S256x512_S400x256_S512x400_0_1_1_0_n_n.lhsIdx_val_of_single rfl i q

/-- Left operand, axis 1: the result's row. -/
theorem lhs_b_1 (i : S512x400.Idx) (q : dot_S256x512_S400x256_S512x400_0_1_1_0_n_n.contr.Idx) :
    (dot_S256x512_S400x256_S512x400_0_1_1_0_n_n.lhsIdx i q 1).val = (i 0).val := by
  unfold DotDims.lhsIdx
  rw [dif_neg (show ¬(1 : Fin S256x512.rank) ∈ dot_S256x512_S400x256_S512x400_0_1_1_0_n_n.lhsBatch by decide), dif_pos (show (1 : Fin S256x512.rank) ∈ dot_S256x512_S400x256_S512x400_0_1_1_0_n_n.lhsNonContracting by decide)]
  rfl

/-- Right operand, axis 0: the result's column. -/
theorem rhs_b_0 (i : S512x400.Idx) (q : dot_S256x512_S400x256_S512x400_0_1_1_0_n_n.contr.Idx) :
    (dot_S256x512_S400x256_S512x400_0_1_1_0_n_n.rhsIdx i q 0).val = (i 1).val := by
  unfold DotDims.rhsIdx
  rw [dif_neg (show ¬(0 : Fin S400x256.rank) ∈ dot_S256x512_S400x256_S512x400_0_1_1_0_n_n.rhsBatch by decide), dif_pos (show (0 : Fin S400x256.rank) ∈ dot_S256x512_S400x256_S512x400_0_1_1_0_n_n.rhsNonContracting by decide)]
  rfl

/-- Right operand, axis 1: the contraction position. -/
theorem rhs_b_1 (i : S512x400.Idx) (q : dot_S256x512_S400x256_S512x400_0_1_1_0_n_n.contr.Idx) :
    (dot_S256x512_S400x256_S512x400_0_1_1_0_n_n.rhsIdx i q 1).val = (q ⟨0, by decide⟩).val :=
  dot_S256x512_S400x256_S512x400_0_1_1_0_n_n.rhsIdx_val_of_single rfl i q

/-- The second product into the zero accumulator, at row `c`, column `p`: `∑ k, a[k, c] · b[p, k]`. -/
theorem mm_b {φ₁ φ₂ : FTy} (a : FVec Ideal S256x512 φ₁) (b : FVec Ideal S400x256 φ₂) (c : Fin 512) (p : Fin 400) :
    matmul dot_S256x512_S400x256_S512x400_0_1_1_0_n_n none a b (constant (F := Ideal) S512x400 .f32 0x00000000#32) (ix2 c p)
      = ∑ k : Fin 256, a (ix2 k c) * b (ix2 p k) := by
  refine (Ideal.matmul_constant_zero_apply dot_S256x512_S400x256_S512x400_0_1_1_0_n_n none a b (ix2 c p)).trans ?_
  rw [← Equiv.sum_comp (ValueIdx.contrEquiv1 dot_S256x512_S400x256_S512x400_0_1_1_0_n_n 256 rfl rfl).symm]
  refine Finset.sum_congr rfl fun k _ => ?_
  have hk := ValueIdx.contrEquiv1_symm_val dot_S256x512_S400x256_S512x400_0_1_1_0_n_n 256 rfl rfl k
  have el : dot_S256x512_S400x256_S512x400_0_1_1_0_n_n.lhsIdx (ix2 c p) ((ValueIdx.contrEquiv1 dot_S256x512_S400x256_S512x400_0_1_1_0_n_n 256 rfl rfl).symm k) = ix2 k c := funext fun ax => Fin.ext (by
    match ax with
    | ⟨0, _⟩ => exact (lhs_b_0 _ _).trans hk
    | ⟨1, _⟩ => exact lhs_b_1 _ _)
  have er : dot_S256x512_S400x256_S512x400_0_1_1_0_n_n.rhsIdx (ix2 c p) ((ValueIdx.contrEquiv1 dot_S256x512_S400x256_S512x400_0_1_1_0_n_n 256 rfl rfl).symm k) = ix2 p k := funext fun ax => Fin.ext (by
    match ax with
    | ⟨0, _⟩ => exact rhs_b_0 _ _
    | ⟨1, _⟩ => exact (rhs_b_1 _ _).trans hk)
  rw [el, er]

/-! ## The layout operations round the products -/

/-- A `[a, 1]` column broadcast to `[a, b]` reads, at `(c, p)`, the operand's one column at `c`. -/
theorem broadcastTo_a1_ab_apply {α : Type} {a b : ℕ} (v : (⟨2, ![a, 1]⟩ : Shape).Idx → α)
    (h : (⟨2, ![a, 1]⟩ : Shape).Broadcasts ⟨2, ![a, b]⟩) (c : Fin a) (p : Fin b) :
    broadcastTo ⟨2, ![a, b]⟩ v h (ix2 c p) = v (ix2 c (0 : Fin 1)) := by
  refine broadcastTo_apply v h (ix2 c p) (ix2 c (0 : Fin 1)) fun ax => ?_
  match ax with
  | ⟨0, _⟩ =>
    show c.val = if a = 1 then 0 else c.val
    split
    · have := c.isLt; omega
    · rfl
  | ⟨1, _⟩ => rfl

/-- The first product as the kernel forms it: the image block with its unit axis dropped against the weights. -/
theorem conv_a_apply (x0 : Vec Ideal S1x512x400 .f32) (x1 : Vec Ideal S512x256 .bf16) (p : Fin 400) (k : Fin 256) :
    matmul (φ₁ := .bf16) (φ₂ := .bf16) dot_S512x400_S512x256_S400x256_0_0_1_1_n_n none (truncf .bf16 (shapeCast S512x400 x0 shapeCasts_S1x512x400_S512x400) bitsLt_bf16_f32)
        (shapeCast S512x256 x1 shapeCasts_S512x256_S512x256) (constant (F := Ideal) S400x256 .f32 0x00000000#32) (ix2 p k)
      = ∑ q : Fin 512, x0 (ix3 0 q p) * x1 (ix2 q k) := by
  refine (mm_a _ _ p k).trans (Finset.sum_congr rfl fun q _ => ?_)
  rw [shapeCast_self]
  exact congrArg (· * x1 (ix2 q k)) (shapeCast_1ab_ab_apply x0 shapeCasts_S1x512x400_S512x400 q p)

/-- A per-channel row of the first stage (scale or shift), spread over the pixels. -/
theorem row_a_apply (x3 : Vec Ideal S1x256 .f32) (p : Fin 400) (k : Fin 256) :
    broadcastTo S400x256 (shapeCast S1x256 x3 shapeCasts_S1x256_S1x256) broadcasts_S1x256_S400x256 (ix2 p k) = x3 (ix2 0 k) := by
  rw [shapeCast_self]
  exact broadcastTo_1b_ab_apply x3 broadcasts_S1x256_S400x256 p k

/-- One weight slab, its unit axis dropped, against one feature matrix. -/
theorem slab_apply {φ : FTy} (w : Vec Ideal S1x256x512 .bf16) (f : FVec Ideal S400x256 φ) (c : Fin 512) (p : Fin 400) :
    matmul (φ₁ := .bf16) (φ₂ := φ) dot_S256x512_S400x256_S512x400_0_1_1_0_n_n none (shapeCast S256x512 w shapeCasts_S1x256x512_S256x512) f
        (constant (F := Ideal) S512x400 .f32 0x00000000#32) (ix2 c p)
      = ∑ k : Fin 256, w (ix3 0 k c) * f (ix2 p k) := by
  refine (mm_b _ f c p).trans (Finset.sum_congr rfl fun k _ => ?_)
  exact congrArg (· * f (ix2 p k)) (shapeCast_1ab_ab_apply w shapeCasts_S1x256x512_S256x512 k c)

/-- A per-channel column of the second stage (scale or shift), spread over the pixels. -/
theorem col_b_apply (v96 : Vec Ideal S512x1 .f32) (c : Fin 512) (p : Fin 400) :
    broadcastTo S512x400 (shapeCast S512x1 v96 shapeCasts_S512x1_S512x1) broadcasts_S512x1_S512x400 (ix2 c p) = v96 (ix2 c 0) := by
  rw [shapeCast_self]
  exact broadcastTo_a1_ab_apply v96 broadcasts_S512x1_S512x400 c p

/-- The three first slabs' products, added left to right, at output channel `c`, pixel `p`. -/
theorem pay7_apply (v16 : FVec Ideal S400x256 .bf16) (v39 : FVec Ideal S28x28x256 .bf16) (v46 : FVec Ideal S24x28x256 .bf16)
    (v81 v84 v88 : Vec Ideal S1x256x512 .bf16) (c : Fin 512) (p : Fin 400) :
    k0_pay7 v16 v39 v46 v81 v84 v88 (ix2 c p)
      = ((∑ k : Fin 256, v81 (ix3 0 k c) * v16 (ix2 p k))
          + ∑ k : Fin 256, v84 (ix3 0 k c) * shapeCast S400x256 (extractStridedSlice S20x20x256 ![4, 4, 0] v39 slices_S28x28x256_o4_4_0_S20x20x256) shapeCasts_S20x20x256_S400x256 (ix2 p k))
          + ∑ k : Fin 256, v88 (ix3 0 k c) * shapeCast S400x256 (extractStridedSlice S20x20x256 ![2, 2, 0] (k0_pay5 v39 v46) slices_S24x24x256_o2_2_0_S20x20x256) shapeCasts_S20x20x256_S400x256 (ix2 p k) := by
  rw [← slab_apply (φ := .bf16) v81 v16 c p,
    ← slab_apply (φ := .bf16) v84 (shapeCast S400x256 (extractStridedSlice S20x20x256 ![4, 4, 0] v39 slices_S28x28x256_o4_4_0_S20x20x256) shapeCasts_S20x20x256_S400x256) c p,
    ← slab_apply (φ := .bf16) v88 (shapeCast S400x256 (extractStridedSlice S20x20x256 ![2, 2, 0] (k0_pay5 v39 v46) slices_S24x24x256_o2_2_0_S20x20x256) shapeCasts_S20x20x256_S400x256) c p]
  rfl

/-- The last stage over any fourth feature matrix `f` and any running sum `s` of the first three products. -/
theorem pay1_open (f : FVec Ideal S400x256 .bf16) (s : FVec Ideal S512x400 .f32) (v92 : Vec Ideal S1x256x512 .bf16)
    (v96 v100 : Vec Ideal S512x1 .f32) (c : Fin 512) (p : Fin 400) :
    k0_pay1 f s v92 v96 v100 (ix3 0 c p)
      = silu ((s (ix2 c p) + ∑ k : Fin 256, v92 (ix3 0 k c) * f (ix2 p k)) * v96 (ix2 c 0) + v100 (ix2 c 0)) := by
  unfold silu
  rw [← slab_apply (φ := .bf16) v92 f c p, ← col_b_apply v96 c p, ← col_b_apply v100 c p]
  unfold k0_pay1
  exact shapeCast_ab_1ab_apply _ shapeCasts_S512x400_S1x512x400 0 c p

/-- The first stage at row `p` (a pixel), column `k` (a hidden channel): the image block's column `p` against column `k`
    of the weights, scaled, shifted and activated. -/
theorem pay2_apply (x0 : Vec Ideal S1x512x400 .f32) (x1 : Vec Ideal S512x256 .bf16) (x3 x4 : Vec Ideal S1x256 .f32)
    (p : Fin 400) (k : Fin 256) :
    k0_pay2 x0 x1 x3 x4 (ix2 p k)
      = silu ((∑ q : Fin 512, x0 (ix3 0 q p) * x1 (ix2 q k)) * x3 (ix2 0 k) + x4 (ix2 0 k)) := by
  unfold silu
  rw [← conv_a_apply x0 x1 p k, ← row_a_apply x3 p k, ← row_a_apply x4 p k]
  rfl

/-- The stored block at output channel `c`, pixel `p`: the four weight slabs against the four feature matrices, the sums
    added left to right, scaled, shifted and activated. -/
theorem pay1_apply (v16 : FVec Ideal S400x256 .bf16) (v39 : FVec Ideal S28x28x256 .bf16) (v46 : FVec Ideal S24x28x256 .bf16)
    (v81 v84 v88 v92 : Vec Ideal S1x256x512 .bf16) (v96 v100 : Vec Ideal S512x1 .f32) (c : Fin 512) (p : Fin 400) :
    k0_pay1 (k0_pay6 v39 v46) (k0_pay7 v16 v39 v46 v81 v84 v88) v92 v96 v100 (ix3 0 c p)
      = silu (((((∑ k : Fin 256, v81 (ix3 0 k c) * v16 (ix2 p k))
            + ∑ k : Fin 256, v84 (ix3 0 k c) * shapeCast S400x256 (extractStridedSlice S20x20x256 ![4, 4, 0] v39 slices_S28x28x256_o4_4_0_S20x20x256) shapeCasts_S20x20x256_S400x256 (ix2 p k))
            + ∑ k : Fin 256, v88 (ix3 0 k c) * shapeCast S400x256 (extractStridedSlice S20x20x256 ![2, 2, 0] (k0_pay5 v39 v46) slices_S24x24x256_o2_2_0_S20x20x256) shapeCasts_S20x20x256_S400x256 (ix2 p k))
            + ∑ k : Fin 256, v92 (ix3 0 k c) * k0_pay6 v39 v46 (ix2 p k))
          * v96 (ix2 c 0) + v100 (ix2 c 0)) := by
  rw [pay1_open, pay7_apply]

end Cert.KernelIdeal.Mat

end
-- ==== Proof.KernelBlock.lean ====
/-
  One stored block of the fused kernel is the block's function `sppAt`, element by element.

  At grid point `n` the body loads image `n` as a 512 × 400 matrix (channel × pixel), the weights and the folded
  normalisation vectors, and stores a 512 × 400 block. Reading the loads through the arrays they come from (`h0` … `h6`,
  `h81` … `h92`: hypotheses here, block reads in the module that uses this one), the stored value at output channel `c`
  and pixel `p` is `sppAt` at `(n, c, p / 20, p % 20)`: the first stage at a pixel is `conv1` (the matrix product over
  the input channels), the 20 × 20 × 256 block of first-stage values is `plane (conv1 … n)`, the three pooled blocks are
  its `pool5` iterates read at the offsets 4, 2, 0, and the four products of the second stage differ from `conv2`'s only in
  the order of the two factors under each sum.
-/
import proofs.«151823_g2000609335854391_pallasbulk_1276_4_alg».proof.Proof.Gen.KernelIdeal.Skeleton
import proofs.«151823_g2000609335854391_pallasbulk_1276_4_alg».proof.Proof.Spec
import proofs.«151823_g2000609335854391_pallasbulk_1276_4_alg».proof.Proof.KernelPool
import proofs.«151823_g2000609335854391_pallasbulk_1276_4_alg».proof.Proof.KernelMat
import Idealize.ShloMosaic.Lib.Pipeline.Value

noncomputable section

namespace Cert.KernelIdeal.Block

open Idealize.ShloMosaic Idealize.ShloMosaic.ValueIdx Cert.Lib Cert.Spp Cert.KernelIdeal Cert.KernelIdeal.Gen

variable (x : (⟨4, ![32, 512, 20, 20]⟩ : Shape).Idx → EReal) (w1 : (⟨2, ![512, 256]⟩ : Shape).Idx → EReal)
  (s1 b1 : (⟨1, ![256]⟩ : Shape).Idx → EReal) (w2 : (⟨2, ![1024, 512]⟩ : Shape).Idx → EReal)
  (s2 b2 : (⟨1, ![512]⟩ : Shape).Idx → EReal) (n : Fin 32)
  (x0 : Vec Ideal S1x512x400 .f32) (x1 : Vec Ideal S512x256 .bf16) (x3 x4 : Vec Ideal S1x256 .f32)
  (v81 v84 v88 v92 : Vec Ideal S1x256x512 .bf16) (x5 x6 : Vec Ideal S512x1 .f32)

/-- The first stage at pixel `p`, hidden channel `k`. -/
theorem pay2_conv1
    (h0 : ∀ (q : Fin 512) (p : Fin 400), x0 (ix3 0 q p) = x (ix4 n q ⟨p.val / 20, by omega⟩ ⟨p.val % 20, by omega⟩))
    (h1 : ∀ (q : Fin 512) (k : Fin 256), x1 (ix2 q k) = w1 (ix2 q k))
    (h3 : ∀ k : Fin 256, x3 (ix2 0 k) = s1 (ix1 k)) (h4 : ∀ k : Fin 256, x4 (ix2 0 k) = b1 (ix1 k))
    (p : Fin 400) (k : Fin 256) :
    k0_pay2 x0 x1 x3 x4 (ix2 p k) = conv1 x w1 s1 b1 n ⟨p.val / 20, by omega⟩ ⟨p.val % 20, by omega⟩ k := by
  rw [Mat.pay2_apply, h3, h4]
  unfold conv1
  rw [Finset.sum_congr rfl fun q _ => by rw [h0 q p, h1 q k]]

/-- The 20 × 20 × 256 block of first-stage values holds the plane of `conv1` at image `n`. -/
theorem y_rep
    (h0 : ∀ (q : Fin 512) (p : Fin 400), x0 (ix3 0 q p) = x (ix4 n q ⟨p.val / 20, by omega⟩ ⟨p.val % 20, by omega⟩))
    (h1 : ∀ (q : Fin 512) (k : Fin 256), x1 (ix2 q k) = w1 (ix2 q k))
    (h3 : ∀ k : Fin 256, x3 (ix2 0 k) = s1 (ix1 k)) (h4 : ∀ k : Fin 256, x4 (ix2 0 k) = b1 (ix1 k)) :
    Rep3 (shapeCast S20x20x256 (k0_pay2 x0 x1 x3 x4) shapeCasts_S400x256_S20x20x256) (plane (conv1 x w1 s1 b1 n)) := by
  intro j
  have hj0 : (j 0).val < 20 := (j 0).isLt
  have hj1 : (j 1).val < 20 := (j 1).isLt
  have hj2 : (j 2).val < 256 := (j 2).isLt
  have e := shapeCast_apply (k0_pay2 x0 x1 x3 x4) shapeCasts_S400x256_S20x20x256 j
    (ix2 (⟨(j 0).val * 20 + (j 1).val, by omega⟩ : Fin 400) (⟨(j 2).val, hj2⟩ : Fin 256))
    (by rw [Shape.rowMajor_val_two, Shape.rowMajor_val_three]; rfl)
  rw [e, pay2_conv1 x w1 s1 b1 n x0 x1 x3 x4 h0 h1 h3 h4]
  unfold plane
  rw [dif_pos ⟨hj0, hj1, hj2⟩]
  have e0 : (⟨((j 0).val * 20 + (j 1).val) / 20, by omega⟩ : Fin 20) = ⟨(j 0).val, hj0⟩ :=
    Fin.ext (by show ((j 0).val * 20 + (j 1).val) / 20 = (j 0).val; omega)
  have e1 : (⟨((j 0).val * 20 + (j 1).val) % 20, by omega⟩ : Fin 20) = ⟨(j 1).val, hj1⟩ :=
    Fin.ext (by show ((j 0).val * 20 + (j 1).val) % 20 = (j 1).val; omega)
  show conv1 x w1 s1 b1 n ⟨((j 0).val * 20 + (j 1).val) / 20, _⟩ ⟨((j 0).val * 20 + (j 1).val) % 20, _⟩ ⟨(j 2).val, hj2⟩ = _
  rw [e0, e1]

/-- A row of the first-stage matrix is the plane at that row's pixel. -/
theorem y_apply
    (h0 : ∀ (q : Fin 512) (p : Fin 400), x0 (ix3 0 q p) = x (ix4 n q ⟨p.val / 20, by omega⟩ ⟨p.val % 20, by omega⟩))
    (h1 : ∀ (q : Fin 512) (k : Fin 256), x1 (ix2 q k) = w1 (ix2 q k))
    (h3 : ∀ k : Fin 256, x3 (ix2 0 k) = s1 (ix1 k)) (h4 : ∀ k : Fin 256, x4 (ix2 0 k) = b1 (ix1 k))
    (p : Fin 400) (k : Fin 256) :
    k0_pay2 x0 x1 x3 x4 (ix2 p k) = plane (conv1 x w1 s1 b1 n) (p.val / 20) (p.val % 20) k.val := by
  rw [pay2_conv1 x w1 s1 b1 n x0 x1 x3 x4 h0 h1 h3 h4]
  exact (plane_apply (conv1 x w1 s1 b1 n) ⟨p.val / 20, by omega⟩ ⟨p.val % 20, by omega⟩ k).symm

/-- THE BLOCK: the stored value at output channel `c`, pixel `p` of image `n`. -/
theorem block_at
    (h0 : ∀ (q : Fin 512) (p : Fin 400), x0 (ix3 0 q p) = x (ix4 n q ⟨p.val / 20, by omega⟩ ⟨p.val % 20, by omega⟩))
    (h1 : ∀ (q : Fin 512) (k : Fin 256), x1 (ix2 q k) = w1 (ix2 q k))
    (h3 : ∀ k : Fin 256, x3 (ix2 0 k) = s1 (ix1 k)) (h4 : ∀ k : Fin 256, x4 (ix2 0 k) = b1 (ix1 k))
    (h81 : ∀ (k : Fin 256) (c : Fin 512), v81 (ix3 0 k c) = w2 (ix2 ⟨k.val, by omega⟩ c))
    (h84 : ∀ (k : Fin 256) (c : Fin 512), v84 (ix3 0 k c) = w2 (ix2 ⟨256 + k.val, by omega⟩ c))
    (h88 : ∀ (k : Fin 256) (c : Fin 512), v88 (ix3 0 k c) = w2 (ix2 ⟨512 + k.val, by omega⟩ c))
    (h92 : ∀ (k : Fin 256) (c : Fin 512), v92 (ix3 0 k c) = w2 (ix2 ⟨768 + k.val, by omega⟩ c))
    (h5 : ∀ c : Fin 512, x5 (ix2 c 0) = s2 (ix1 c)) (h6 : ∀ c : Fin 512, x6 (ix2 c 0) = b2 (ix1 c))
    (c : Fin 512) (p : Fin 400) :
    k0_pay1 (k0_pay6 (k0_pay3 x0 x1 x3 x4) (k0_pay4 x0 x1 x3 x4))
        (k0_pay7 (k0_pay2 x0 x1 x3 x4) (k0_pay3 x0 x1 x3 x4) (k0_pay4 x0 x1 x3 x4) v81 v84 v88) v92 x5 x6 (ix3 0 c p)
      = sppAt x w1 s1 b1 w2 s2 b2 n c ⟨p.val / 20, by omega⟩ ⟨p.val % 20, by omega⟩ := by
  have hY := y_rep x w1 s1 b1 n x0 x1 x3 x4 h0 h1 h3 h4
  have h39 := Pool.pay3_rep x0 x1 x3 x4 hY
  have h57 := Pool.pay5_rep h39 (k0_pay4 x0 x1 x3 x4) (Pool.pay4_eq x0 x1 x3 x4)
  have e0 : (∑ k : Fin 256, v81 (ix3 0 k c) * k0_pay2 x0 x1 x3 x4 (ix2 p k))
      = ∑ k : Fin 256, plane (conv1 x w1 s1 b1 n) (p.val / 20) (p.val % 20) k.val * w2 (ix2 ⟨k.val, by omega⟩ c) :=
    Finset.sum_congr rfl fun k _ => by rw [h81 k c, y_apply x w1 s1 b1 n x0 x1 x3 x4 h0 h1 h3 h4 p k, mul_comm]
  have e1 : (∑ k : Fin 256, v84 (ix3 0 k c) * shapeCast S400x256 (extractStridedSlice S20x20x256 ![4, 4, 0] (k0_pay3 x0 x1 x3 x4) slices_S28x28x256_o4_4_0_S20x20x256) shapeCasts_S20x20x256_S400x256 (ix2 p k))
      = ∑ k : Fin 256, pool5 (ext6 (plane (conv1 x w1 s1 b1 n))) (p.val / 20 + 4) (p.val % 20 + 4) k.val * w2 (ix2 ⟨256 + k.val, by omega⟩ c) :=
    Finset.sum_congr rfl fun k _ => by rw [h84 k c, Pool.p5_apply h39 p k, mul_comm]
  have e2 : (∑ k : Fin 256, v88 (ix3 0 k c) * shapeCast S400x256 (extractStridedSlice S20x20x256 ![2, 2, 0] (k0_pay5 (k0_pay3 x0 x1 x3 x4) (k0_pay4 x0 x1 x3 x4)) slices_S24x24x256_o2_2_0_S20x20x256) shapeCasts_S20x20x256_S400x256 (ix2 p k))
      = ∑ k : Fin 256, pool5 (pool5 (ext6 (plane (conv1 x w1 s1 b1 n)))) (p.val / 20 + 2) (p.val % 20 + 2) k.val * w2 (ix2 ⟨512 + k.val, by omega⟩ c) :=
    Finset.sum_congr rfl fun k _ => by rw [h88 k c, Pool.p9_apply h57 p k, mul_comm]
  have e3 : (∑ k : Fin 256, v92 (ix3 0 k c) * k0_pay6 (k0_pay3 x0 x1 x3 x4) (k0_pay4 x0 x1 x3 x4) (ix2 p k))
      = ∑ k : Fin 256, pool5 (pool5 (pool5 (ext6 (plane (conv1 x w1 s1 b1 n))))) (p.val / 20) (p.val % 20) k.val * w2 (ix2 ⟨768 + k.val, by omega⟩ c) :=
    Finset.sum_congr rfl fun k _ => by rw [h92 k c, Pool.pay6_apply h57 p k, mul_comm]
  rw [Mat.pay1_apply, h5, h6, e0, e1, e2, e3]
  rfl

end Cert.KernelIdeal.Block

end
-- ==== Proof.KernelValue.lean ====
/-
  The fused kernel's result array, as the block's one function of the seven arguments.

  Before the one region the host reshapes the image array to [32, 512, 400] (pixel `p` = `20 h + w`), splits the second
  weight matrix into four 256 × 512 slabs, makes the scale and shift vectors one-row and one-column matrices, and changes
  the weights' float format, which is the identity on extended reals (`V_v0` … `V_v7`). Grid point `t` reads image `t` of
  the reshaped array and the whole of every other array (`iblk0_apply` … `iblk6_apply`; a weight slab is the weights at the
  slab's offset, `ld_slab`), so by the block lemma what it writes back is block `t` of `G`, the function `sppAt` in the
  [32, 512, 400] layout (`flushed_eq`); the 32 blocks are the 32 images, so the array ends at `G` (`final`); the host's last
  line reshapes it to [32, 512, 20, 20], where pixel `p` is again `(p / 20, p % 20)`: `spp` (`tail_eq`, `run`).
-/
import proofs.«151823_g2000609335854391_pallasbulk_1276_4_alg».proof.Proof.Gen.KernelIdeal.Frame
import proofs.«151823_g2000609335854391_pallasbulk_1276_4_alg».proof.Proof.Spec
import proofs.«151823_g2000609335854391_pallasbulk_1276_4_alg».proof.Proof.KernelPool
import proofs.«151823_g2000609335854391_pallasbulk_1276_4_alg».proof.Proof.KernelMat
import proofs.«151823_g2000609335854391_pallasbulk_1276_4_alg».proof.Proof.KernelBlock
import Idealize.ShloMosaic.Lib.Pipeline.Value
import Idealize.ShloMosaic.Lib.StableHlo.Run
import Idealize.ShloMosaic.Lib.ValueLayout

noncomputable section

namespace Cert.KernelIdeal.Hand

open Idealize.ShloMosaic Idealize.ShloMosaic.ValueIdx Idealize.ShloMosaic.TcCoe Idealize.SL.Sem Cert.Lib Cert.Spp
open Cert.KernelIdeal Cert.KernelIdeal.Gen
open Idealize.ShloMosaic.Pipeline (Dat)

variable (m : (ℓ : Loc nD τ sig) → Buf (Elt Ideal) ℓ) (ρ : Dev nD → PrngReg)

/-! ## The arrays the region is entered with, from the arguments -/

theorem V_v0 (c : Dev nD) : V m c main_call0_v0
    = shapeCast S32x512x400 (m ((c : Thread nD τ).loc main_arg0) : S32x512x20x20.Idx → EReal) shapeCasts_S32x512x20x20_S32x512x400 := by
  show StableHlo.after hostOps0 (fun b => m (c, b)) (Proc.devRef .tc main_call0_v0) = _
  after_results
  rfl

theorem V_v1 (c : Dev nD) : (V m c main_call0_v1 : FVec Ideal S512x256 .bf16)
    = truncf (F := Ideal) .bf16 (m ((c : Thread nD τ).loc main_arg1) : FVec Ideal S512x256 .f32) bitsLt_bf16_f32 := by
  show StableHlo.after hostOps0 (fun b => m (c, b)) (Proc.devRef .tc main_call0_v1) = _
  after_results
  rfl

theorem V_v3 (c : Dev nD) : (V m c main_call0_v3 : FVec Ideal S4x256x512 .bf16)
    = truncf (F := Ideal) .bf16 (shapeCast S4x256x512 (m ((c : Thread nD τ).loc main_arg4) : FVec Ideal S1024x512 .f32) shapeCasts_S1024x512_S4x256x512) bitsLt_bf16_f32 := by
  show StableHlo.after hostOps0 (fun b => m (c, b)) (Proc.devRef .tc main_call0_v3) = _
  after_results
  rfl

theorem V_v4 (c : Dev nD) : V m c main_call0_v4
    = shapeCast S1x256 (m ((c : Thread nD τ).loc main_arg2) : S256.Idx → EReal) shapeCasts_S256_S1x256 := by
  show StableHlo.after hostOps0 (fun b => m (c, b)) (Proc.devRef .tc main_call0_v4) = _
  after_results
  rfl

theorem V_v5 (c : Dev nD) : V m c main_call0_v5
    = shapeCast S1x256 (m ((c : Thread nD τ).loc main_arg3) : S256.Idx → EReal) shapeCasts_S256_S1x256 := by
  show StableHlo.after hostOps0 (fun b => m (c, b)) (Proc.devRef .tc main_call0_v5) = _
  after_results
  rfl

theorem V_v6 (c : Dev nD) : V m c main_call0_v6
    = shapeCast S512x1 (m ((c : Thread nD τ).loc main_arg5) : S512.Idx → EReal) shapeCasts_S512_S512x1 := by
  show StableHlo.after hostOps0 (fun b => m (c, b)) (Proc.devRef .tc main_call0_v6) = _
  after_results
  rfl

theorem V_v7 (c : Dev nD) : V m c main_call0_v7
    = shapeCast S512x1 (m ((c : Thread nD τ).loc main_arg6) : S512.Idx → EReal) shapeCasts_S512_S512x1 := by
  show StableHlo.after hostOps0 (fun b => m (c, b)) (Proc.devRef .tc main_call0_v7) = _
  after_results
  rfl

/-! ## The windows' blocks read through their arrays -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the image window and the output window move along the first axis with the
    point, every other window stays at block zero. -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The grid has 32 points. -/
theorem t_lt (t : Fin cfg0.N) : t.val < 32 := lt_of_lt_of_eq t.isLt N_0

/-- Image window: block `t` is image `t` of the [32, 512, 400] array. -/
theorem iblk0_apply (c : Dev nD) (t : Fin cfg0.N) (q : Fin 512) (p : Fin 400) :
    (iblk m c 0 t : Vec Ideal S1x512x400 .f32) (ix3 0 q p)
      = (V m c main_call0_v0 : S32x512x400.Idx → EReal) (ix3 ⟨t.val, t_lt t⟩ q p) := by
  obtain ⟨e0, e1, e2, -⟩ := idx_facts t
  unfold iblk
  rw [View.read_apply]
  show V m c main_call0_v0 _ = V m c main_call0_v0 _
  congr 1
  funext a
  apply Fin.ext
  match a with
  | ⟨0, _⟩ => show win0_0.index t (0 : Fin 3) * 1 + 1 * 0 = t.val; omega
  | ⟨1, _⟩ => show win0_0.index t (1 : Fin 3) * 512 + 1 * q.val = q.val; omega
  | ⟨2, _⟩ => show win0_0.index t (2 : Fin 3) * 400 + 1 * p.val = p.val; omega

/-- The other windows' blocks are their whole arrays. -/
theorem iblk1_apply (c : Dev nD) (t : Fin cfg0.N) (y : S512x256.Idx) :
    (iblk m c 1 t : Vec Ideal S512x256 .bf16) y = (V m c main_call0_v1 : S512x256.Idx → EReal) y := by
  obtain ⟨-, -, -, -, -, -, e10, e11, e20, e21, e22, e30, e31, e40, e41, e50, e51, e60, e61⟩ := idx_facts t
  unfold iblk
  rw [View.read_apply]
  show V m c main_call0_v1 _ = V m c main_call0_v1 _
  congr 1
  funext a
  apply Fin.ext
  match a with
  | ⟨0, _⟩ => show win0_1.index t (0 : Fin 2) * 512 + 1 * (y 0).val = (y 0).val; omega
  | ⟨1, _⟩ => show win0_1.index t (1 : Fin 2) * 256 + 1 * (y 1).val = (y 1).val; omega

theorem iblk2_apply (c : Dev nD) (t : Fin cfg0.N) (y : S4x256x512.Idx) :
    (iblk m c 2 t : Vec Ideal S4x256x512 .bf16) y = (V m c main_call0_v3 : S4x256x512.Idx → EReal) y := by
  obtain ⟨-, -, -, -, -, -, e10, e11, e20, e21, e22, e30, e31, e40, e41, e50, e51, e60, e61⟩ := idx_facts t
  unfold iblk
  rw [View.read_apply]
  show V m c main_call0_v3 _ = V m c main_call0_v3 _
  congr 1
  funext a
  apply Fin.ext
  match a with
  | ⟨0, _⟩ => show win0_2.index t (0 : Fin 3) * 4 + 1 * (y 0).val = (y 0).val; omega
  | ⟨1, _⟩ => show win0_2.index t (1 : Fin 3) * 256 + 1 * (y 1).val = (y 1).val; omega
  | ⟨2, _⟩ => show win0_2.index t (2 : Fin 3) * 512 + 1 * (y 2).val = (y 2).val; omega

theorem iblk3_apply (c : Dev nD) (t : Fin cfg0.N) (y : S1x256.Idx) :
    (iblk m c 3 t : Vec Ideal S1x256 .f32) y = (V m c main_call0_v4 : S1x256.Idx → EReal) y := by
  obtain ⟨-, -, -, -, -, -, e10, e11, e20, e21, e22, e30, e31, e40, e41, e50, e51, e60, e61⟩ := idx_facts t
  unfold iblk
  rw [View.read_apply]
  show V m c main_call0_v4 _ = V m c main_call0_v4 _
  congr 1
  funext a
  apply Fin.ext
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem iblk4_apply (c : Dev nD) (t : Fin cfg0.N) (y : S1x256.Idx) :
    (iblk m c 4 t : Vec Ideal S1x256 .f32) y = (V m c main_call0_v5 : S1x256.Idx → EReal) y := by
  obtain ⟨-, -, -, -, -, -, e10, e11, e20, e21, e22, e30, e31, e40, e41, e50, e51, e60, e61⟩ := idx_facts t
  unfold iblk
  rw [View.read_apply]
  show V m c main_call0_v5 _ = V m c main_call0_v5 _
  congr 1
  funext a
  apply Fin.ext
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem iblk5_apply (c : Dev nD) (t : Fin cfg0.N) (y : S512x1.Idx) :
    (iblk m c 5 t : Vec Ideal S512x1 .f32) y = (V m c main_call0_v6 : S512x1.Idx → EReal) y := by
  obtain ⟨-, -, -, -, -, -, e10, e11, e20, e21, e22, e30, e31, e40, e41, e50, e51, e60, e61⟩ := idx_facts t
  unfold iblk
  rw [View.read_apply]
  show V m c main_call0_v6 _ = V m c main_call0_v6 _
  congr 1
  funext a
  apply Fin.ext
  match a with
  | ⟨0, _⟩ => show win0_5.index t (0 : Fin 2) * 512 + 1 * (y 0).val = (y 0).val; omega
  | ⟨1, _⟩ => show win0_5.index t (1 : Fin 2) * 1 + 1 * (y 1).val = (y 1).val; omega

theorem iblk6_apply (c : Dev nD) (t : Fin cfg0.N) (y : S512x1.Idx) :
    (iblk m c 6 t : Vec Ideal S512x1 .f32) y = (V m c main_call0_v7 : S512x1.Idx → EReal) y := by
  obtain ⟨-, -, -, -, -, -, e10, e11, e20, e21, e22, e30, e31, e40, e41, e50, e51, e60, e61⟩ := idx_facts t
  unfold iblk
  rw [View.read_apply]
  show V m c main_call0_v7 _ = V m c main_call0_v7 _
  congr 1
  funext a
  apply Fin.ext
  match a with
  | ⟨0, _⟩ => show win0_6.index t (0 : Fin 2) * 512 + 1 * (y 0).val = (y 0).val; omega
  | ⟨1, _⟩ => show win0_6.index t (1 : Fin 2) * 1 + 1 * (y 1).val = (y 1).val; omega

/-- A load of one 256 × 512 slab of the [4, 256, 512] weights reads the weights at the slab's offset. -/
theorem ld_slab (x2 : Vec Ideal S4x256x512 .bf16) (j : Fin 4) (inb : ∀ a, (![j.val, 0, 0] : Fin 3 → Nat) a + S1x256x512.size a ≤ S4x256x512.size a)
    (k : Fin 256) (cc : Fin 512) :
    View.ld x2 (Rect.unit (s := S4x256x512) ![j.val, 0, 0] S1x256x512.size inb) (ix3 0 k cc) = x2 (ix3 j k cc) := by
  show x2 ((Rect.unit (s := S4x256x512) ![j.val, 0, 0] S1x256x512.size inb).emb (ix3 0 k cc)) = x2 (ix3 j k cc)
  congr 1
  funext a
  apply Fin.ext
  match a with
  | ⟨0, _⟩ => simp only [Rect.emb_apply, Rect.off_unit, Rect.stride_unit]; show j.val + 1 * 0 = j.val; omega
  | ⟨1, _⟩ => simp only [Rect.emb_apply, Rect.off_unit, Rect.stride_unit]; show 0 + 1 * k.val = k.val; omega
  | ⟨2, _⟩ => simp only [Rect.emb_apply, Rect.off_unit, Rect.stride_unit]; show 0 + 1 * cc.val = cc.val; omega

/-! ## What each point writes back, the cover, and the array after the run -/

/-- The block's function in the kernel's own [32, 512, 400] layout (pixel `p` = `(p / 20, p % 20)`). -/
def G (c : Dev nD) : S32x512x400.Idx → EReal := fun i =>
  sppAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)
    ⟨(i 2).val / 20, by have h : (i 2).val < 400 := (i 2).isLt; omega⟩ ⟨(i 2).val % 20, by omega⟩

theorem G_ix3 (c : Dev nD) (n : Fin 32) (cc : Fin 512) (p : Fin 400) :
    G m c (ix3 n cc p) = sppAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) n cc ⟨p.val / 20, by omega⟩ ⟨p.val % 20, by omega⟩ := rfl

/-- WHAT POINT `t` WRITES BACK is block `t` of `G`. -/
theorem flushed_eq (c : Dev nD) (t : Fin cfg0.N) :
    (dats m 0 c).flushed 7 t = ((cfg0.win 7).blk t).view.read (Elt Ideal) (G m c) := by
  have ht : t.val < 32 := t_lt t
  obtain ⟨-, -, -, e70, e71, e72, -⟩ := idx_facts t
  show (cfg0.win 7).cut (grid0.coords t) ((dats m 0 c).after 7 t) = _
  rw [after0_7]
  unfold out0_7
  rw [View.canon_unit_zero hz3]
  simp only [View.ld_unit_zero (S := S1x512x400) hz3, View.ld_unit_zero (S := S512x256) hz2, View.ld_unit_zero (S := S1x256) hz2,
    View.ld_unit_zero (S := S512x1) hz2]
  funext y
  obtain ⟨y0, cc, p, rfl⟩ : ∃ (y0 : Fin 1) (cc : Fin 512) (p : Fin 400), y = ix3 y0 cc p := ⟨y 0, y 1, y 2, eq_ix3 y⟩
  obtain rfl : y0 = 0 := Fin.ext (by omega)
  rw [View.read_apply]
  have hemb : ((cfg0.win 7).blk t).view.emb (ix3 0 cc p) = (ix3 ⟨t.val, ht⟩ cc p : S32x512x400.Idx) := by
    funext a
    apply Fin.ext
    match a with
    | ⟨0, _⟩ => show win0_7.index t (0 : Fin 3) * 1 + 1 * 0 = t.val; omega
    | ⟨1, _⟩ => show win0_7.index t (1 : Fin 3) * 512 + 1 * cc.val = cc.val; omega
    | ⟨2, _⟩ => show win0_7.index t (2 : Fin 3) * 400 + 1 * p.val = p.val; omega
  show _ = G m c (((cfg0.win 7).blk t).view.emb (ix3 0 cc p))
  rw [hemb, G_ix3]
  refine Block.block_at (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨t.val, ht⟩ (iblk m c 0 t) (iblk m c 1 t) (iblk m c 3 t) (iblk m c 4 t)
    (View.ld (iblk m c 2 t) r0_3) (View.ld (iblk m c 2 t) r0_4) (View.ld (iblk m c 2 t) r0_5) (View.ld (iblk m c 2 t) r0_6)
    (iblk m c 5 t) (iblk m c 6 t) ?_ ?_ ?_ ?_ ?_ ?_ ?_ ?_ ?_ ?_ cc p
  · intro q p'
    rw [iblk0_apply, V_v0]
    refine (shapeCast_apply _ _ _ (ix4 ⟨t.val, ht⟩ q ⟨p'.val / 20, by omega⟩ ⟨p'.val % 20, by omega⟩) ?_)
    rw [Shape.rowMajor_val_three, Shape.rowMajor_val_four]
    show ((t.val * 512 + q.val) * 20 + p'.val / 20) * 20 + p'.val % 20 = (t.val * 512 + q.val) * 400 + p'.val
    omega
  · intro q k; rw [iblk1_apply, V_v1]; rfl
  · intro k
    rw [iblk3_apply, V_v4]
    refine shapeCast_apply _ _ _ (ix1 k) ?_
    rw [Shape.rowMajor_val_one, Shape.rowMajor_val_two]
    show k.val = 0 * 256 + k.val
    omega
  · intro k
    rw [iblk4_apply, V_v5]
    refine shapeCast_apply _ _ _ (ix1 k) ?_
    rw [Shape.rowMajor_val_one, Shape.rowMajor_val_two]
    show k.val = 0 * 256 + k.val
    omega
  · intro k cc'
    refine (ld_slab (iblk m c 2 t) 0 _ k cc').trans ?_
    rw [iblk2_apply, V_v3]
    refine shapeCast_apply _ _ _ (ix2 ⟨k.val, by omega⟩ cc') ?_
    rw [Shape.rowMajor_val_two, Shape.rowMajor_val_three]
    show k.val * 512 + cc'.val = (0 * 256 + k.val) * 512 + cc'.val
    omega
  · intro k cc'
    refine (ld_slab (iblk m c 2 t) 1 _ k cc').trans ?_
    rw [iblk2_apply, V_v3]
    refine shapeCast_apply _ _ _ (ix2 ⟨256 + k.val, by omega⟩ cc') ?_
    rw [Shape.rowMajor_val_two, Shape.rowMajor_val_three]
    show (256 + k.val) * 512 + cc'.val = (1 * 256 + k.val) * 512 + cc'.val
    omega
  · intro k cc'
    refine (ld_slab (iblk m c 2 t) 2 _ k cc').trans ?_
    rw [iblk2_apply, V_v3]
    refine shapeCast_apply _ _ _ (ix2 ⟨512 + k.val, by omega⟩ cc') ?_
    rw [Shape.rowMajor_val_two, Shape.rowMajor_val_three]
    show (512 + k.val) * 512 + cc'.val = (2 * 256 + k.val) * 512 + cc'.val
    omega
  · intro k cc'
    refine (ld_slab (iblk m c 2 t) 3 _ k cc').trans ?_
    rw [iblk2_apply, V_v3]
    refine shapeCast_apply _ _ _ (ix2 ⟨768 + k.val, by omega⟩ cc') ?_
    rw [Shape.rowMajor_val_two, Shape.rowMajor_val_three]
    show (768 + k.val) * 512 + cc'.val = (3 * 256 + k.val) * 512 + cc'.val
    omega
  · intro cc'
    rw [iblk5_apply, V_v6]
    refine shapeCast_apply _ _ _ (ix1 cc') ?_
    rw [Shape.rowMajor_val_one, Shape.rowMajor_val_two]
    show cc'.val = cc'.val * 1 + 0
    omega
  · intro cc'
    rw [iblk6_apply, V_v7]
    refine shapeCast_apply _ _ _ (ix1 cc') ?_
    rw [Shape.rowMajor_val_one, Shape.rowMajor_val_two]
    show cc'.val = cc'.val * 1 + 0
    omega

/-- An index of the array is in point `t`'s block iff its image coordinate is `t`. -/
theorem mem_blk (t : Fin cfg0.N) (i : S32x512x400.Idx) :
    i ∈ ((cfg0.win 7).blk t).view.set ↔ ∀ a : Fin 3, win0_7.index t a * S1x512x400.size a ≤ (i a).val ∧ (i a).val < win0_7.index t a * S1x512x400.size a + S1x512x400.size a := by
  show i ∈ ((View.whole main_call0_v8).slice (win0_7.rect t)).set ↔ _
  rw [View.set_slice_whole, Rect.mem_set_unit]
  exact Iff.rfl

/-- THE ARRAY after the run is `G`: the 32 points' blocks are the 32 images. -/
theorem final (c : Dev nD) : (dats m 0 c).arrAt 7 cfg0.N = G m c :=
  (dats m 0 c).arrAt_eq_of_cover 7 (G m c) (fun t _ => flushed_eq m c t) fun i => by
    have hi0 : (i 0).val < 32 := (i 0).isLt
    have hi1 : (i 1).val < 512 := (i 1).isLt
    have hi2 : (i 2).val < 400 := (i 2).isLt
    let t : Fin cfg0.N := ⟨(i 0).val, lt_of_lt_of_eq hi0 N_0.symm⟩
    obtain ⟨-, -, -, e70, e71, e72, -⟩ := idx_facts t
    refine ⟨t, flush0_7 t, ?_⟩
    rw [mem_blk]
    intro a
    match a with
    | ⟨0, _⟩ => show win0_7.index t (0 : Fin 3) * 1 ≤ (i 0).val ∧ (i 0).val < win0_7.index t (0 : Fin 3) * 1 + 1
                rw [e70]; show (i 0).val * 1 ≤ (i 0).val ∧ (i 0).val < (i 0).val * 1 + 1; omega
    | ⟨1, _⟩ => show win0_7.index t (1 : Fin 3) * 512 ≤ (i 1).val ∧ (i 1).val < win0_7.index t (1 : Fin 3) * 512 + 512
                rw [e71]; omega
    | ⟨2, _⟩ => show win0_7.index t (2 : Fin 3) * 400 ≤ (i 2).val ∧ (i 2).val < win0_7.index t (2 : Fin 3) * 400 + 400
                rw [e72]; omega

/-! ## The host's last line and the run -/

/-- The result buffer after @main's last reshape: `spp` of the arguments. -/
theorem tail_eq (c : Dev nD) :
    Pipeline.afterTail₀ cfgs (dats m) 0 (V0 m) [hostOps1] c main_v0
      = spp (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  unfold Pipeline.afterTail₀
  show StableHlo.after hostOps1 _ (Proc.devRef .tc main_v0) = _
  after_results
  refine (congrArg (fun A => shapeCast S32x512x20x20 A shapeCasts_S32x512x400_S32x512x20x20)
    ((Pipeline.withArrays_arr spec0 launch0.win.arr_inj c _ _ 7).trans (final m c))).trans ?_
  funext i
  have h0 : (i 0).val < 32 := (i 0).isLt
  have h1 : (i 1).val < 512 := (i 1).isLt
  have h2 : (i 2).val < 20 := (i 2).isLt
  have h3 : (i 3).val < 20 := (i 3).isLt
  refine (shapeCast_apply (G m c) _ i (ix3 ⟨(i 0).val, h0⟩ ⟨(i 1).val, h1⟩ ⟨(i 2).val * 20 + (i 3).val, by omega⟩) ?_).trans ?_
  · rw [Shape.rowMajor_val_three, Shape.rowMajor_val_four]
    show ((i 0).val * 512 + (i 1).val) * 400 + ((i 2).val * 20 + (i 3).val) = (((i 0).val * 512 + (i 1).val) * 20 + (i 2).val) * 20 + (i 3).val
    omega
  · rw [G_ix3]
    have e2 : (⟨((i 2).val * 20 + (i 3).val) / 20, by omega⟩ : Fin 20) = ⟨(i 2).val, h2⟩ :=
      Fin.ext (by show ((i 2).val * 20 + (i 3).val) / 20 = (i 2).val; omega)
    have e3 : (⟨((i 2).val * 20 + (i 3).val) % 20, by omega⟩ : Fin 20) = ⟨(i 3).val, h3⟩ :=
      Fin.ext (by show ((i 2).val * 20 + (i 3).val) % 20 = (i 3).val; omega)
    show sppAt _ _ _ _ _ _ _ _ _ ⟨((i 2).val * 20 + (i 3).val) / 20, _⟩ ⟨((i 2).val * 20 + (i 3).val) % 20, _⟩ = _
    rw [e2, e3]
    rfl

/-- THE RUN: every weakly fair execution of the fused kernel's program ends with the result buffer at `spp` of the
    arguments, which end unchanged. -/
theorem run : θ_run (defs (F := Ideal)) (onTc (τ := τ) (main (F := Ideal))) ⟨m, fun _ => 0, ρ⟩ (fun r => ∀ c : Dev nD,
      r.2.mem ((c.tc : Thread nD τ).loc main_v0)
        = spp (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨((h c).2 main_v0 (Pipeline.mem_restRefs_of main_v0 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c),
       ((h c).2 main_arg5 (Pipeline.mem_restRefs_of main_arg5 (by decide) (by decide))).trans (W_main_arg5 m (dats m) c),
       ((h c).2 main_arg6 (Pipeline.mem_restRefs_of main_arg6 (by decide) (by decide))).trans (W_main_arg6 m (dats m) c)⟩)
    (run_main m ρ)

end Cert.KernelIdeal.Hand

end
-- ==== Proof.RefMat.lean ====
/-
  The reference's two convolution kernels: their stored blocks read at an index. A product into the zero accumulator is
  the sum over the shared axis of the products of the entries; the scale and the shift are rows broadcast over the block;
  the activation is `silu`.
-/
import proofs.«151823_g2000609335854391_pallasbulk_1276_4_alg».proof.Proof.Gen.ReferenceIdeal.Skeleton
import proofs.«151823_g2000609335854391_pallasbulk_1276_4_alg».proof.Proof.Spec
import Idealize.ShloMosaic.PureOps.Ideal.Laws
import Idealize.ShloMosaic.Lib.Pipeline.Value
import Idealize.ShloMosaic.Lib.ValueLayout

noncomputable section

namespace Cert.ReferenceIdeal.Mat

open Idealize.ShloMosaic Idealize.ShloMosaic.ValueIdx Cert.Lib Cert.Spp Cert.ReferenceIdeal Cert.ReferenceIdeal.Gen

/-! ### The first kernel's product, 512 × 512 by 512 × 256: the operand indices axis by axis -/

/-- The left operand's row is the result's row. -/
theorem lhsA_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide),
    dif_pos (show (0 : Fin S512x512.rank) ∈ dot_S512x512_S512x256_S512x256_1_0_0_1_n_n.lhsNonContracting by decide)]
  rfl

/-- The left operand's column is the summation index. -/
theorem lhsA_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q

/-- The right operand's row is the summation index. -/
theorem rhsA_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q

/-- The right operand's column is the result's column. -/
theorem rhsA_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide),
    dif_pos (show (1 : Fin S512x256.rank) ∈ dot_S512x512_S512x256_S512x256_1_0_0_1_n_n.rhsNonContracting by decide)]
  rfl

/-- Into the zero accumulator the product at row `r`, column `c` is the sum over the shared axis of the products of the
    entries. -/
theorem mmA_apply (a : FVec Ideal S512x512 .f32) (b : FVec Ideal S512x256 .f32) (r : Fin 512) (c : Fin 256) :
    matmul dot_S512x512_S512x256_S512x256_1_0_0_1_n_n none a b (constant (F := Ideal) S512x256 .f32 0x00000000#32) (ix2 r c)
      = ∑ q : Fin 512, a (ix2 r q) * b (ix2 q c) := by
  show FloatOps.matmul dot_S512x512_S512x256_S512x256_1_0_0_1_n_n none a b
      (constant (F := Ideal) S512x256 .f32 0x00000000#32) (ix2 r c) = _
  rw [Ideal.matmul_constant_zero_apply,
    ← Equiv.sum_comp (ValueIdx.contrEquiv1 dot_S512x512_S512x256_S512x256_1_0_0_1_n_n 512 rfl rfl).symm]
  refine Finset.sum_congr rfl fun q _ => ?_
  have hk := ValueIdx.contrEquiv1_symm_val dot_S512x512_S512x256_S512x256_1_0_0_1_n_n 512 rfl rfl q
  have el : dot_S512x512_S512x256_S512x256_1_0_0_1_n_n.lhsIdx (ix2 r c)
      ((ValueIdx.contrEquiv1 dot_S512x512_S512x256_S512x256_1_0_0_1_n_n 512 rfl rfl).symm q) = ix2 r q :=
    funext fun a => Fin.ext (by
      match a with
      | ⟨0, _⟩ => exact lhsA_0 _ _
      | ⟨1, _⟩ => exact (lhsA_1 _ _).trans hk)
  have er : dot_S512x512_S512x256_S512x256_1_0_0_1_n_n.rhsIdx (ix2 r c)
      ((ValueIdx.contrEquiv1 dot_S512x512_S512x256_S512x256_1_0_0_1_n_n 512 rfl rfl).symm q) = ix2 q c :=
    funext fun a => Fin.ext (by
      match a with
      | ⟨0, _⟩ => exact (rhsA_0 _ _).trans hk
      | ⟨1, _⟩ => exact rhsA_1 _ _)
  rw [el, er]

/-- Scale by a row, shift by a row, then `silu`, read at row `r`, column `k`: the row vectors are read at their one row. -/
theorem act0_apply (m : FVec Ideal S512x256 .f32) (s b : FVec Ideal S1x256 .f32) (r : Fin 512) (k : Fin 256) :
    mulf (addf (mulf m (broadcastTo S512x256 (shapeCast S1x256 s shapeCasts_S1x256_S1x256) broadcasts_S1x256_S512x256))
          (broadcastTo S512x256 (shapeCast S1x256 b shapeCasts_S1x256_S1x256) broadcasts_S1x256_S512x256))
        (logistic (addf (mulf m (broadcastTo S512x256 (shapeCast S1x256 s shapeCasts_S1x256_S1x256) broadcasts_S1x256_S512x256))
          (broadcastTo S512x256 (shapeCast S1x256 b shapeCasts_S1x256_S1x256) broadcasts_S1x256_S512x256))) (ix2 r k)
      = silu (m (ix2 r k) * s (ix2 0 k) + b (ix2 0 k)) := by
  rw [shapeCast_self, shapeCast_self]
  show (m (ix2 r k) * broadcastTo S512x256 s broadcasts_S1x256_S512x256 (ix2 r k)
        + broadcastTo S512x256 b broadcasts_S1x256_S512x256 (ix2 r k))
      * Ideal.logistic (m (ix2 r k) * broadcastTo S512x256 s broadcasts_S1x256_S512x256 (ix2 r k)
        + broadcastTo S512x256 b broadcasts_S1x256_S512x256 (ix2 r k)) = _
  rw [broadcastTo_1b_ab_apply, broadcastTo_1b_ab_apply]
  rfl

/-- The first kernel's block at row `r`, channel `k`. -/
theorem pay0_apply (v0 : Vec Ideal S512x512 .f32) (v2 : Vec Ideal S512x256 .f32) (v4 v8 : Vec Ideal S1x256 .f32)
    (r : Fin 512) (k : Fin 256) :
    k0_pay1 v0 v2 v4 v8 (ix2 r k)
      = silu ((∑ q : Fin 512, v0 (ix2 r q) * v2 (ix2 q k)) * v4 (ix2 0 k) + v8 (ix2 0 k)) := by
  unfold k0_pay1
  refine (act0_apply _ v4 v8 r k).trans ?_
  rw [shapeCast_self, mmA_apply]

/-! ### The third kernel's product, 512 × 256 by 256 × 512: the operand indices axis by axis -/

/-- The left operand's row is the result's row. -/
theorem lhsB_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide),
    dif_pos (show (0 : Fin S512x256.rank) ∈ dot_S512x256_S256x512_S512x512_1_0_0_1_n_n.lhsNonContracting by decide)]
  rfl

/-- The left operand's column is the summation index. -/
theorem lhsB_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q

/-- The right operand's row is the summation index. -/
theorem rhsB_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q

/-- The right operand's column is the result's column. -/
theorem rhsB_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide),
    dif_pos (show (1 : Fin S256x512.rank) ∈ dot_S512x256_S256x512_S512x512_1_0_0_1_n_n.rhsNonContracting by decide)]
  rfl

/-- Into the zero accumulator the product at row `r`, column `c` is the sum over the shared axis of the products of the
    entries. -/
theorem mmB_apply (a : FVec Ideal S512x256 .f32) (b : FVec Ideal S256x512 .f32) (r : Fin 512) (c : Fin 512) :
    matmul dot_S512x256_S256x512_S512x512_1_0_0_1_n_n none a b (constant (F := Ideal) S512x512 .f32 0x00000000#32) (ix2 r c)
      = ∑ q : Fin 256, a (ix2 r q) * b (ix2 q c) := by
  show FloatOps.matmul dot_S512x256_S256x512_S512x512_1_0_0_1_n_n none a b
      (constant (F := Ideal) S512x512 .f32 0x00000000#32) (ix2 r c) = _
  rw [Ideal.matmul_constant_zero_apply,
    ← Equiv.sum_comp (ValueIdx.contrEquiv1 dot_S512x256_S256x512_S512x512_1_0_0_1_n_n 256 rfl rfl).symm]
  refine Finset.sum_congr rfl fun q _ => ?_
  have hk := ValueIdx.contrEquiv1_symm_val dot_S512x256_S256x512_S512x512_1_0_0_1_n_n 256 rfl rfl q
  have el : dot_S512x256_S256x512_S512x512_1_0_0_1_n_n.lhsIdx (ix2 r c)
      ((ValueIdx.contrEquiv1 dot_S512x256_S256x512_S512x512_1_0_0_1_n_n 256 rfl rfl).symm q) = ix2 r q :=
    funext fun a => Fin.ext (by
      match a with
      | ⟨0, _⟩ => exact lhsB_0 _ _
      | ⟨1, _⟩ => exact (lhsB_1 _ _).trans hk)
  have er : dot_S512x256_S256x512_S512x512_1_0_0_1_n_n.rhsIdx (ix2 r c)
      ((ValueIdx.contrEquiv1 dot_S512x256_S256x512_S512x512_1_0_0_1_n_n 256 rfl rfl).symm q) = ix2 q c :=
    funext fun a => Fin.ext (by
      match a with
      | ⟨0, _⟩ => exact (rhsB_0 _ _).trans hk
      | ⟨1, _⟩ => exact rhsB_1 _ _)
  rw [el, er]

/-- One product of the third kernel: an activation block against one slab of the weights, the slab read through its
    leading unit axis. -/
theorem mm2_apply (a : FVec Ideal S512x256 .f32) (w : FVec Ideal S1x256x512 .f32) (r c : Fin 512) :
    matmul dot_S512x256_S256x512_S512x512_1_0_0_1_n_n none (shapeCast S512x256 a shapeCasts_S512x256_S512x256)
        (shapeCast S256x512 w shapeCasts_S1x256x512_S256x512) (constant (F := Ideal) S512x512 .f32 0x00000000#32) (ix2 r c)
      = ∑ k : Fin 256, a (ix2 r k) * w (ix3 0 k c) := by
  rw [shapeCast_self, mmB_apply]
  refine Finset.sum_congr rfl fun k _ => ?_
  rw [shapeCast_1ab_ab_apply]

/-- Scale by a row, shift by a row, then `silu`, read at row `r`, column `c`: the row vectors are read at their one row. -/
theorem act2_apply (m : FVec Ideal S512x512 .f32) (s b : FVec Ideal S1x512 .f32) (r c : Fin 512) :
    k2_pay1 (addf (mulf m (broadcastTo S512x512 (shapeCast S1x512 s shapeCasts_S1x512_S1x512) broadcasts_S1x512_S512x512))
        (broadcastTo S512x512 (shapeCast S1x512 b shapeCasts_S1x512_S1x512) broadcasts_S1x512_S512x512)) (ix2 r c)
      = silu (m (ix2 r c) * s (ix2 0 c) + b (ix2 0 c)) := by
  rw [shapeCast_self, shapeCast_self]
  show (m (ix2 r c) * broadcastTo S512x512 s broadcasts_S1x512_S512x512 (ix2 r c)
        + broadcastTo S512x512 b broadcasts_S1x512_S512x512 (ix2 r c))
      * Ideal.logistic (m (ix2 r c) * broadcastTo S512x512 s broadcasts_S1x512_S512x512 (ix2 r c)
        + broadcastTo S512x512 b broadcasts_S1x512_S512x512 (ix2 r c)) = _
  rw [broadcastTo_1b_ab_apply, broadcastTo_1b_ab_apply]
  rfl

/-- The third kernel's block at row `r`, output channel `c`. -/
theorem pay2_apply (v0 v5 v11 v17 : Vec Ideal S512x256 .f32) (v2 v7 v13 v19 : Vec Ideal S1x256x512 .f32)
    (v23 v27 : Vec Ideal S1x512 .f32) (r : Fin 512) (c : Fin 512) :
    k2_pay1 (k2_pay2 v0 v2 v5 v7 v11 v13 v17 v19 v23 v27) (ix2 r c)
      = silu (((((∑ k : Fin 256, v0 (ix2 r k) * v2 (ix3 0 k c)) + ∑ k : Fin 256, v5 (ix2 r k) * v7 (ix3 0 k c))
            + ∑ k : Fin 256, v11 (ix2 r k) * v13 (ix3 0 k c)) + ∑ k : Fin 256, v17 (ix2 r k) * v19 (ix3 0 k c))
          * v23 (ix2 0 c) + v27 (ix2 0 c)) := by
  unfold k2_pay2
  refine (act2_apply _ v23 v27 r c).trans ?_
  rw [addf_apply, addf_apply, addf_apply, mm2_apply, mm2_apply, mm2_apply, mm2_apply]

end Cert.ReferenceIdeal.Mat

end
-- ==== Proof.RefRegion0.lean ====
/-
  The reference's first kernel: the array it leaves, as one function of the arrays it reads.

  The kernel runs over 25 grid points. Point `t` reads rows `512·t … 512·t + 511` of the 12800 × 512 pixel matrix and the
  whole weight, scale and bias arrays, and writes rows `512·t … 512·t + 511` of the 12800 × 256 result. Row `r` of
  point `t`'s block is therefore row `512·t + r` of the arrays, the value written there is the first convolution at that
  row, and the 25 row blocks tile the result: the point that covers row `i` is `i / 512`.
-/
import proofs.«151823_g2000609335854391_pallasbulk_1276_4_alg».proof.Proof.Gen.ReferenceIdeal.Frame
import proofs.«151823_g2000609335854391_pallasbulk_1276_4_alg».proof.Proof.Spec
import proofs.«151823_g2000609335854391_pallasbulk_1276_4_alg».proof.Proof.RefMat
import Idealize.ShloMosaic.Lib.Pipeline.Value

noncomputable section

namespace Cert.ReferenceIdeal.Region0

open Idealize.ShloMosaic Idealize.ShloMosaic.ValueIdx Cert.Lib Cert.Spp Cert.ReferenceIdeal Cert.ReferenceIdeal.Gen Idealize.ShloMosaic.TcCoe Idealize.SL.Sem
open Idealize.ShloMosaic.Pipeline (Dat)

variable (V : (c : Dev nD) → (b : Ref sig .tc) → Buf (Elt Ideal) ((c : Thread nD τ).loc b))

/-- The offset `(0, 0)` is the zero offset. -/
theorem zeroOffset : (![0, 0] : Fin 2 → Nat) = fun _ => 0 := funext fun a => by fin_cases a <;> rfl

/-- The block indices at every grid point: the pixel rows and the result rows are at block `(t, 0)`, the weight,
    scale and bias arrays at block `(0, 0)`; and there are 25 points. -/
theorem blockIndex_facts : ∀ t : Fin cfg0.N, t.val < 25
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every row block of the result is some grid point's. -/
theorem rowBlock_onto : ∀ q : Fin 25, ∃ t : Fin cfg0.N, win0_4.index t = ![q.val, 0] :=
  (by decide +kernel : ∀ q : Fin 25, ∃ t : Fin grid0.N, win0_4.index t = ![q.val, 0])

/-- One element of a block: when row `r` of the pixel block is row `R` of the pixel matrix and the other three blocks are
    their arrays, the body's value at `(r, k)` is the first convolution at `(R, k)`. -/
theorem block_apply (x0 : Vec Ideal S512x512 .f32) (x1 : Vec Ideal S512x256 .f32) (x2 x3 : Vec Ideal S1x256 .f32)
    (xm : S12800x512.Idx → EReal) (w : S512x256.Idx → EReal) (s b : S1x256.Idx → EReal)
    (r : Fin 512) (k : Fin 256) (R : Fin 12800)
    (h0 : ∀ q : Fin 512, x0 (ix2 r q) = xm (ix2 R q))
    (h1 : ∀ q : Fin 512, x1 (ix2 q k) = w (ix2 q k))
    (h2 : x2 (ix2 0 k) = s (ix2 0 k)) (h3 : x3 (ix2 0 k) = b (ix2 0 k)) :
    k0_pay1 x0 x1 x2 x3 (ix2 r k) = ref0At xm w s b R k := by
  have hs : (∑ q : Fin 512, x0 (ix2 r q) * x1 (ix2 q k)) = ∑ q : Fin 512, xm (ix2 R q) * w (ix2 q k) :=
    Finset.sum_congr rfl fun q _ => by rw [h0 q, h1 q]
  rw [Mat.pay0_apply, hs, h2, h3]
  rfl

/-- What grid point `t` writes back is block `t` of the first convolution of the arrays the kernel was entered with:
    a block's coordinate is its block index times the block's extent plus the coordinate inside the block, so row `r`
    of the pixel block and of the result block is row `512·t + r`, and the other blocks are their whole arrays. -/
theorem flushed_eq (c : Dev nD) (t : Fin cfg0.N) :
    (dat0 V c).flushed 4 t = ((cfg0.win 4).blk t).view.read (Elt Ideal)
      (ref0 (V c main_call0_v1) (V c main_arg1) (V c main_call0_v2) (V c main_call0_v3)) := by
  show (cfg0.win 4).cut (grid0.coords t) ((dat0 V c).after 4 t) = _
  rw [after0_4]
  unfold out0_4
  rw [View.canon_unit_zero zeroOffset]
  simp only [View.ld_unit_zero (S := S512x512) zeroOffset, View.ld_unit_zero (S := S512x256) zeroOffset,
    View.ld_unit_zero (S := S1x256) zeroOffset]
  obtain ⟨ht, a00, a01, a10, a11, a20, a21, a30, a31, a40, a41⟩ := blockIndex_facts t
  refine funext fun (j : S512x256.Idx) => ?_
  obtain ⟨r, k, rfl⟩ : ∃ (r : Fin 512) (k : Fin 256), j = ix2 r k := ⟨j 0, j 1, eq_ix2 j⟩
  have hr : r.val < 512 := r.isLt
  refine (block_apply (iblk0 V c 0 t) (iblk0 V c 1 t) (iblk0 V c 2 t) (iblk0 V c 3 t)
    (V c main_call0_v1) (V c main_arg1) (V c main_call0_v2) (V c main_call0_v3) r k ⟨512 * t.val + r.val, by omega⟩
    ?_ ?_ ?_ ?_).trans ?_
  · intro q
    show V c main_call0_v1 (((cfg0.win 0).blk t).view.emb (ix2 r q)) = V c main_call0_v1 _
    refine congrArg _ ?_
    funext a; apply Fin.ext
    match a with
    | ⟨0, _⟩ => show win0_0.index t (0 : Fin 2) * 512 + 1 * r.val = 512 * t.val + r.val; omega
    | ⟨1, _⟩ => show win0_0.index t (1 : Fin 2) * 512 + 1 * q.val = q.val; omega
  · intro q
    show V c main_arg1 (((cfg0.win 1).blk t).view.emb (ix2 q k)) = V c main_arg1 _
    refine congrArg _ ?_
    funext a; apply Fin.ext
    match a with
    | ⟨0, _⟩ => show win0_1.index t (0 : Fin 2) * 512 + 1 * q.val = q.val; omega
    | ⟨1, _⟩ => show win0_1.index t (1 : Fin 2) * 256 + 1 * k.val = k.val; omega
  · show V c main_call0_v2 (((cfg0.win 2).blk t).view.emb (ix2 0 k)) = V c main_call0_v2 _
    refine congrArg _ ?_
    funext a; apply Fin.ext
    match a with
    | ⟨0, _⟩ => show win0_2.index t (0 : Fin 2) * 1 + 1 * 0 = 0; omega
    | ⟨1, _⟩ => show win0_2.index t (1 : Fin 2) * 256 + 1 * k.val = k.val; omega
  · show V c main_call0_v3 (((cfg0.win 3).blk t).view.emb (ix2 0 k)) = V c main_call0_v3 _
    refine congrArg _ ?_
    funext a; apply Fin.ext
    match a with
    | ⟨0, _⟩ => show win0_3.index t (0 : Fin 2) * 1 + 1 * 0 = 0; omega
    | ⟨1, _⟩ => show win0_3.index t (1 : Fin 2) * 256 + 1 * k.val = k.val; omega
  · show ref0At (V c main_call0_v1) (V c main_arg1) (V c main_call0_v2) (V c main_call0_v3) _ _
      = ref0At (V c main_call0_v1) (V c main_arg1) (V c main_call0_v2) (V c main_call0_v3)
          ((((cfg0.win 4).blk t).view.emb (ix2 r k)) 0) ((((cfg0.win 4).blk t).view.emb (ix2 r k)) 1)
    refine congrArg₂ _ ?_ ?_
    · apply Fin.ext
      show 512 * t.val + r.val = win0_4.index t (0 : Fin 2) * 512 + 1 * r.val; omega
    · apply Fin.ext
      show k.val = win0_4.index t (1 : Fin 2) * 256 + 1 * k.val; omega

/-- An index of the result is in point `t`'s block iff each coordinate is in the block's range on its axis. -/
theorem mem_rowBlock (t : Fin cfg0.N) (i : S12800x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_call0_v4).slice (win0_4.rect t)).set ↔ _
  rw [View.set_slice_whole, Rect.mem_set_unit]
  exact Iff.rfl

/-- The 25 row blocks tile the result: row `i` lies in the block of the point whose row block is `i / 512`. -/
theorem rows_covered (i : S12800x256.Idx) :
    ∃ t : Fin cfg0.N, (cfg0.win 4).flush t = true ∧ i ∈ ((cfg0.win 4).blk t).view.set := by
  have hi0 : (i 0).val < 12800 := (i 0).isLt
  have hi1 : (i 1).val < 256 := (i 1).isLt
  obtain ⟨t, ht⟩ := rowBlock_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_rowBlock]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- After the first kernel's 25 grid points its output array holds the first convolution of the arrays it was entered with. -/
theorem final0 (c : Dev nD) :
    (dat0 V c).arrAt 4 cfg0.N = ref0 (V c main_call0_v1) (V c main_arg1) (V c main_call0_v2) (V c main_call0_v3) :=
  (dat0 V c).arrAt_eq_of_cover 4 _ (fun t _ => flushed_eq V c t) rows_covered

end Cert.ReferenceIdeal.Region0

end
-- ==== Proof.RefPool.lean ====
/-
  The reference's pooling kernel: its three stored blocks read at an index.

  The kernel drops the unit axis of its 1 × 20 × 20 × 128 block, surrounds the 20 × 20 × 128 block with six rows and then
  six columns of negative infinity, and takes a window-of-five maximum along the rows and then along the columns, three
  times over, each window the left-to-right maximum of five shifted slices of the same operand. If the 20 × 20 × 128
  block holds `g` at its coordinates, the 28 × 28, 24 × 24 and 20 × 20 results hold `pool5 (ext6 g)`,
  `pool5 (pool5 (ext6 g))` and `pool5 (pool5 (pool5 (ext6 g)))`; the three stored blocks are these read at the offsets
  4, 2 and 0, with the unit axis put back in front.
-/
import proofs.«151823_g2000609335854391_pallasbulk_1276_4_alg».proof.Proof.Gen.ReferenceIdeal.Skeleton
import proofs.«151823_g2000609335854391_pallasbulk_1276_4_alg».proof.Proof.Spec
import Idealize.ShloMosaic.Lib.Pipeline.Value
import Idealize.ShloMosaic.Lib.ValueLayout

noncomputable section

namespace Cert.ReferenceIdeal.Pool

open Idealize.ShloMosaic Idealize.ShloMosaic.ValueIdx Cert.Lib Cert.Spp Cert.ReferenceIdeal Cert.ReferenceIdeal.Gen

variable (x0 : Vec Ideal S1x20x20x128 .f32) {g : ℕ → ℕ → ℕ → EReal}

/-- The 28 × 28 block after the first pool: the bordered plane's 5 × 5 window maxima. -/
theorem pay4_rep (hx : Rep3 (shapeCast S20x20x128 x0 shapeCasts_S1x20x20x128_S20x20x128) g) :
    Rep3 (k1_pay4 x0) (pool5 (ext6 g)) := by
  have h3 := Rep3.padAx0 hx (Scalar.ofBits .f32 0xFF800000#32 : Ideal .f32) concatenates_S6x20x128_S20x20x128_S6x20x128_S32x20x128_d0 rfl rfl rfl rfl rfl
  have h5 := Rep3.padAx1 h3 (Scalar.ofBits .f32 0xFF800000#32 : Ideal .f32) concatenates_S32x6x128_S32x20x128_S32x6x128_S32x32x128_d1 rfl rfl rfl rfl rfl
  have h5' : Rep3 _ (ext6 g) := h5.congr fun i j c => by
    show (if j < 6 then _ else if j < 6 + 20 then (if i < 6 then _ else if i < 6 + 20 then _ else _) else _) = _
    rw [negInf_f32]; rfl
  have h14 := Rep3.win5s_ax0 (φ := .f32) h5' slices_S32x32x128_o0_0_0_S28x32x128 slices_S32x32x128_o1_0_0_S28x32x128 slices_S32x32x128_o2_0_0_S28x32x128 slices_S32x32x128_o3_0_0_S28x32x128 slices_S32x32x128_o4_0_0_S28x32x128
  have h23 := Rep3.win5s_ax1 (φ := .f32) h14 slices_S28x32x128_o0_0_0_S28x28x128 slices_S28x32x128_o0_1_0_S28x28x128 slices_S28x32x128_o0_2_0_S28x28x128 slices_S28x32x128_o0_3_0_S28x28x128 slices_S28x32x128_o0_4_0_S28x28x128
  exact h23

/-- The 24 × 24 block after the second pool. -/
theorem pay5_rep (hx : Rep3 (shapeCast S20x20x128 x0 shapeCasts_S1x20x20x128_S20x20x128) g) :
    Rep3 (k1_pay5 x0) (pool5 (pool5 (ext6 g))) := by
  have h23 := pay4_rep x0 hx
  have h32 := Rep3.win5s_ax0 (φ := .f32) h23 slices_S28x28x128_o0_0_0_S24x28x128 slices_S28x28x128_o1_0_0_S24x28x128 slices_S28x28x128_o2_0_0_S24x28x128 slices_S28x28x128_o3_0_0_S24x28x128 slices_S28x28x128_o4_0_0_S24x28x128
  have h41 := Rep3.win5s_ax1 (φ := .f32) h32 slices_S24x28x128_o0_0_0_S24x24x128 slices_S24x28x128_o0_1_0_S24x24x128 slices_S24x28x128_o0_2_0_S24x24x128 slices_S24x28x128_o0_3_0_S24x24x128 slices_S24x28x128_o0_4_0_S24x24x128
  exact h41

/-- The third pool's window along the rows: a 20 × 24 block. -/
theorem pay6_rep (hx : Rep3 (shapeCast S20x20x128 x0 shapeCasts_S1x20x20x128_S20x20x128) g) :
    Rep3 (k1_pay6 x0) (fun i j c => max5 (fun i' => pool5 (pool5 (ext6 g)) i' j c) i) := by
  have h41 := pay5_rep x0 hx
  have h50 := Rep3.win5s_ax0 (φ := .f32) h41 slices_S24x24x128_o0_0_0_S20x24x128 slices_S24x24x128_o1_0_0_S20x24x128 slices_S24x24x128_o2_0_0_S20x24x128 slices_S24x24x128_o3_0_0_S20x24x128 slices_S24x24x128_o4_0_0_S20x24x128
  exact h50

/-- A 20 × 20 × 128 block with a unit axis put in front reads, at `(0, h, w, c)`, the represented function at `(h, w, c)`. -/
theorem unit_apply {v : FVec Ideal S20x20x128 .f32} {f : ℕ → ℕ → ℕ → EReal} (hv : Rep3 v f) (h w : Fin 20) (c : Fin 128) :
    shapeCast S1x20x20x128 v shapeCasts_S20x20x128_S1x20x20x128 (ix4 0 h w c) = f h.val w.val c.val :=
  (shapeCast_abc_1abc_apply v shapeCasts_S20x20x128_S1x20x20x128 0 h w c).trans (hv (ix3 h w c))

/-- The 5 × 5 maxima round each pixel of the block. -/
theorem pay1_apply (hx : Rep3 (shapeCast S20x20x128 x0 shapeCasts_S1x20x20x128_S20x20x128) g) (h w : Fin 20) (c : Fin 128) :
    k1_pay1 (k1_pay4 x0) (ix4 0 h w c) = pool5 (ext6 g) (h.val + 4) (w.val + 4) c.val := by
  have h23 := pay4_rep x0 hx
  have h60 := h23.slice _ slices_S28x28x128_o4_4_0_S20x20x128
  exact unit_apply h60 h w c

/-- The 9 × 9 maxima. -/
theorem pay2_apply (hx : Rep3 (shapeCast S20x20x128 x0 shapeCasts_S1x20x20x128_S20x20x128) g) (h w : Fin 20) (c : Fin 128) :
    k1_pay2 (k1_pay5 x0) (ix4 0 h w c) = pool5 (pool5 (ext6 g)) (h.val + 2) (w.val + 2) c.val := by
  have h41 := pay5_rep x0 hx
  have h64 := h41.slice _ slices_S24x24x128_o2_2_0_S20x20x128
  exact unit_apply h64 h w c

/-- The 13 × 13 maxima. -/
theorem pay3_apply (hx : Rep3 (shapeCast S20x20x128 x0 shapeCasts_S1x20x20x128_S20x20x128) g) (h w : Fin 20) (c : Fin 128) :
    k1_pay3 (k1_pay6 x0) (k1_pay7 x0) (ix4 0 h w c) = pool5 (pool5 (pool5 (ext6 g))) h.val w.val c.val := by
  have h50 := pay6_rep x0 hx
  have h59 := Rep3.win5s_ax1 (φ := .f32) h50 slices_S20x24x128_o0_0_0_S20x20x128 slices_S20x24x128_o0_1_0_S20x20x128 slices_S20x24x128_o0_2_0_S20x20x128 slices_S20x24x128_o0_3_0_S20x20x128 slices_S20x24x128_o0_4_0_S20x20x128
  exact unit_apply h59 h w c

end Cert.ReferenceIdeal.Pool

end
-- ==== Proof.RefRegion1.lean ====
/-
  The reference's pooling kernel: the three arrays it leaves, as functions of the array it reads.

  The kernel runs over a grid of 32 × 2 points, one per image `n` and half `cb` of the 256 channels. At each point it
  reads the [1, 20, 20, 128] block of the input array at block index `(n, 0, 0, cb)` — image `n`, every pixel, channels
  `128 · cb … 128 · cb + 127` — and writes three blocks at the same block index into three output arrays: the 5 × 5,
  9 × 9 and 13 × 13 window maxima round each pixel of the block, the plane surrounded by `⊥`. The border and the window
  maxima act on the two pixel coordinates alone, so the pooled block is the pooled plane of image `n` read at the
  shifted channel; the 64 blocks tile each output array, so each output array ends as the pooled input array
  (`Cert.Spp.ref1_5`, `ref1_9`, `ref1_13`).
-/
import proofs.«151823_g2000609335854391_pallasbulk_1276_4_alg».proof.Proof.Gen.ReferenceIdeal.Frame
import proofs.«151823_g2000609335854391_pallasbulk_1276_4_alg».proof.Proof.Spec
import proofs.«151823_g2000609335854391_pallasbulk_1276_4_alg».proof.Proof.RefPool
import Idealize.ShloMosaic.Lib.Pipeline.Value

noncomputable section

namespace Cert.ReferenceIdeal.Region1

open Idealize.ShloMosaic Idealize.ShloMosaic.ValueIdx Cert.Lib Cert.Spp Cert.ReferenceIdeal Cert.ReferenceIdeal.Gen Idealize.ShloMosaic.TcCoe Idealize.SL.Sem
open Idealize.ShloMosaic.Pipeline (Dat)

variable (V : (c : Dev nD) → (b : Ref sig .tc) → Buf (Elt Ideal) ((c : Thread nD τ).loc b))

/-! ## The grid and the index maps

The grid has 32 × 2 points, one per image and half of the channels. All four windows have the same index map: at the
point with coordinates `(n, cb)` the block index is `(n, 0, 0, cb)`, so the block is image `n`, all 20 × 20 pixels,
channels `128 · cb … 128 · cb + 127`. -/

theorem hz : (![0, 0, 0, 0] : Fin 4 → Nat) = fun _ => 0 :=
  funext fun a => match a with | ⟨0, _⟩ => rfl | ⟨1, _⟩ => rfl | ⟨2, _⟩ => rfl | ⟨3, _⟩ => rfl

/-- The printed index maps, decided over the 64 points: the input's block index is `(n, 0, 0, cb)` with `n < 32`,
    `cb < 2`, and each output window's block index is the input's. -/
theorem idx_facts : ∀ t : Fin cfg1.N,
    (win1_0.index t (0 : Fin 4) < 32 ∧ win1_0.index t (1 : Fin 4) = 0 ∧ win1_0.index t (2 : Fin 4) = 0 ∧ win1_0.index t (3 : Fin 4) < 2)
    ∧ (win1_1.index t (0 : Fin 4) = win1_0.index t (0 : Fin 4) ∧ win1_1.index t (1 : Fin 4) = 0 ∧ win1_1.index t (2 : Fin 4) = 0 ∧ win1_1.index t (3 : Fin 4) = win1_0.index t (3 : Fin 4))
    ∧ (win1_2.index t (0 : Fin 4) = win1_0.index t (0 : Fin 4) ∧ win1_2.index t (1 : Fin 4) = 0 ∧ win1_2.index t (2 : Fin 4) = 0 ∧ win1_2.index t (3 : Fin 4) = win1_0.index t (3 : Fin 4))
    ∧ (win1_3.index t (0 : Fin 4) = win1_0.index t (0 : Fin 4) ∧ win1_3.index t (1 : Fin 4) = 0 ∧ win1_3.index t (2 : Fin 4) = 0 ∧ win1_3.index t (3 : Fin 4) = win1_0.index t (3 : Fin 4)) :=
  (by decide +kernel : ∀ t : Fin grid1.N, _)

/-- Every pair (image, channel half) is SOME point's block index. -/
theorem idx_onto : ∀ (q0 : Fin 32) (q3 : Fin 2), ∃ t : Fin cfg1.N, win1_0.index t = ![q0.val, 0, 0, q3.val] :=
  (by decide +kernel : ∀ (q0 : Fin 32) (q3 : Fin 2), ∃ t : Fin grid1.N, win1_0.index t = ![q0.val, 0, 0, q3.val])

/-! ## The input block -/

/-- The input window's block at point `t`, at an index of the block, is the array at image `n`, the same pixel, and
    the channel shifted by the block's first channel. -/
theorem iblk_apply (c : Dev nD) (t : Fin cfg1.N) (x : S1x20x20x128.Idx) (i : S32x20x20x256.Idx)
    (h0 : (i 0).val = win1_0.index t (0 : Fin 4)) (h1 : (i 1).val = (x 1).val) (h2 : (i 2).val = (x 2).val)
    (h3 : (i 3).val = (x 3).val + win1_0.index t (3 : Fin 4) * 128) :
    (iblk1 V c 0 t : Vec Ideal S1x20x20x128 .f32) x = (V c main_call0_v5 : S32x20x20x256.Idx → Elt Ideal .f32) i := by
  obtain ⟨⟨-, e1, e2, -⟩, -⟩ := idx_facts t
  have hx0 : (x 0).val < 1 := (x 0).isLt
  unfold iblk1
  rw [View.read_apply]
  show V c main_call0_v5 _ = V c main_call0_v5 _
  refine congrArg _ ?_
  funext a
  apply Fin.ext
  match a with
  | ⟨0, _⟩ => show win1_0.index t (0 : Fin 4) * 1 + 1 * (x 0).val = (i 0).val; omega
  | ⟨1, _⟩ => show win1_0.index t (1 : Fin 4) * 20 + 1 * (x 1).val = (i 1).val; omega
  | ⟨2, _⟩ => show win1_0.index t (2 : Fin 4) * 20 + 1 * (x 2).val = (i 2).val; omega
  | ⟨3, _⟩ => show win1_0.index t (3 : Fin 4) * 128 + 1 * (x 3).val = (i 3).val; omega

/-! ## A block of the array through the pools

If a [1, 20, 20, 128] block holds image `n` of the array `y` at the channels `o … o + 127`, then re-cast to
[20, 20, 128] it represents the plane of image `n` with the channel coordinate shifted by `o`; the border and the window
maxima act on the two pixel coordinates only, so the pooled block is the pooled plane at the shifted channel. -/

theorem block_rep (y : S32x20x20x256.Idx → EReal) (x0 : Vec Ideal S1x20x20x128 .f32) (n : Fin 32) (o : ℕ) (ho : o + 128 ≤ 256)
    (hx : ∀ (x : S1x20x20x128.Idx) (i : S32x20x20x256.Idx), (i 0).val = n.val → (i 1).val = (x 1).val →
      (i 2).val = (x 2).val → (i 3).val = (x 3).val + o → x0 x = y i) :
    Rep3 (shapeCast S20x20x128 x0 shapeCasts_S1x20x20x128_S20x20x128) (fun i j k => plane4 y n i j (k + o)) := by
  intro j
  have h0 : (j 0).val < 20 := (j 0).isLt
  have h1 : (j 1).val < 20 := (j 1).isLt
  have h2 : (j 2).val < 128 := (j 2).isLt
  refine (shapeCast_apply x0 _ j (ix4 (0 : Fin 1) (⟨(j 0).val, h0⟩ : Fin 20) (⟨(j 1).val, h1⟩ : Fin 20) (⟨(j 2).val, h2⟩ : Fin 128)) ?_).trans ?_
  · rw [Shape.rowMajor_val_four, Shape.rowMajor_val_three]
    show ((0 * 20 + (j 0).val) * 20 + (j 1).val) * 128 + (j 2).val = ((j 0).val * 20 + (j 1).val) * 128 + (j 2).val
    omega
  · show x0 _ = plane (fun h w k => y (ix4 n h w k)) (j 0).val (j 1).val ((j 2).val + o)
    unfold plane
    rw [dif_pos ⟨h0, h1, by omega⟩]
    exact hx _ _ rfl rfl rfl rfl

/-- A block index as `ix4` of literal-size coordinates. -/
theorem blockIdx_eq (j : S1x20x20x128.Idx) : ∃ (h w : Fin 20) (k : Fin 128),
    h.val = (j 1).val ∧ w.val = (j 2).val ∧ k.val = (j 3).val ∧ j = ix4 (0 : Fin 1) h w k := by
  have hj0 : (j 0).val < 1 := (j 0).isLt
  refine ⟨⟨(j 1).val, (j 1).isLt⟩, ⟨(j 2).val, (j 2).isLt⟩, ⟨(j 3).val, (j 3).isLt⟩, rfl, rfl, rfl, ?_⟩
  funext a
  apply Fin.ext
  match a with
  | ⟨0, _⟩ => show (j 0).val = 0; omega
  | ⟨1, _⟩ => rfl
  | ⟨2, _⟩ => rfl
  | ⟨3, _⟩ => rfl

/-- The first stored block at an index is the 5 × 5 pooled array at the array index under it. -/
theorem block5 (y : S32x20x20x256.Idx → EReal) (x0 : Vec Ideal S1x20x20x128 .f32) (n : Fin 32) (o : ℕ) (ho : o + 128 ≤ 256)
    (hx : ∀ (x : S1x20x20x128.Idx) (i : S32x20x20x256.Idx), (i 0).val = n.val → (i 1).val = (x 1).val →
      (i 2).val = (x 2).val → (i 3).val = (x 3).val + o → x0 x = y i)
    (j : S1x20x20x128.Idx) (i : S32x20x20x256.Idx) (h0 : (i 0).val = n.val) (h1 : (i 1).val = (j 1).val)
    (h2 : (i 2).val = (j 2).val) (h3 : (i 3).val = (j 3).val + o) :
    k1_pay1 (k1_pay4 x0) j = ref1_5 y i := by
  obtain ⟨h, w, k, hh, hw, hk, e⟩ := blockIdx_eq j
  show _ = pool5 (ext6 (plane4 y (i 0))) ((i 1).val + 4) ((i 2).val + 4) (i 3).val
  rw [show i 0 = n from Fin.ext h0, h1, h2, h3, ← hh, ← hw, ← hk, e]
  exact (Pool.pay1_apply x0 (block_rep y x0 n o ho hx) h w k).trans rfl

/-- The second stored block: the 9 × 9 pooled array. -/
theorem block9 (y : S32x20x20x256.Idx → EReal) (x0 : Vec Ideal S1x20x20x128 .f32) (n : Fin 32) (o : ℕ) (ho : o + 128 ≤ 256)
    (hx : ∀ (x : S1x20x20x128.Idx) (i : S32x20x20x256.Idx), (i 0).val = n.val → (i 1).val = (x 1).val →
      (i 2).val = (x 2).val → (i 3).val = (x 3).val + o → x0 x = y i)
    (j : S1x20x20x128.Idx) (i : S32x20x20x256.Idx) (h0 : (i 0).val = n.val) (h1 : (i 1).val = (j 1).val)
    (h2 : (i 2).val = (j 2).val) (h3 : (i 3).val = (j 3).val + o) :
    k1_pay2 (k1_pay5 x0) j = ref1_9 y i := by
  obtain ⟨h, w, k, hh, hw, hk, e⟩ := blockIdx_eq j
  show _ = pool5 (pool5 (ext6 (plane4 y (i 0)))) ((i 1).val + 2) ((i 2).val + 2) (i 3).val
  rw [show i 0 = n from Fin.ext h0, h1, h2, h3, ← hh, ← hw, ← hk, e]
  exact (Pool.pay2_apply x0 (block_rep y x0 n o ho hx) h w k).trans rfl

/-- The third stored block: the 13 × 13 pooled array. -/
theorem block13 (y : S32x20x20x256.Idx → EReal) (x0 : Vec Ideal S1x20x20x128 .f32) (n : Fin 32) (o : ℕ) (ho : o + 128 ≤ 256)
    (hx : ∀ (x : S1x20x20x128.Idx) (i : S32x20x20x256.Idx), (i 0).val = n.val → (i 1).val = (x 1).val →
      (i 2).val = (x 2).val → (i 3).val = (x 3).val + o → x0 x = y i)
    (j : S1x20x20x128.Idx) (i : S32x20x20x256.Idx) (h0 : (i 0).val = n.val) (h1 : (i 1).val = (j 1).val)
    (h2 : (i 2).val = (j 2).val) (h3 : (i 3).val = (j 3).val + o) :
    k1_pay3 (k1_pay6 x0) (k1_pay7 x0) j = ref1_13 y i := by
  obtain ⟨h, w, k, hh, hw, hk, e⟩ := blockIdx_eq j
  show _ = pool5 (pool5 (pool5 (ext6 (plane4 y (i 0))))) (i 1).val (i 2).val (i 3).val
  rw [show i 0 = n from Fin.ext h0, h1, h2, h3, ← hh, ← hw, ← hk, e]
  exact (Pool.pay3_apply x0 (block_rep y x0 n o ho hx) h w k).trans rfl

/-! ## Output window 1: the 5 × 5 maxima -/

/-- WHAT POINT `t` WRITES BACK is block `t` of the pooled array. -/
theorem flushed5_eq (c : Dev nD) (t : Fin cfg1.N) :
    (dat1 V c).flushed 1 t = ((cfg1.win 1).blk t).view.read (Elt Ideal) (ref1_5 (V c main_call0_v5)) := by
  show (cfg1.win 1).cut (grid1.coords t) ((dat1 V c).after 1 t) = _
  rw [after1_1]
  unfold out1_1
  rw [View.canon_unit_zero hz]
  simp only [View.ld_unit_zero (S := S1x20x20x128) hz]
  obtain ⟨⟨b0, -, -, b3⟩, f1, f2, f3⟩ := idx_facts t
  obtain ⟨e0, e1, e2, e3⟩ := f1
  funext j
  have hj0 : (j 0).val < 1 := (j 0).isLt
  refine block5 (V c main_call0_v5) (iblk1 V c 0 t) ⟨win1_0.index t (0 : Fin 4), b0⟩ (win1_0.index t (3 : Fin 4) * 128) (by omega)
    (fun x i h0 h1 h2 h3 => iblk_apply V c t x i h0 h1 h2 h3) j (((cfg1.win 1).blk t).view.emb j) ?_ ?_ ?_ ?_
  · show win1_1.index t (0 : Fin 4) * 1 + 1 * (j 0).val = win1_0.index t (0 : Fin 4); omega
  · show win1_1.index t (1 : Fin 4) * 20 + 1 * (j 1).val = (j 1).val; omega
  · show win1_1.index t (2 : Fin 4) * 20 + 1 * (j 2).val = (j 2).val; omega
  · show win1_1.index t (3 : Fin 4) * 128 + 1 * (j 3).val = (j 3).val + win1_0.index t (3 : Fin 4) * 128; omega

/-- An index of the array is in point `t`'s block iff each coordinate is in the block's range on its axis. -/
theorem mem_blk5 (t : Fin cfg1.N) (i : S32x20x20x256.Idx) :
    i ∈ ((cfg1.win 1).blk t).view.set ↔ ∀ a : Fin 4, win1_1.index t a * S1x20x20x128.size a ≤ (i a).val ∧ (i a).val < win1_1.index t a * S1x20x20x128.size a + S1x20x20x128.size a := by
  show i ∈ ((View.whole main_call0_v6_0).slice (win1_1.rect t)).set ↔ _
  rw [View.set_slice_whole, Rect.mem_set_unit]
  exact Iff.rfl

/-- Every index of the array is in the block of the point of its image and channel half. -/
theorem cover5 (i : S32x20x20x256.Idx) : ∃ t : Fin cfg1.N, (cfg1.win 1).flush t = true ∧ i ∈ ((cfg1.win 1).blk t).view.set := by
  have hi0 : (i 0).val < 32 := (i 0).isLt
  have hi1 : (i 1).val < 20 := (i 1).isLt
  have hi2 : (i 2).val < 20 := (i 2).isLt
  have hi3 : (i 3).val < 256 := (i 3).isLt
  obtain ⟨t, ht⟩ := idx_onto ⟨(i 0).val, hi0⟩ ⟨(i 3).val / 128, by omega⟩
  have q0 : win1_0.index t (0 : Fin 4) = (i 0).val := congrFun ht 0
  have q3 : win1_0.index t (3 : Fin 4) = (i 3).val / 128 := congrFun ht 3
  obtain ⟨-, f1, f2, f3⟩ := idx_facts t
  obtain ⟨e0, e1, e2, e3⟩ := f1
  refine ⟨t, flush1_1 t, ?_⟩
  rw [mem_blk5]
  intro a
  match a with
  | ⟨0, _⟩ => show win1_1.index t (0 : Fin 4) * 1 ≤ (i 0).val ∧ (i 0).val < win1_1.index t (0 : Fin 4) * 1 + 1; omega
  | ⟨1, _⟩ => show win1_1.index t (1 : Fin 4) * 20 ≤ (i 1).val ∧ (i 1).val < win1_1.index t (1 : Fin 4) * 20 + 20; omega
  | ⟨2, _⟩ => show win1_1.index t (2 : Fin 4) * 20 ≤ (i 2).val ∧ (i 2).val < win1_1.index t (2 : Fin 4) * 20 + 20; omega
  | ⟨3, _⟩ => show win1_1.index t (3 : Fin 4) * 128 ≤ (i 3).val ∧ (i 3).val < win1_1.index t (3 : Fin 4) * 128 + 128; omega

/-! ## Output window 2: the 9 × 9 maxima -/

/-- WHAT POINT `t` WRITES BACK is block `t` of the pooled array. -/
theorem flushed9_eq (c : Dev nD) (t : Fin cfg1.N) :
    (dat1 V c).flushed 2 t = ((cfg1.win 2).blk t).view.read (Elt Ideal) (ref1_9 (V c main_call0_v5)) := by
  show (cfg1.win 2).cut (grid1.coords t) ((dat1 V c).after 2 t) = _
  rw [after1_2]
  unfold out1_2
  rw [View.canon_unit_zero hz]
  simp only [View.ld_unit_zero (S := S1x20x20x128) hz]
  obtain ⟨⟨b0, -, -, b3⟩, f1, f2, f3⟩ := idx_facts t
  obtain ⟨e0, e1, e2, e3⟩ := f2
  funext j
  have hj0 : (j 0).val < 1 := (j 0).isLt
  refine block9 (V c main_call0_v5) (iblk1 V c 0 t) ⟨win1_0.index t (0 : Fin 4), b0⟩ (win1_0.index t (3 : Fin 4) * 128) (by omega)
    (fun x i h0 h1 h2 h3 => iblk_apply V c t x i h0 h1 h2 h3) j (((cfg1.win 2).blk t).view.emb j) ?_ ?_ ?_ ?_
  · show win1_2.index t (0 : Fin 4) * 1 + 1 * (j 0).val = win1_0.index t (0 : Fin 4); omega
  · show win1_2.index t (1 : Fin 4) * 20 + 1 * (j 1).val = (j 1).val; omega
  · show win1_2.index t (2 : Fin 4) * 20 + 1 * (j 2).val = (j 2).val; omega
  · show win1_2.index t (3 : Fin 4) * 128 + 1 * (j 3).val = (j 3).val + win1_0.index t (3 : Fin 4) * 128; omega

/-- An index of the array is in point `t`'s block iff each coordinate is in the block's range on its axis. -/
theorem mem_blk9 (t : Fin cfg1.N) (i : S32x20x20x256.Idx) :
    i ∈ ((cfg1.win 2).blk t).view.set ↔ ∀ a : Fin 4, win1_2.index t a * S1x20x20x128.size a ≤ (i a).val ∧ (i a).val < win1_2.index t a * S1x20x20x128.size a + S1x20x20x128.size a := by
  show i ∈ ((View.whole main_call0_v6_1).slice (win1_2.rect t)).set ↔ _
  rw [View.set_slice_whole, Rect.mem_set_unit]
  exact Iff.rfl

/-- Every index of the array is in the block of the point of its image and channel half. -/
theorem cover9 (i : S32x20x20x256.Idx) : ∃ t : Fin cfg1.N, (cfg1.win 2).flush t = true ∧ i ∈ ((cfg1.win 2).blk t).view.set := by
  have hi0 : (i 0).val < 32 := (i 0).isLt
  have hi1 : (i 1).val < 20 := (i 1).isLt
  have hi2 : (i 2).val < 20 := (i 2).isLt
  have hi3 : (i 3).val < 256 := (i 3).isLt
  obtain ⟨t, ht⟩ := idx_onto ⟨(i 0).val, hi0⟩ ⟨(i 3).val / 128, by omega⟩
  have q0 : win1_0.index t (0 : Fin 4) = (i 0).val := congrFun ht 0
  have q3 : win1_0.index t (3 : Fin 4) = (i 3).val / 128 := congrFun ht 3
  obtain ⟨-, f1, f2, f3⟩ := idx_facts t
  obtain ⟨e0, e1, e2, e3⟩ := f2
  refine ⟨t, flush1_2 t, ?_⟩
  rw [mem_blk9]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 20 ≤ (i 1).val ∧ (i 1).val < win1_2.index t (1 : Fin 4) * 20 + 20; omega
  | ⟨2, _⟩ => show win1_2.index t (2 : Fin 4) * 20 ≤ (i 2).val ∧ (i 2).val < win1_2.index t (2 : Fin 4) * 20 + 20; omega
  | ⟨3, _⟩ => show win1_2.index t (3 : Fin 4) * 128 ≤ (i 3).val ∧ (i 3).val < win1_2.index t (3 : Fin 4) * 128 + 128; omega

/-! ## Output window 3: the 13 × 13 maxima -/

/-- WHAT POINT `t` WRITES BACK is block `t` of the pooled array. -/
theorem flushed13_eq (c : Dev nD) (t : Fin cfg1.N) :
    (dat1 V c).flushed 3 t = ((cfg1.win 3).blk t).view.read (Elt Ideal) (ref1_13 (V c main_call0_v5)) := by
  show (cfg1.win 3).cut (grid1.coords t) ((dat1 V c).after 3 t) = _
  rw [after1_3]
  unfold out1_3
  rw [View.canon_unit_zero hz]
  simp only [View.ld_unit_zero (S := S1x20x20x128) hz]
  obtain ⟨⟨b0, -, -, b3⟩, f1, f2, f3⟩ := idx_facts t
  obtain ⟨e0, e1, e2, e3⟩ := f3
  funext j
  have hj0 : (j 0).val < 1 := (j 0).isLt
  refine block13 (V c main_call0_v5) (iblk1 V c 0 t) ⟨win1_0.index t (0 : Fin 4), b0⟩ (win1_0.index t (3 : Fin 4) * 128) (by omega)
    (fun x i h0 h1 h2 h3 => iblk_apply V c t x i h0 h1 h2 h3) j (((cfg1.win 3).blk t).view.emb j) ?_ ?_ ?_ ?_
  · show win1_3.index t (0 : Fin 4) * 1 + 1 * (j 0).val = win1_0.index t (0 : Fin 4); omega
  · show win1_3.index t (1 : Fin 4) * 20 + 1 * (j 1).val = (j 1).val; omega
  · show win1_3.index t (2 : Fin 4) * 20 + 1 * (j 2).val = (j 2).val; omega
  · show win1_3.index t (3 : Fin 4) * 128 + 1 * (j 3).val = (j 3).val + win1_0.index t (3 : Fin 4) * 128; omega

/-- An index of the array is in point `t`'s block iff each coordinate is in the block's range on its axis. -/
theorem mem_blk13 (t : Fin cfg1.N) (i : S32x20x20x256.Idx) :
    i ∈ ((cfg1.win 3).blk t).view.set ↔ ∀ a : Fin 4, win1_3.index t a * S1x20x20x128.size a ≤ (i a).val ∧ (i a).val < win1_3.index t a * S1x20x20x128.size a + S1x20x20x128.size a := by
  show i ∈ ((View.whole main_call0_v6_2).slice (win1_3.rect t)).set ↔ _
  rw [View.set_slice_whole, Rect.mem_set_unit]
  exact Iff.rfl

/-- Every index of the array is in the block of the point of its image and channel half. -/
theorem cover13 (i : S32x20x20x256.Idx) : ∃ t : Fin cfg1.N, (cfg1.win 3).flush t = true ∧ i ∈ ((cfg1.win 3).blk t).view.set := by
  have hi0 : (i 0).val < 32 := (i 0).isLt
  have hi1 : (i 1).val < 20 := (i 1).isLt
  have hi2 : (i 2).val < 20 := (i 2).isLt
  have hi3 : (i 3).val < 256 := (i 3).isLt
  obtain ⟨t, ht⟩ := idx_onto ⟨(i 0).val, hi0⟩ ⟨(i 3).val / 128, by omega⟩
  have q0 : win1_0.index t (0 : Fin 4) = (i 0).val := congrFun ht 0
  have q3 : win1_0.index t (3 : Fin 4) = (i 3).val / 128 := congrFun ht 3
  obtain ⟨-, f1, f2, f3⟩ := idx_facts t
  obtain ⟨e0, e1, e2, e3⟩ := f3
  refine ⟨t, flush1_3 t, ?_⟩
  rw [mem_blk13]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 20 ≤ (i 1).val ∧ (i 1).val < win1_3.index t (1 : Fin 4) * 20 + 20; omega
  | ⟨2, _⟩ => show win1_3.index t (2 : Fin 4) * 20 ≤ (i 2).val ∧ (i 2).val < win1_3.index t (2 : Fin 4) * 20 + 20; omega
  | ⟨3, _⟩ => show win1_3.index t (3 : Fin 4) * 128 ≤ (i 3).val ∧ (i 3).val < win1_3.index t (3 : Fin 4) * 128 + 128; omega

/-! ## The three arrays after the run -/

theorem final1_5 (c : Dev nD) : (dat1 V c).arrAt 1 cfg1.N = ref1_5 (V c main_call0_v5) :=
  (dat1 V c).arrAt_eq_of_cover 1 (ref1_5 (V c main_call0_v5)) (fun t _ => flushed5_eq V c t) cover5

theorem final1_9 (c : Dev nD) : (dat1 V c).arrAt 2 cfg1.N = ref1_9 (V c main_call0_v5) :=
  (dat1 V c).arrAt_eq_of_cover 2 (ref1_9 (V c main_call0_v5)) (fun t _ => flushed9_eq V c t) cover9

theorem final1_13 (c : Dev nD) : (dat1 V c).arrAt 3 cfg1.N = ref1_13 (V c main_call0_v5) :=
  (dat1 V c).arrAt_eq_of_cover 3 (ref1_13 (V c main_call0_v5)) (fun t _ => flushed13_eq V c t) cover13

end Cert.ReferenceIdeal.Region1

end
-- ==== Proof.RefRegion2.lean ====
/-
  The reference's second convolution kernel: the array it leaves, as one function of the arrays it reads.

  The kernel runs over 25 grid points. Point `t` reads rows `512·t … 512·t + 511` of the four 12800 × 256 activation
  matrices, the whole [4, 256, 512] weight array (whose slab `j` multiplies the `j`-th activation matrix) and the whole
  1 × 512 scale and shift rows, and writes rows `512·t … 512·t + 511` of the 12800 × 512 output. Each written block is
  the same function of the arrays, `ref2`, read on the block's rows; the 25 blocks tile the output (row `i` lies in the
  block of point `i / 512`), so after the run the output array is `ref2` of the seven arrays.
-/
import proofs.«151823_g2000609335854391_pallasbulk_1276_4_alg».proof.Proof.Gen.ReferenceIdeal.Frame
import proofs.«151823_g2000609335854391_pallasbulk_1276_4_alg».proof.Proof.Spec
import proofs.«151823_g2000609335854391_pallasbulk_1276_4_alg».proof.Proof.RefMat
import Idealize.ShloMosaic.Lib.Pipeline.Value

noncomputable section

namespace Cert.ReferenceIdeal.Region2

open Idealize.ShloMosaic Idealize.ShloMosaic.ValueIdx Cert.Lib Cert.Spp Cert.ReferenceIdeal Cert.ReferenceIdeal.Gen Idealize.ShloMosaic.TcCoe Idealize.SL.Sem
open Idealize.ShloMosaic.Pipeline (Dat)

variable (V : (c : Dev nD) → (b : Ref sig .tc) → Buf (Elt Ideal) ((c : Thread nD τ).loc b))

/-- The zero offsets of a rank-two rectangle are the constant zero function. -/
theorem zero_off : (![0, 0] : Fin 2 → Nat) = fun _ => 0 := funext fun a => by fin_cases a <;> rfl

/-- The printed index maps, decided over the 25 grid points: the four activation windows sit at the output window's block
    row and block column zero, the weight, scale and shift windows at block zero on every axis, and the output window's
    block row is below 25 with block column zero. -/
theorem index_facts : ∀ t : Fin cfg2.N,
    win2_0.index t (0 : Fin 2) = win2_7.index t (0 : Fin 2) ∧ win2_0.index t (1 : Fin 2) = 0
    ∧ win2_1.index t (0 : Fin 2) = win2_7.index t (0 : Fin 2) ∧ win2_1.index t (1 : Fin 2) = 0
    ∧ win2_2.index t (0 : Fin 2) = win2_7.index t (0 : Fin 2) ∧ win2_2.index t (1 : Fin 2) = 0
    ∧ win2_3.index t (0 : Fin 2) = win2_7.index t (0 : Fin 2) ∧ win2_3.index t (1 : Fin 2) = 0
    ∧ win2_4.index t (0 : Fin 3) = 0 ∧ win2_4.index t (1 : Fin 3) = 0 ∧ win2_4.index t (2 : Fin 3) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) ≤ 24 ∧ win2_7.index t (1 : Fin 2) = 0 :=
  (by decide +kernel : ∀ t : Fin grid2.N, _)

/-- Every block row of the output array is some grid point's. -/
theorem index_onto : ∀ q : Fin 25, ∃ t : Fin cfg2.N, win2_7.index t = ![q.val, 0] :=
  (by decide +kernel : ∀ q : Fin 25, ∃ t : Fin grid2.N, win2_7.index t = ![q.val, 0])

/-- One element of the block a grid point computes: when the point's activation blocks hold row `i` of the four
    activation matrices at their row `r`, and its weight, scale and shift blocks hold the whole arrays, the stored
    block at `(r, c)` is the second convolution at `(i, c)`. The four weight slabs are the rectangles of the
    [4, 256, 512] block at offsets `[j, 0, 0]`, so slab `j` at `(0, k, c)` reads the block at `(j, k, c)`. -/
theorem point_eq (x0 x1 x2 x3 : Vec Ideal S512x256 .f32) (x4 : Vec Ideal S4x256x512 .f32) (x5 x6 : Vec Ideal S1x512 .f32)
    (a0 a1 a2 a3 : S12800x256.Idx → EReal) (w4 : S4x256x512.Idx → EReal) (s b : S1x512.Idx → EReal)
    (r c : Fin 512) (i : Fin 12800)
    (h0 : ∀ k : Fin 256, x0 (ix2 r k) = a0 (ix2 i k)) (h1 : ∀ k : Fin 256, x1 (ix2 r k) = a1 (ix2 i k))
    (h2 : ∀ k : Fin 256, x2 (ix2 r k) = a2 (ix2 i k)) (h3 : ∀ k : Fin 256, x3 (ix2 r k) = a3 (ix2 i k))
    (h4 : ∀ (j : Fin 4) (k : Fin 256), x4 (ix3 j k c) = w4 (ix3 j k c))
    (h5 : x5 (ix2 0 c) = s (ix2 0 c)) (h6 : x6 (ix2 0 c) = b (ix2 0 c)) :
    k2_pay1 (k2_pay2 x0 (View.ld x4 r2_1) x1 (View.ld x4 r2_2) x2 (View.ld x4 r2_3) x3 (View.ld x4 r2_4) x5 x6) (ix2 r c)
      = ref2At a0 a1 a2 a3 w4 s b i c := by
  have l1 : ∀ k : Fin 256, View.ld x4 r2_1 (ix3 0 k c) = w4 (ix3 0 k c) := fun k => by
    rw [← h4 0 k]
    show x4 (r2_1.idx (ix3 0 k c)) = x4 (ix3 0 k c)
    refine congrArg x4 (funext fun a => Fin.ext ?_)
    match a with
    | ⟨0, _⟩ => show 0 + 1 * 0 = 0; rfl
    | ⟨1, _⟩ => show 0 + 1 * k.val = k.val; omega
    | ⟨2, _⟩ => show 0 + 1 * c.val = c.val; omega
  have l2 : ∀ k : Fin 256, View.ld x4 r2_2 (ix3 0 k c) = w4 (ix3 1 k c) := fun k => by
    rw [← h4 1 k]
    show x4 (r2_2.idx (ix3 0 k c)) = x4 (ix3 1 k c)
    refine congrArg x4 (funext fun a => Fin.ext ?_)
    match a with
    | ⟨0, _⟩ => show 1 + 1 * 0 = 1; rfl
    | ⟨1, _⟩ => show 0 + 1 * k.val = k.val; omega
    | ⟨2, _⟩ => show 0 + 1 * c.val = c.val; omega
  have l3 : ∀ k : Fin 256, View.ld x4 r2_3 (ix3 0 k c) = w4 (ix3 2 k c) := fun k => by
    rw [← h4 2 k]
    show x4 (r2_3.idx (ix3 0 k c)) = x4 (ix3 2 k c)
    refine congrArg x4 (funext fun a => Fin.ext ?_)
    match a with
    | ⟨0, _⟩ => show 2 + 1 * 0 = 2; rfl
    | ⟨1, _⟩ => show 0 + 1 * k.val = k.val; omega
    | ⟨2, _⟩ => show 0 + 1 * c.val = c.val; omega
  have l4 : ∀ k : Fin 256, View.ld x4 r2_4 (ix3 0 k c) = w4 (ix3 3 k c) := fun k => by
    rw [← h4 3 k]
    show x4 (r2_4.idx (ix3 0 k c)) = x4 (ix3 3 k c)
    refine congrArg x4 (funext fun a => Fin.ext ?_)
    match a with
    | ⟨0, _⟩ => show 3 + 1 * 0 = 3; rfl
    | ⟨1, _⟩ => show 0 + 1 * k.val = k.val; omega
    | ⟨2, _⟩ => show 0 + 1 * c.val = c.val; omega
  refine (Mat.pay2_apply x0 x1 x2 x3 (View.ld x4 r2_1) (View.ld x4 r2_2) (View.ld x4 r2_3) (View.ld x4 r2_4) x5 x6 r c).trans ?_
  unfold ref2At
  refine congrArg silu ?_
  refine congrArg₂ (· + ·) (congrArg₂ (· * ·) ?_ h5) h6
  refine congrArg₂ (· + ·) (congrArg₂ (· + ·) (congrArg₂ (· + ·) ?_ ?_) ?_) ?_
  · exact Finset.sum_congr rfl fun k _ => congrArg₂ (· * ·) (h0 k) (l1 k)
  · exact Finset.sum_congr rfl fun k _ => congrArg₂ (· * ·) (h1 k) (l2 k)
  · exact Finset.sum_congr rfl fun k _ => congrArg₂ (· * ·) (h2 k) (l3 k)
  · exact Finset.sum_congr rfl fun k _ => congrArg₂ (· * ·) (h3 k) (l4 k)

/-- What grid point `t` writes back is block `t` of the second convolution of the seven arrays as the kernel finds them:
    row `r` of the point's activation blocks is row `512·t + r` of the activation matrices, and its weight, scale and
    shift blocks are the whole arrays. -/
theorem flushed_eq (c : Dev nD) (t : Fin cfg2.N) :
    (dat2 V c).flushed 7 t = ((cfg2.win 7).blk t).view.read (Elt Ideal)
      (ref2 (V c main_call0_v7) (V c main_call0_v8) (V c main_call0_v9) (V c main_call0_v10)
        (V c main_call0_v11) (V c main_call0_v12) (V c main_call0_v13)) := by
  show (cfg2.win 7).cut (grid2.coords t) ((dat2 V c).after 7 t) = _
  rw [after2_7]
  unfold out2_7
  rw [View.canon_unit_zero zero_off]
  simp only [View.ld_unit_zero (S := S512x256) zero_off, View.ld_unit_zero (S := S1x512) zero_off]
  obtain ⟨e00, e01, e10, e11, e20, e21, e30, e31, e40, e41, e42, e50, e51, e60, e61, e70, e71⟩ := index_facts t
  funext j
  obtain ⟨r, q, rfl⟩ : ∃ r q : Fin 512, j = ix2 r q := ⟨j 0, j 1, eq_ix2 (n0 := 512) (n1 := 512) j⟩
  have hlt : win2_7.index t (0 : Fin 2) * 512 + r.val < 12800 := by have := r.isLt; omega
  refine (point_eq (iblk2 V c 0 t) (iblk2 V c 1 t) (iblk2 V c 2 t) (iblk2 V c 3 t) (iblk2 V c 4 t) (iblk2 V c 5 t) (iblk2 V c 6 t)
    (V c main_call0_v7) (V c main_call0_v8) (V c main_call0_v9) (V c main_call0_v10) (V c main_call0_v11) (V c main_call0_v12)
    (V c main_call0_v13) r q ⟨win2_7.index t (0 : Fin 2) * 512 + r.val, hlt⟩ ?_ ?_ ?_ ?_ ?_ ?_ ?_).trans ?_
  · intro k
    show V c main_call0_v7 (((cfg2.win 0).blk t).view.emb (ix2 r k)) = V c main_call0_v7 (ix2 ⟨_, hlt⟩ k)
    refine congrArg (V c main_call0_v7) (funext fun a => Fin.ext ?_)
    match a with
    | ⟨0, _⟩ => show win2_0.index t (0 : Fin 2) * 512 + 1 * r.val = win2_7.index t (0 : Fin 2) * 512 + r.val; rw [e00]; omega
    | ⟨1, _⟩ => show win2_0.index t (1 : Fin 2) * 256 + 1 * k.val = k.val; rw [e01]; omega
  · intro k
    show V c main_call0_v8 (((cfg2.win 1).blk t).view.emb (ix2 r k)) = V c main_call0_v8 (ix2 ⟨_, hlt⟩ k)
    refine congrArg (V c main_call0_v8) (funext fun a => Fin.ext ?_)
    match a with
    | ⟨0, _⟩ => show win2_1.index t (0 : Fin 2) * 512 + 1 * r.val = win2_7.index t (0 : Fin 2) * 512 + r.val; rw [e10]; omega
    | ⟨1, _⟩ => show win2_1.index t (1 : Fin 2) * 256 + 1 * k.val = k.val; rw [e11]; omega
  · intro k
    show V c main_call0_v9 (((cfg2.win 2).blk t).view.emb (ix2 r k)) = V c main_call0_v9 (ix2 ⟨_, hlt⟩ k)
    refine congrArg (V c main_call0_v9) (funext fun a => Fin.ext ?_)
    match a with
    | ⟨0, _⟩ => show win2_2.index t (0 : Fin 2) * 512 + 1 * r.val = win2_7.index t (0 : Fin 2) * 512 + r.val; rw [e20]; omega
    | ⟨1, _⟩ => show win2_2.index t (1 : Fin 2) * 256 + 1 * k.val = k.val; rw [e21]; omega
  · intro k
    show V c main_call0_v10 (((cfg2.win 3).blk t).view.emb (ix2 r k)) = V c main_call0_v10 (ix2 ⟨_, hlt⟩ k)
    refine congrArg (V c main_call0_v10) (funext fun a => Fin.ext ?_)
    match a with
    | ⟨0, _⟩ => show win2_3.index t (0 : Fin 2) * 512 + 1 * r.val = win2_7.index t (0 : Fin 2) * 512 + r.val; rw [e30]; omega
    | ⟨1, _⟩ => show win2_3.index t (1 : Fin 2) * 256 + 1 * k.val = k.val; rw [e31]; omega
  · intro s k
    show V c main_call0_v11 (((cfg2.win 4).blk t).view.emb (ix3 s k q)) = V c main_call0_v11 (ix3 s k q)
    refine congrArg (V c main_call0_v11) (funext fun a => Fin.ext ?_)
    match a with
    | ⟨0, _⟩ => show win2_4.index t (0 : Fin 3) * 4 + 1 * s.val = s.val; rw [e40]; omega
    | ⟨1, _⟩ => show win2_4.index t (1 : Fin 3) * 256 + 1 * k.val = k.val; rw [e41]; omega
    | ⟨2, _⟩ => show win2_4.index t (2 : Fin 3) * 512 + 1 * q.val = q.val; rw [e42]; omega
  · show V c main_call0_v12 (((cfg2.win 5).blk t).view.emb (ix2 0 q)) = V c main_call0_v12 (ix2 0 q)
    refine congrArg (V c main_call0_v12) (funext fun a => Fin.ext ?_)
    match a with
    | ⟨0, _⟩ => show win2_5.index t (0 : Fin 2) * 1 + 1 * 0 = 0; rw [e50]
    | ⟨1, _⟩ => show win2_5.index t (1 : Fin 2) * 512 + 1 * q.val = q.val; rw [e51]; omega
  · show V c main_call0_v13 (((cfg2.win 6).blk t).view.emb (ix2 0 q)) = V c main_call0_v13 (ix2 0 q)
    refine congrArg (V c main_call0_v13) (funext fun a => Fin.ext ?_)
    match a with
    | ⟨0, _⟩ => show win2_6.index t (0 : Fin 2) * 1 + 1 * 0 = 0; rw [e60]
    | ⟨1, _⟩ => show win2_6.index t (1 : Fin 2) * 512 + 1 * q.val = q.val; rw [e61]; omega
  · have hr : (((cfg2.win 7).blk t).view.emb (ix2 r q)) 0 = (⟨win2_7.index t (0 : Fin 2) * 512 + r.val, hlt⟩ : Fin 12800) :=
      Fin.ext (by show win2_7.index t (0 : Fin 2) * 512 + 1 * r.val = win2_7.index t (0 : Fin 2) * 512 + r.val; omega)
    have hq : (((cfg2.win 7).blk t).view.emb (ix2 r q)) 1 = q :=
      Fin.ext (by show win2_7.index t (1 : Fin 2) * 512 + 1 * q.val = q.val; rw [e71]; omega)
    exact (congrArg₂ (ref2At (V c main_call0_v7) (V c main_call0_v8) (V c main_call0_v9) (V c main_call0_v10)
      (V c main_call0_v11) (V c main_call0_v12) (V c main_call0_v13)) hr hq).symm

/-- An index of the output array is in point `t`'s block iff each coordinate is in the block's range on its axis. -/
theorem mem_blk (t : Fin cfg2.N) (i : S12800x512.Idx) :
    i ∈ ((cfg2.win 7).blk t).view.set ↔ ∀ a : Fin 2, win2_7.index t a * S512x512.size a ≤ (i a).val ∧ (i a).val < win2_7.index t a * S512x512.size a + S512x512.size a := by
  show i ∈ ((View.whole main_call0_v14).slice (win2_7.rect t)).set ↔ _
  rw [View.set_slice_whole, Rect.mem_set_unit]
  exact Iff.rfl

/-- After the third kernel's 25 grid points its output array holds the second convolution of the seven arrays it was
    entered with: every grid point writes its block back, and row `i` of the array lies in the block of point `i / 512`. -/
theorem final2 (c : Dev nD) :
    (dat2 V c).arrAt 7 cfg2.N = ref2 (V c main_call0_v7) (V c main_call0_v8) (V c main_call0_v9) (V c main_call0_v10)
      (V c main_call0_v11) (V c main_call0_v12) (V c main_call0_v13) :=
  (dat2 V c).arrAt_eq_of_cover 7 _ (fun t _ => flushed_eq V c t) fun i => by
    have hi0 : (i 0).val < 12800 := (i 0).isLt
    have hi1 : (i 1).val < 512 := (i 1).isLt
    obtain ⟨t, ht⟩ := index_onto ⟨(i 0).val / 512, by omega⟩
    have q0 : win2_7.index t (0 : Fin 2) = (i 0).val / 512 := congrFun ht 0
    have q1 : win2_7.index t (1 : Fin 2) = 0 := congrFun ht 1
    refine ⟨t, flush2_7 t, ?_⟩
    rw [mem_blk]
    intro a
    match a with
    | ⟨0, _⟩ => show win2_7.index t (0 : Fin 2) * 512 ≤ (i 0).val ∧ (i 0).val < win2_7.index t (0 : Fin 2) * 512 + 512; omega
    | ⟨1, _⟩ => show win2_7.index t (1 : Fin 2) * 512 ≤ (i 1).val ∧ (i 1).val < win2_7.index t (1 : Fin 2) * 512 + 512; omega

end Cert.ReferenceIdeal.Region2

end
-- ==== Proof.RefHost.lean ====
/-
  The reference program's result buffer at the end of @main, walked back through the host stretches and the three regions to the arguments.

  Between the kernels the host program only reshapes and transposes: the input is transposed to pixel-major layout and flattened to a
  12800 × 512 matrix, the scale and shift vectors become one-row matrices, the first kernel's 12800 × 256 result is read as a
  [32, 20, 20, 256] array by the pooling kernel, its three results and that array are flattened again for the second convolution, whose
  weight matrix is read as four 256 × 512 slabs, and the 12800 × 512 result is unflattened and transposed back. Each boundary's contents
  at one buffer is one equation below; rewriting with them from the result backwards leaves the composed term.
-/
import proofs.«151823_g2000609335854391_pallasbulk_1276_4_alg».proof.Proof.Gen.ReferenceIdeal.Frame
import proofs.«151823_g2000609335854391_pallasbulk_1276_4_alg».proof.Proof.Spec
import proofs.«151823_g2000609335854391_pallasbulk_1276_4_alg».proof.Proof.RefRegion0
import proofs.«151823_g2000609335854391_pallasbulk_1276_4_alg».proof.Proof.RefRegion1
import proofs.«151823_g2000609335854391_pallasbulk_1276_4_alg».proof.Proof.RefRegion2
import Idealize.ShloMosaic.Lib.Pipeline.Value
import Idealize.ShloMosaic.Lib.StableHlo.Run

noncomputable section

namespace Cert.ReferenceIdeal.Host

open Idealize.ShloMosaic Idealize.ShloMosaic.ValueIdx Cert.Lib Cert.Spp Cert.ReferenceIdeal Cert.ReferenceIdeal.Gen Idealize.ShloMosaic.TcCoe Idealize.SL.Sem
open Idealize.ShloMosaic.Pipeline (Dat)

variable (m : (ℓ : Loc nD τ sig) → Buf (Elt Ideal) ℓ) (ρ : Dev nD → PrngReg)

/-! ## After the first host stretch: the first kernel's operands -/

theorem W1_v1 (c : Dev nD) :
    W1 m ρ c (Proc.devRef .tc main_call0_v1)
      = shapeCast S12800x512 (transpose S32x20x20x512 [0, 2, 3, 1] (m ((c : Thread nD τ).loc main_arg0))
          transposes_S32x512x20x20_S32x20x20x512_0_2_3_1) shapeCasts_S32x20x20x512_S12800x512 := by
  show StableHlo.after hostOps0 _ (Proc.devRef .tc main_call0_v1) = _
  after_results
  rfl

theorem W1_arg1 (c : Dev nD) :
    W1 m ρ c (Proc.devRef .tc main_arg1) = m ((c : Thread nD τ).loc main_arg1) := by
  show StableHlo.after hostOps0 _ (Proc.devRef .tc main_arg1) = _
  after_results

theorem W1_v2 (c : Dev nD) :
    W1 m ρ c (Proc.devRef .tc main_call0_v2)
      = shapeCast S1x256 (m ((c : Thread nD τ).loc main_arg2)) shapeCasts_S256_S1x256 := by
  show StableHlo.after hostOps0 _ (Proc.devRef .tc main_call0_v2) = _
  after_results
  rfl

theorem W1_v3 (c : Dev nD) :
    W1 m ρ c (Proc.devRef .tc main_call0_v3)
      = shapeCast S1x256 (m ((c : Thread nD τ).loc main_arg3)) shapeCasts_S256_S1x256 := by
  show StableHlo.after hostOps0 _ (Proc.devRef .tc main_call0_v3) = _
  after_results
  rfl

theorem W1_arg4 (c : Dev nD) :
    W1 m ρ c (Proc.devRef .tc main_arg4) = m ((c : Thread nD τ).loc main_arg4) := by
  show StableHlo.after hostOps0 _ (Proc.devRef .tc main_arg4) = _
  after_results

theorem W1_arg5 (c : Dev nD) :
    W1 m ρ c (Proc.devRef .tc main_arg5) = m ((c : Thread nD τ).loc main_arg5) := by
  show StableHlo.after hostOps0 _ (Proc.devRef .tc main_arg5) = _
  after_results

theorem W1_arg6 (c : Dev nD) :
    W1 m ρ c (Proc.devRef .tc main_arg6) = m ((c : Thread nD τ).loc main_arg6) := by
  show StableHlo.after hostOps0 _ (Proc.devRef .tc main_arg6) = _
  after_results

/-! ## After the first kernel -/

theorem W2_v4 (c : Dev nD) :
    W2 m ρ c (Proc.devRef .tc main_call0_v4)
      = ref0 (W1 m ρ c (Proc.devRef .tc main_call0_v1)) (W1 m ρ c (Proc.devRef .tc main_arg1))
          (W1 m ρ c (Proc.devRef .tc main_call0_v2)) (W1 m ρ c (Proc.devRef .tc main_call0_v3)) :=
  (W2_arr m ρ c 4).trans (Region0.final0 (V1 m ρ) c)

theorem W2_arg4 (c : Dev nD) :
    W2 m ρ c (Proc.devRef .tc main_arg4) = W1 m ρ c (Proc.devRef .tc main_arg4) :=
  W2_of_ne m ρ c main_arg4 (by decide)

theorem W2_arg5 (c : Dev nD) :
    W2 m ρ c (Proc.devRef .tc main_arg5) = W1 m ρ c (Proc.devRef .tc main_arg5) :=
  W2_of_ne m ρ c main_arg5 (by decide)

theorem W2_arg6 (c : Dev nD) :
    W2 m ρ c (Proc.devRef .tc main_arg6) = W1 m ρ c (Proc.devRef .tc main_arg6) :=
  W2_of_ne m ρ c main_arg6 (by decide)

/-! ## After the second host stretch: the pooling kernel's operand -/

theorem W3_v5 (c : Dev nD) :
    W3 m ρ c (Proc.devRef .tc main_call0_v5)
      = shapeCast S32x20x20x256 (W2 m ρ c (Proc.devRef .tc main_call0_v4)) shapeCasts_S12800x256_S32x20x20x256 := by
  show StableHlo.after hostOps1 _ (Proc.devRef .tc main_call0_v5) = _
  after_results
  rfl

theorem W3_arg4 (c : Dev nD) :
    W3 m ρ c (Proc.devRef .tc main_arg4) = W2 m ρ c (Proc.devRef .tc main_arg4) := by
  show StableHlo.after hostOps1 _ (Proc.devRef .tc main_arg4) = _
  after_results

theorem W3_arg5 (c : Dev nD) :
    W3 m ρ c (Proc.devRef .tc main_arg5) = W2 m ρ c (Proc.devRef .tc main_arg5) := by
  show StableHlo.after hostOps1 _ (Proc.devRef .tc main_arg5) = _
  after_results

theorem W3_arg6 (c : Dev nD) :
    W3 m ρ c (Proc.devRef .tc main_arg6) = W2 m ρ c (Proc.devRef .tc main_arg6) := by
  show StableHlo.after hostOps1 _ (Proc.devRef .tc main_arg6) = _
  after_results

/-! ## After the pooling kernel -/

theorem W4_v5 (c : Dev nD) :
    W4 m ρ c (Proc.devRef .tc main_call0_v5) = W3 m ρ c (Proc.devRef .tc main_call0_v5) :=
  (W4_arr m ρ c 0).trans (((dat1 (V3 m ρ) c).arrAt_in 0 rfl _).trans (A_eq1 (V3 m ρ) c 0))

theorem W4_v6_0 (c : Dev nD) :
    W4 m ρ c (Proc.devRef .tc main_call0_v6_0) = ref1_5 (W3 m ρ c (Proc.devRef .tc main_call0_v5)) :=
  (W4_arr m ρ c 1).trans (Region1.final1_5 (V3 m ρ) c)

theorem W4_v6_1 (c : Dev nD) :
    W4 m ρ c (Proc.devRef .tc main_call0_v6_1) = ref1_9 (W3 m ρ c (Proc.devRef .tc main_call0_v5)) :=
  (W4_arr m ρ c 2).trans (Region1.final1_9 (V3 m ρ) c)

theorem W4_v6_2 (c : Dev nD) :
    W4 m ρ c (Proc.devRef .tc main_call0_v6_2) = ref1_13 (W3 m ρ c (Proc.devRef .tc main_call0_v5)) :=
  (W4_arr m ρ c 3).trans (Region1.final1_13 (V3 m ρ) c)

theorem W4_arg4 (c : Dev nD) :
    W4 m ρ c (Proc.devRef .tc main_arg4) = W3 m ρ c (Proc.devRef .tc main_arg4) :=
  W4_of_ne m ρ c main_arg4 (by decide)

theorem W4_arg5 (c : Dev nD) :
    W4 m ρ c (Proc.devRef .tc main_arg5) = W3 m ρ c (Proc.devRef .tc main_arg5) :=
  W4_of_ne m ρ c main_arg5 (by decide)

theorem W4_arg6 (c : Dev nD) :
    W4 m ρ c (Proc.devRef .tc main_arg6) = W3 m ρ c (Proc.devRef .tc main_arg6) :=
  W4_of_ne m ρ c main_arg6 (by decide)

/-! ## After the third host stretch: the second convolution's operands -/

theorem W5_v7 (c : Dev nD) :
    W5 m ρ c (Proc.devRef .tc main_call0_v7)
      = shapeCast S12800x256 (W4 m ρ c (Proc.devRef .tc main_call0_v5)) shapeCasts_S32x20x20x256_S12800x256 := by
  show StableHlo.after hostOps2 _ (Proc.devRef .tc main_call0_v7) = _
  after_results
  rfl

theorem W5_v8 (c : Dev nD) :
    W5 m ρ c (Proc.devRef .tc main_call0_v8)
      = shapeCast S12800x256 (W4 m ρ c (Proc.devRef .tc main_call0_v6_0)) shapeCasts_S32x20x20x256_S12800x256 := by
  show StableHlo.after hostOps2 _ (Proc.devRef .tc main_call0_v8) = _
  after_results
  rfl

theorem W5_v9 (c : Dev nD) :
    W5 m ρ c (Proc.devRef .tc main_call0_v9)
      = shapeCast S12800x256 (W4 m ρ c (Proc.devRef .tc main_call0_v6_1)) shapeCasts_S32x20x20x256_S12800x256 := by
  show StableHlo.after hostOps2 _ (Proc.devRef .tc main_call0_v9) = _
  after_results
  rfl

theorem W5_v10 (c : Dev nD) :
    W5 m ρ c (Proc.devRef .tc main_call0_v10)
      = shapeCast S12800x256 (W4 m ρ c (Proc.devRef .tc main_call0_v6_2)) shapeCasts_S32x20x20x256_S12800x256 := by
  show StableHlo.after hostOps2 _ (Proc.devRef .tc main_call0_v10) = _
  after_results
  rfl

theorem W5_v11 (c : Dev nD) :
    W5 m ρ c (Proc.devRef .tc main_call0_v11)
      = shapeCast S4x256x512 (W4 m ρ c (Proc.devRef .tc main_arg4)) shapeCasts_S1024x512_S4x256x512 := by
  show StableHlo.after hostOps2 _ (Proc.devRef .tc main_call0_v11) = _
  after_results
  rfl

theorem W5_v12 (c : Dev nD) :
    W5 m ρ c (Proc.devRef .tc main_call0_v12)
      = shapeCast S1x512 (W4 m ρ c (Proc.devRef .tc main_arg5)) shapeCasts_S512_S1x512 := by
  show StableHlo.after hostOps2 _ (Proc.devRef .tc main_call0_v12) = _
  after_results
  rfl

theorem W5_v13 (c : Dev nD) :
    W5 m ρ c (Proc.devRef .tc main_call0_v13)
      = shapeCast S1x512 (W4 m ρ c (Proc.devRef .tc main_arg6)) shapeCasts_S512_S1x512 := by
  show StableHlo.after hostOps2 _ (Proc.devRef .tc main_call0_v13) = _
  after_results
  rfl

/-! ## After the second convolution, and the last host stretch -/

theorem W6_v14 (c : Dev nD) :
    W6 m ρ c (Proc.devRef .tc main_call0_v14)
      = ref2 (W5 m ρ c (Proc.devRef .tc main_call0_v7)) (W5 m ρ c (Proc.devRef .tc main_call0_v8))
          (W5 m ρ c (Proc.devRef .tc main_call0_v9)) (W5 m ρ c (Proc.devRef .tc main_call0_v10))
          (W5 m ρ c (Proc.devRef .tc main_call0_v11)) (W5 m ρ c (Proc.devRef .tc main_call0_v12))
          (W5 m ρ c (Proc.devRef .tc main_call0_v13)) :=
  (W6_arr m ρ c 7).trans (Region2.final2 (V5 m ρ) c)

theorem W7_main_v0 (c : Dev nD) :
    W7 m ρ c (Proc.devRef .tc main_v0)
      = transpose S32x512x20x20 [0, 3, 1, 2]
          (shapeCast S32x20x20x512 (W6 m ρ c (Proc.devRef .tc main_call0_v14)) shapeCasts_S12800x512_S32x20x20x512)
          transposes_S32x20x20x512_S32x512x20x20_0_3_1_2 := by
  show StableHlo.after hostOps3 _ (Proc.devRef .tc main_v0) = _
  after_results
  rfl

/-! ## The chain -/

/-- The first stage's output as the pooling kernel reads it. -/
theorem W3_v5_refY (c : Dev nD) :
    W3 m ρ c (Proc.devRef .tc main_call0_v5)
      = refY (m ((c : Thread nD τ).loc main_arg0)) (m ((c : Thread nD τ).loc main_arg1))
          (m ((c : Thread nD τ).loc main_arg2)) (m ((c : Thread nD τ).loc main_arg3)) := by
  rw [W3_v5, W2_v4, W1_v1, W1_arg1, W1_v2, W1_v3]
  rfl

/-- The result buffer's contents at the last boundary of @main are the three stages strung together, of the arguments as launched. -/
theorem W7_v0 (c : Dev nD) :
    W7 m ρ c (Proc.devRef .tc main_v0)
      = refTerm (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [W7_main_v0, W6_v14, W5_v7, W5_v8, W5_v9, W5_v10, W5_v11, W5_v12, W5_v13,
    W4_v5, W4_v6_0, W4_v6_1, W4_v6_2, W4_arg4, W4_arg5, W4_arg6, W3_arg4, W3_arg5, W3_arg6,
    W2_arg4, W2_arg5, W2_arg6, W1_arg4, W1_arg5, W1_arg6, W3_v5_refY]
  rfl

end Cert.ReferenceIdeal.Host

end
-- ==== Proof.RefCompose.lean ====
/-
  The reference's three stages strung together are the block's one function.

  The host lays the image out pixel-major: pixel (h, w) of image n is row (n·20 + h)·20 + w of a 12800-row matrix,
  the channel the column. Each reshape between a [12800, K] matrix and a [32, 20, 20, K] array keeps the row-major
  position, so it reads that row and the same column; the transpose [0, 2, 3, 1] moves the channel axis last and
  [0, 3, 1, 2] moves it back; the [K] → [1, K] reshapes read the scale and the shift at the channel; the
  [1024, 512] → [4, 256, 512] reshape of the second weights reads row 256·j + k for slab j. With these reads the first
  stage at (n, h, w, k) is conv1, the pooled maps are the pools of conv1's planes, and the last stage is conv2 of the
  four of them.
-/
import proofs.«151823_g2000609335854391_pallasbulk_1276_4_alg».proof.Proof.Spec
import Idealize.ShloMosaic.Lib.Pipeline.Value
import Idealize.ShloMosaic.Lib.ValueLayout

noncomputable section

namespace Cert.Spp.Compose

open Idealize.ShloMosaic Idealize.ShloMosaic.ValueIdx Cert.Lib Cert.Spp

/-! ## The host's layout operations, each read at one index -/

section Reads
variable {α : Type}

/-- The row of pixel (a, b) of image n in the pixel-major matrices. -/
def row (n : Fin 32) (a b : Fin 20) : Fin 12800 := ⟨(n.val * 20 + a.val) * 20 + b.val, by omega⟩

/-- A [12800, K] matrix read as a [32, 20, 20, K] array: (n, a, b, k) is the row of pixel (a, b) of image n, column k. -/
theorem cast_to_pixels (K : Nat) (v : (⟨2, ![12800, K]⟩ : Shape).Idx → α)
    (h : (⟨2, ![12800, K]⟩ : Shape).ShapeCasts ⟨4, ![32, 20, 20, K]⟩) (n : Fin 32) (a b : Fin 20) (k : Fin K) :
    shapeCast ⟨4, ![32, 20, 20, K]⟩ v h (ix4 n a b k) = v (ix2 (row n a b) k) :=
  shapeCast_apply _ _ _ _ (by rw [Shape.rowMajor_val_two, Shape.rowMajor_val_four]; rfl)

/-- A [32, 20, 20, K] array read as a [12800, K] matrix: the row of pixel (a, b) of image n, column k is (n, a, b, k). -/
theorem cast_to_rows (K : Nat) (v : (⟨4, ![32, 20, 20, K]⟩ : Shape).Idx → α)
    (h : (⟨4, ![32, 20, 20, K]⟩ : Shape).ShapeCasts ⟨2, ![12800, K]⟩) (n : Fin 32) (a b : Fin 20) (k : Fin K) :
    shapeCast ⟨2, ![12800, K]⟩ v h (ix2 (row n a b) k) = v (ix4 n a b k) :=
  shapeCast_apply _ _ _ _ (by rw [Shape.rowMajor_val_two, Shape.rowMajor_val_four]; rfl)

/-- The channel axis moved last: (n, a, b, q) of the result is (n, q, a, b) of the operand. -/
theorem channels_last (v : (⟨4, ![32, 512, 20, 20]⟩ : Shape).Idx → α)
    (h : (⟨4, ![32, 512, 20, 20]⟩ : Shape).Transposes [0, 2, 3, 1] ⟨4, ![32, 20, 20, 512]⟩) (n : Fin 32) (a b : Fin 20) (q : Fin 512) :
    transpose ⟨4, ![32, 20, 20, 512]⟩ [0, 2, 3, 1] v h (ix4 n a b q) = v (ix4 n q a b) :=
  transpose_apply _ _ _ _ _ (fun c => match c with | ⟨0, _⟩ => rfl | ⟨1, _⟩ => rfl | ⟨2, _⟩ => rfl | ⟨3, _⟩ => rfl)

/-- The channel axis moved back to second place: (n, c, a, b) of the result is (n, a, b, c) of the operand. -/
theorem channels_second (v : (⟨4, ![32, 20, 20, 512]⟩ : Shape).Idx → α)
    (h : (⟨4, ![32, 20, 20, 512]⟩ : Shape).Transposes [0, 3, 1, 2] ⟨4, ![32, 512, 20, 20]⟩) (n : Fin 32) (c : Fin 512) (a b : Fin 20) :
    transpose ⟨4, ![32, 512, 20, 20]⟩ [0, 3, 1, 2] v h (ix4 n c a b) = v (ix4 n a b c) :=
  transpose_apply _ _ _ _ _ (fun d => match d with | ⟨0, _⟩ => rfl | ⟨1, _⟩ => rfl | ⟨2, _⟩ => rfl | ⟨3, _⟩ => rfl)

/-- A [K] vector read as a [1, K] row: (0, k) is k. -/
theorem cast_to_row (K : Nat) (v : (⟨1, ![K]⟩ : Shape).Idx → α) (h : (⟨1, ![K]⟩ : Shape).ShapeCasts ⟨2, ![1, K]⟩) (k : Fin K) :
    shapeCast ⟨2, ![1, K]⟩ v h (ix2 0 k) = v (ix1 k) :=
  shapeCast_apply _ _ _ _ (by
    rw [Shape.rowMajor_val_one, Shape.rowMajor_val_two]
    show k.val = 0 * K + k.val
    omega)

/-- The [1024, 512] weights read as four [256, 512] slabs: (j, k, c) is row 256·j + k, column c. -/
theorem cast_to_slabs (v : (⟨2, ![1024, 512]⟩ : Shape).Idx → α)
    (h : (⟨2, ![1024, 512]⟩ : Shape).ShapeCasts ⟨3, ![4, 256, 512]⟩) (j : Fin 4) (k : Fin 256) (c : Fin 512)
    (r : Fin 1024) (hr : r.val = 256 * j.val + k.val) :
    shapeCast ⟨3, ![4, 256, 512]⟩ v h (ix3 j k c) = v (ix2 r c) :=
  shapeCast_apply _ _ _ _ (by
    rw [Shape.rowMajor_val_two, Shape.rowMajor_val_three]
    show r.val * 512 + c.val = (j.val * 256 + k.val) * 512 + c.val
    omega)

end Reads

section Stages

variable (x : (⟨4, ![32, 512, 20, 20]⟩ : Shape).Idx → EReal) (w1 : (⟨2, ![512, 256]⟩ : Shape).Idx → EReal)
  (s1 b1 : (⟨1, ![256]⟩ : Shape).Idx → EReal) (w2 : (⟨2, ![1024, 512]⟩ : Shape).Idx → EReal)
  (s2 b2 : (⟨1, ![512]⟩ : Shape).Idx → EReal)

/-! ## The first stage -/

/-- The first kernel's matrix form at row r, column k, given what its operands read there. -/
theorem ref0At_eq (xm : (⟨2, ![12800, 512]⟩ : Shape).Idx → EReal) (s b : (⟨2, ![1, 256]⟩ : Shape).Idx → EReal)
    (r : Fin 12800) (n : Fin 32) (h w : Fin 20) (k : Fin 256)
    (hx : ∀ q : Fin 512, xm (ix2 r q) = x (ix4 n q h w)) (hs : s (ix2 0 k) = s1 (ix1 k)) (hb : b (ix2 0 k) = b1 (ix1 k)) :
    ref0At xm w1 s b r k = conv1 x w1 s1 b1 n h w k := by
  unfold ref0At conv1
  rw [hs, hb]
  refine congrArg (fun t => silu (t * s1 (ix1 k) + b1 (ix1 k))) ?_
  exact Finset.sum_congr rfl fun q _ => by rw [hx q]

/-- The first stage's [32, 20, 20, 256] array holds conv1. -/
theorem refY_apply (n : Fin 32) (h w : Fin 20) (k : Fin 256) :
    refY x w1 s1 b1 (ix4 n h w k) = conv1 x w1 s1 b1 n h w k := by
  unfold refY
  refine (cast_to_pixels 256 _ _ n h w k).trans ?_
  show ref0At _ w1 _ _ (row n h w) k = _
  refine ref0At_eq x w1 s1 b1 _ _ _ (row n h w) n h w k (fun q => ?_) (cast_to_row 256 s1 _ k) (cast_to_row 256 b1 _ k)
  exact (cast_to_rows 512 _ _ n h w q).trans (channels_last x _ n h w q)

/-- Image n of the first stage's array is the plane of conv1 at n. -/
theorem plane4_refY (n : Fin 32) : plane4 (refY x w1 s1 b1) n = plane (conv1 x w1 s1 b1 n) := by
  unfold plane4
  refine congrArg plane ?_
  funext h w k
  exact refY_apply x w1 s1 b1 n h w k

/-! ## The last stage -/

/-- The last kernel's matrix form at row r, column c, given what its operands read there. -/
theorem ref2At_eq (a0 a1 a2 a3 : (⟨2, ![12800, 256]⟩ : Shape).Idx → EReal) (w4 : (⟨3, ![4, 256, 512]⟩ : Shape).Idx → EReal)
    (s b : (⟨2, ![1, 512]⟩ : Shape).Idx → EReal) (r : Fin 12800) (c : Fin 512) (y p5 p9 p13 : Fin 256 → EReal)
    (h0 : ∀ k : Fin 256, a0 (ix2 r k) = y k) (h1 : ∀ k : Fin 256, a1 (ix2 r k) = p5 k)
    (h2 : ∀ k : Fin 256, a2 (ix2 r k) = p9 k) (h3 : ∀ k : Fin 256, a3 (ix2 r k) = p13 k)
    (g0 : ∀ k : Fin 256, w4 (ix3 0 k c) = w2 (ix2 ⟨k.val, by omega⟩ c))
    (g1 : ∀ k : Fin 256, w4 (ix3 1 k c) = w2 (ix2 ⟨256 + k.val, by omega⟩ c))
    (g2 : ∀ k : Fin 256, w4 (ix3 2 k c) = w2 (ix2 ⟨512 + k.val, by omega⟩ c))
    (g3 : ∀ k : Fin 256, w4 (ix3 3 k c) = w2 (ix2 ⟨768 + k.val, by omega⟩ c))
    (hs : s (ix2 0 c) = s2 (ix1 c)) (hb : b (ix2 0 c) = b2 (ix1 c)) :
    ref2At a0 a1 a2 a3 w4 s b r c = conv2 w2 s2 b2 y p5 p9 p13 c := by
  unfold ref2At conv2
  rw [hs, hb]
  have e0 : (∑ k : Fin 256, a0 (ix2 r k) * w4 (ix3 0 k c)) = ∑ k : Fin 256, y k * w2 (ix2 ⟨k.val, by omega⟩ c) :=
    Finset.sum_congr rfl fun k _ => by rw [h0 k, g0 k]
  have e1 : (∑ k : Fin 256, a1 (ix2 r k) * w4 (ix3 1 k c)) = ∑ k : Fin 256, p5 k * w2 (ix2 ⟨256 + k.val, by omega⟩ c) :=
    Finset.sum_congr rfl fun k _ => by rw [h1 k, g1 k]
  have e2 : (∑ k : Fin 256, a2 (ix2 r k) * w4 (ix3 2 k c)) = ∑ k : Fin 256, p9 k * w2 (ix2 ⟨512 + k.val, by omega⟩ c) :=
    Finset.sum_congr rfl fun k _ => by rw [h2 k, g2 k]
  have e3 : (∑ k : Fin 256, a3 (ix2 r k) * w4 (ix3 3 k c)) = ∑ k : Fin 256, p13 k * w2 (ix2 ⟨768 + k.val, by omega⟩ c) :=
    Finset.sum_congr rfl fun k _ => by rw [h3 k, g3 k]
  rw [e0, e1, e2, e3]

/-- The whole reference term at (n, c, h, w). -/
theorem refTerm_apply (n : Fin 32) (c : Fin 512) (h w : Fin 20) :
    refTerm x w1 s1 b1 w2 s2 b2 (ix4 n c h w) = sppAt x w1 s1 b1 w2 s2 b2 n c h w := by
  unfold refTerm
  refine (channels_second _ _ n c h w).trans ?_
  refine (cast_to_pixels 512 _ _ n h w c).trans ?_
  show ref2At _ _ _ _ _ _ _ (row n h w) c = _
  unfold sppAt
  refine ref2At_eq w2 s2 b2 _ _ _ _ _ _ _ (row n h w) c _ _ _ _ (fun k => ?_) (fun k => ?_) (fun k => ?_) (fun k => ?_)
    (fun k => cast_to_slabs w2 _ 0 k c _ (by show k.val = 256 * 0 + k.val; omega))
    (fun k => cast_to_slabs w2 _ 1 k c _ (by show 256 + k.val = 256 * 1 + k.val; omega))
    (fun k => cast_to_slabs w2 _ 2 k c _ (by show 512 + k.val = 256 * 2 + k.val; omega))
    (fun k => cast_to_slabs w2 _ 3 k c _ (by show 768 + k.val = 256 * 3 + k.val; omega))
    (cast_to_row 512 s2 _ c) (cast_to_row 512 b2 _ c)
  · refine (cast_to_rows 256 _ _ n h w k).trans ?_
    rw [refY_apply, plane_apply]
  · refine (cast_to_rows 256 _ _ n h w k).trans ?_
    show pool5 (ext6 (plane4 (refY x w1 s1 b1) n)) (h.val + 4) (w.val + 4) k.val = _
    rw [plane4_refY]
  · refine (cast_to_rows 256 _ _ n h w k).trans ?_
    show pool5 (pool5 (ext6 (plane4 (refY x w1 s1 b1) n))) (h.val + 2) (w.val + 2) k.val = _
    rw [plane4_refY]
  · refine (cast_to_rows 256 _ _ n h w k).trans ?_
    show pool5 (pool5 (pool5 (ext6 (plane4 (refY x w1 s1 b1) n)))) h.val w.val k.val = _
    rw [plane4_refY]

end Stages

theorem refTerm_eq_spp (x : (⟨4, ![32, 512, 20, 20]⟩ : Shape).Idx → EReal) (w1 : (⟨2, ![512, 256]⟩ : Shape).Idx → EReal)
    (s1 b1 : (⟨1, ![256]⟩ : Shape).Idx → EReal) (w2 : (⟨2, ![1024, 512]⟩ : Shape).Idx → EReal)
    (s2 b2 : (⟨1, ![512]⟩ : Shape).Idx → EReal) : refTerm x w1 s1 b1 w2 s2 b2 = spp x w1 s1 b1 w2 s2 b2 := by
  funext i
  rw [eq_ix4 i]
  exact refTerm_apply x w1 s1 b1 w2 s2 b2 (i 0) (i 1) (i 2) (i 3)

end Cert.Spp.Compose

end
-- ==== Proof.RefValue.lean ====
/-
  The reference program's run with its result named: the block's one function `spp` of the arguments.
-/
import proofs.«151823_g2000609335854391_pallasbulk_1276_4_alg».proof.Proof.RefRun
import proofs.«151823_g2000609335854391_pallasbulk_1276_4_alg».proof.Proof.RefHost
import proofs.«151823_g2000609335854391_pallasbulk_1276_4_alg».proof.Proof.RefCompose

noncomputable section

namespace Cert.ReferenceIdeal.Value

open Idealize.ShloMosaic Idealize.ShloMosaic.TcCoe Idealize.SL.Sem Cert.Spp Cert.ReferenceIdeal

variable (m : (ℓ : Loc nD τ sig) → Buf (Elt Ideal) ℓ) (ρ : Dev nD → PrngReg)

/-- Every weakly fair execution of the reference ends with its result buffer at `spp` of the arguments, which end unchanged. -/
theorem run : θ_run (defs (F := Ideal)) (onTc (τ := τ) (main (F := Ideal))) ⟨m, fun _ => 0, ρ⟩ (fun r => ∀ c : Dev nD,
      r.2.mem ((c.tc : Thread nD τ).loc main_v0)
        = spp (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans ((Cert.ReferenceIdeal.Host.W7_v0 m ρ c).trans (Cert.Spp.Compose.refTerm_eq_spp _ _ _ _ _ _ _)), (h c).2⟩)
    (Cert.ReferenceIdeal.Run.run_v0 m ρ)

end Cert.ReferenceIdeal.Value

end
-- ==== Proof.lean ====
/-
  The fused spatial-pyramid-pooling kernel against its three-kernel reference, over the extended reals.

  Both programs compute, for every image `n`, output channel `c` and pixel `(h, w)`, the one function `Cert.Spp.spp`
  (Proof/Spec.lean): a 1 × 1 convolution with folded normalisation and SiLU, the 5 × 5 / 9 × 9 / 13 × 13 stride-one
  maximum pools of its 20 × 20 planes (as three chained 5 × 5 window maxima over a border of negative infinity), and a
  second 1 × 1 convolution over the four stacked feature maps with its normalisation and SiLU.

  The fused kernel (one grid point per image) keeps everything in one block: its matrix products contract the channel
  axis of the image block directly, so its result lands channel-major; it takes each window of five as pairs of
  pairs, which is the left-to-right maximum by associativity of `max`; and it multiplies weight by activation where the
  reference multiplies activation by weight. The reference transposes to pixel-major, runs the convolution on 512-row
  blocks of the 12800 × 512 pixel matrix, the pools on [1, 20, 20, 128] blocks, the second convolution again on 512-row
  blocks, and transposes back. At the ideal instance a change of float format is the identity and every sum is a sum
  over the same index set, so the two results agree term by term: no law beyond commutativity of the product and
  associativity of `max` is used, and the finiteness of the inputs is never opened.

  `Cert.KernelIdeal.Hand.run` and `Cert.ReferenceIdeal.Value.run` state the two runs with the result buffer at `spp` of
  the arguments; the three frames are the generated ones; the ideal pass rewrote nothing, so `preserves` is trivial.
-/
import proofs.«151823_g2000609335854391_pallasbulk_1276_4_alg».proof.Defs
import proofs.«151823_g2000609335854391_pallasbulk_1276_4_alg».proof.Proof.Gen.Kernel
import proofs.«151823_g2000609335854391_pallasbulk_1276_4_alg».proof.Proof.Gen.Kernel.Frame
import proofs.«151823_g2000609335854391_pallasbulk_1276_4_alg».proof.Proof.Gen.KernelIdeal
import proofs.«151823_g2000609335854391_pallasbulk_1276_4_alg».proof.Proof.Gen.KernelIdeal.Frame
import proofs.«151823_g2000609335854391_pallasbulk_1276_4_alg».proof.Proof.Gen.ReferenceIdeal
import proofs.«151823_g2000609335854391_pallasbulk_1276_4_alg».proof.Proof.Gen.ReferenceIdeal.Frame
import proofs.«151823_g2000609335854391_pallasbulk_1276_4_alg».proof.Proof.Gen.Pre_finite_inputs
import proofs.«151823_g2000609335854391_pallasbulk_1276_4_alg».proof.Proof.KernelValue
import proofs.«151823_g2000609335854391_pallasbulk_1276_4_alg».proof.Proof.RefValue
import Idealize.ShloMosaic.Adequacy
import Idealize.ShloMosaic.Init

noncomputable section

namespace Cert.Proof

open Idealize.ShloMosaic Idealize.SL.Sem

/-- The two idealized programs, run from memories that agree on the arguments, both end with the result buffer at
    `spp` of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.run m ρ, ?_⟩
  refine (θ_run Cert.ReferenceIdeal.defs _ _).mono (fun r h c => ⟨(h c).1.trans ?_, (h c).2⟩)
    (Cert.ReferenceIdeal.Value.run m' ρ')
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
